-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S8x1000000x2 : Shape := ⟨3, ![8, 1000000, 2]⟩
abbrev S1000000 : Shape := ⟨1, ![1000000]⟩
abbrev S16x64 : Shape := ⟨2, ![16, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S8x1000000x2 : S_.BroadcastsInDim S8x1000000x2 (![] : Fin 0 → Fin S8x1000000x2.rank)
  reducesTo_S8x1000000x2_S_d0_1_2 : S8x1000000x2.ReducesTo [0, 1, 2] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S1000000 : S_.BroadcastsInDim S1000000 (![] : Fin 0 → Fin S1000000.rank)
  reducesTo_S1000000_S_d0 : S1000000.ReducesTo [0] S_

variable [Facts]

def fn_part3 {F : FTy → Type} [FloatOps F] (main_arg2 : IVec S1000000 32) (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_c_22 : IVec S_ 32 := constantI S_ 32 0#32
  let main_v59 : IVec S1000000 32 := broadcastInDim S1000000 ![] bcast_S_S1000000 main_c_22
  let main_v60 : IVec S1000000 1 := cmpi .sge main_arg2 main_v59
  let main_c_23 : IVec S_ 1 := constantI S_ 1 1#1
  let main_v61 : IVec S_ 1 := (fun x v => Host.reduce IntOp.andi x v reducesTo_S1000000_S_d0 h_S_) main_v60 main_c_23
  let main_v62 : IVec S_ 1 := andi main_v58 main_v61
  let main_c_24 : IVec S_ 32 := constantI S_ 32 2000#32
  let main_v63 : IVec S1000000 32 := broadcastInDim S1000000 ![] bcast_S_S1000000 main_c_24
  let main_v64 : IVec S1000000 1 := cmpi .slt main_arg2 main_v63
  let main_c_25 : IVec S_ 1 := constantI S_ 1 1#1
  let main_v65 : IVec S_ 1 := (fun x v => Host.reduce IntOp.andi x v reducesTo_S1000000_S_d0 h_S_) main_v64 main_c_25
  let main_v66 : IVec S_ 1 := andi main_v62 main_v65
  main_v66

def fn_part2 {F : FTy → Type} [FloatOps F] (main_arg2 : IVec S1000000 32) (main_arg8 : FVec F S64x128 .f32) (main_arg9 : FVec F S128 .f32) (main_arg10 : FVec F S64x128 .f32) (main_arg11 : FVec F S128 .f32) (main_arg12 : FVec F S128 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64x128 .f32 := Host.absf main_arg10
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg2 main_arg12 main_v48 main_v49 main_v50

def fn_part1 {F : FTy → Type} [FloatOps F] (main_arg2 : IVec S1000000 32) (main_arg5 : FVec F S64x64 .f32) (main_arg6 : FVec F S64 .f32) (main_arg7 : FVec F S64x64 .f32) (main_arg8 : FVec F S64x128 .f32) (main_arg9 : FVec F S128 .f32) (main_arg10 : FVec F S64x128 .f32) (main_arg11 : FVec F S128 .f32) (main_arg12 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg2 main_arg8 main_arg9 main_arg10 main_arg11 main_arg12 main_v33

def fn {F : FTy → Type} [FloatOps F] (main_arg0 : FVec F S1000000x128 .f32) (main_arg1 : FVec F S8x1000000x2 .f32) (main_arg2 : IVec S1000000 32) (main_arg3 : FVec F S16x64 .f32) (main_arg4 : FVec F S64 .f32) (main_arg5 : FVec F S64x64 .f32) (main_arg6 : FVec F S64 .f32) (main_arg7 : FVec F S64x64 .f32) (main_arg8 : FVec F S64x128 .f32) (main_arg9 : FVec F S128 .f32) (main_arg10 : FVec F S64x128 .f32) (main_arg11 : FVec F S128 .f32) (main_arg12 : FVec F S128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S8x1000000x2 .f32 := Host.absf main_arg1
  let main_cst_0 : FVec F S_ .f32 := constant S_ .f32 0x7F800000#32
  let main_v5 : FVec F S8x1000000x2 .f32 := broadcastInDim S8x1000000x2 ![] bcast_S_S8x1000000x2 main_cst_0
  let main_v6 : IVec S8x1000000x2 1 := cmpf .olt main_v4 main_v5
  let main_c_1 : IVec S_ 1 := constantI S_ 1 1#1
  let main_v7 : IVec S_ 1 := (fun x v => Host.reduce IntOp.andi x v reducesTo_S8x1000000x2_S_d0_1_2 h_S_) main_v6 main_c_1
  let main_v8 : IVec S_ 1 := andi main_v3 main_v7
  let main_v9 : FVec F S16x64 .f32 := Host.absf main_arg3
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg5 main_arg6 main_arg7 main_arg8 main_arg9 main_arg10 main_arg11 main_arg12 main_v13 main_v16
-- ==== Kernel.lean ====
abbrev S1000000x128 : Shape := ⟨2, ![1000000, 128]⟩
abbrev S8x1000000x2 : Shape := ⟨3, ![8, 1000000, 2]⟩
abbrev S1000000 : Shape := ⟨1, ![1000000]⟩
abbrev S16x64 : Shape := ⟨2, ![16, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x64 : Shape := ⟨2, ![1, 64]⟩
abbrev S1x128 : Shape := ⟨2, ![1, 128]⟩
abbrev S1000000x1 : Shape := ⟨2, ![1000000, 1]⟩
abbrev S1000000x8x2 : Shape := ⟨3, ![1000000, 8, 2]⟩
abbrev S1000000x16 : Shape := ⟨2, ![1000000, 16]⟩
abbrev S1000000x64 : Shape := ⟨2, ![1000000, 64]⟩
abbrev S5000x16 : Shape := ⟨2, ![5000, 16]⟩
abbrev S5000x64 : Shape := ⟨2, ![5000, 64]⟩
abbrev S_ : Shape := ⟨0, ![]⟩
abbrev S2000 : Shape := ⟨1, ![2000]⟩
abbrev S2000x1 : Shape := ⟨2, ![2000, 1]⟩
abbrev S2000x64 : Shape := ⟨2, ![2000, 64]⟩
abbrev S2048x64 : Shape := ⟨2, ![2048, 64]⟩
abbrev S2000x2048 : Shape := ⟨2, ![2000, 2048]⟩
abbrev S2000x128 : Shape := ⟨2, ![2000, 128]⟩
abbrev S2048x128 : Shape := ⟨2, ![2048, 128]⟩
abbrev S5000x128 : Shape := ⟨2, ![5000, 128]⟩

abbrev nBuf : Space → Nat
  | .hbm => 68
  | .vmem => 36
  | .smem => 0
  | _ => 0

abbrev bufTy : (tb : Table) → Fin (tcTables nBuf tb) → BufTy
  | .hbm, ⟨0, _⟩ => ⟨S1000000x128, .f32⟩
  | .hbm, ⟨1, _⟩ => ⟨S8x1000000x2, .f32⟩
  | .hbm, ⟨2, _⟩ => ⟨S1000000, .i32⟩
  | .hbm, ⟨3, _⟩ => ⟨S16x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x128, .f32⟩
  | .hbm, ⟨9, _⟩ => ⟨S128, .f32⟩
  | .hbm, ⟨10, _⟩ => ⟨S64x128, .f32⟩
  | .hbm, ⟨11, _⟩ => ⟨S128, .f32⟩
  | .hbm, ⟨12, _⟩ => ⟨S128, .f32⟩
  | .hbm, ⟨13, _⟩ => ⟨S1x64, .f32⟩
  | .hbm, ⟨14, _⟩ => ⟨S1x64, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S1000000x1, .i32⟩
  | .hbm, ⟨19, _⟩ => ⟨S1000000x8x2, .f32⟩
  | .hbm, ⟨20, _⟩ => ⟨S1000000x16, .f32⟩
  | .hbm, ⟨21, _⟩ => ⟨S1000000x64, .f32⟩
  | .hbm, ⟨22, _⟩ => ⟨S_, .f32⟩
  | .hbm, ⟨23, _⟩ => ⟨S1000000, .f32⟩
  | .hbm, ⟨24, _⟩ => ⟨S_, .f32⟩
  | .hbm, ⟨25, _⟩ => ⟨S2000, .f32⟩
  | .hbm, ⟨26, _⟩ => ⟨S1000000x1, .i32⟩
  | .hbm, ⟨27, _⟩ => ⟨S2000, .f32⟩
  | .hbm, ⟨28, _⟩ => ⟨S_, .f32⟩
  | .hbm, ⟨29, _⟩ => ⟨S2000, .f32⟩
  | .hbm, ⟨30, _⟩ => ⟨S2000, .f32⟩
  | .hbm, ⟨31, _⟩ => ⟨S2000x1, .f32⟩
  | .hbm, ⟨32, _⟩ => ⟨S_, .f32⟩
  | .hbm, ⟨33, _⟩ => ⟨S2000x64, .f32⟩
  | .hbm, ⟨34, _⟩ => ⟨S1000000x1, .i32⟩
  | .hbm, ⟨35, _⟩ => ⟨S2000x64, .f32⟩
  | .hbm, ⟨36, _⟩ => ⟨S2000x64, .f32⟩
  | .hbm, ⟨37, _⟩ => ⟨S2000x64, .f32⟩
  | .hbm, ⟨38, _⟩ => ⟨S2000x64, .f32⟩
  | .hbm, ⟨39, _⟩ => ⟨S_, .i32⟩
  | .hbm, ⟨40, _⟩ => ⟨S_, .f32⟩
  | .hbm, ⟨41, _⟩ => ⟨S2048x64, .f32⟩
  | .hbm, ⟨42, _⟩ => ⟨S1000000x64, .f32⟩
  | .hbm, ⟨43, _⟩ => ⟨S_, .f32⟩
  | .hbm, ⟨44, _⟩ => ⟨S2000x64, .f32⟩
  | .hbm, ⟨45, _⟩ => ⟨S1000000x1, .i32⟩
  | .hbm, ⟨46, _⟩ => ⟨S2000x64, .f32⟩
  | .hbm, ⟨47, _⟩ => ⟨S2000x64, .f32⟩
  | .hbm, ⟨48, _⟩ => ⟨S2000x64, .f32⟩
  | .hbm, ⟨49, _⟩ => ⟨S2000x128, .f32⟩
  | .hbm, ⟨50, _⟩ => ⟨S_, .i32⟩
  | .hbm, ⟨51, _⟩ => ⟨S_, .f32⟩
  | .hbm, ⟨52, _⟩ => ⟨S2048x128, .f32⟩
  | .hbm, ⟨53, _⟩ => ⟨S1000000x128, .f32⟩
  | .hbm, ⟨54, _⟩ => ⟨S1x128, .f32⟩
  | .hbm, ⟨55, _⟩ => ⟨S1x128, .f32⟩
  | .hbm, ⟨56, _⟩ => ⟨S_, .f32⟩
  | .hbm, ⟨57, _⟩ => ⟨S1x128, .f32⟩
  | .hbm, ⟨58, _⟩ => ⟨S1x128, .f32⟩
  | .hbm, ⟨59, _⟩ => ⟨S_, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S_, .f32⟩
  | .hbm, ⟨65, _⟩ => ⟨S1x128, .f32⟩
  | .hbm, ⟨66, _⟩ => ⟨S1x128, .f32⟩
  | .hbm, ⟨67, _⟩ => ⟨S1000000x128, .f32⟩
  | .local _ .vmem, ⟨0, _⟩ => ⟨S5000x16, .f32⟩
  | .local _ .vmem, ⟨1, _⟩ => ⟨S5000x16, .f32⟩
  | .local _ .vmem, ⟨2, _⟩ => ⟨S16x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S2000x64, .f32⟩
  | .local _ .vmem, ⟨7, _⟩ => ⟨S2000x64, .f32⟩
  | .local _ .vmem, ⟨8, _⟩ => ⟨S2000x1, .i32⟩
  | .local _ .vmem, ⟨9, _⟩ => ⟨S2000x1, .i32⟩
  | .local _ .vmem, ⟨10, _⟩ => ⟨S2048x64, .f32⟩
  | .local _ .vmem, ⟨11, _⟩ => ⟨S64x64, .f32⟩
  | .local _ .vmem, ⟨12, _⟩ => ⟨S1x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x1, .i32⟩
  | .local _ .vmem, ⟨18, _⟩ => ⟨S2000x1, .i32⟩
  | .local _ .vmem, ⟨19, _⟩ => ⟨S2048x128, .f32⟩
  | .local _ .vmem, ⟨20, _⟩ => ⟨S64x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c : Ref sig .tc := ⟨.hbm, 39, rfl⟩
abbrev main_call0_v0 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_4 : Ref sig .tc := ⟨.hbm, 50, rfl⟩
abbrev main_call1_v0 : Ref sig .tc := ⟨.hbm, 51, rfl⟩
abbrev main_v30 : Ref sig .tc := ⟨.hbm, 52, rfl⟩
abbrev main_v31_0 : Ref sig .tc := ⟨.hbm, 53, rfl⟩
abbrev main_v31_1 : Ref sig .tc := ⟨.hbm, 54, rfl⟩
abbrev main_v31_2 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_cst_6 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_7 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg7_0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc2_sem6_0 : DmaSem sig := 24
abbrev cc2_sem7_0 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![500], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![500], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2048x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  shapeCasts_S64_S1x64 : S64.ShapeCasts S1x64
  shapeCasts_S128_S1x128 : S128.ShapeCasts S1x128
  shapeCasts_S1000000_S1000000x1 : S1000000.ShapeCasts S1000000x1
  transposes_S8x1000000x2_S1000000x8x2_1_0_2 : S8x1000000x2.Transposes [1, 0, 2] S1000000x8x2
  shapeCasts_S1000000x8x2_S1000000x16 : S1000000x8x2.ShapeCasts S1000000x16
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S1000000 : S_.BroadcastsInDim S1000000 (![] : Fin 0 → Fin S1000000.rank)
  bcast_S_S2000 : S_.BroadcastsInDim S2000 (![] : Fin 0 → Fin S2000.rank)
  bcast_S1000000_S1000000x1_0 : S1000000.BroadcastsInDim S1000000x1 (![0] : Fin 1 → Fin S1000000x1.rank)
  bcast_S2000_S2000x1_0 : S2000.BroadcastsInDim S2000x1 (![0] : Fin 1 → Fin S2000x1.rank)
  bcast_S_S2000x64 : S_.BroadcastsInDim S2000x64 (![] : Fin 0 → Fin S2000x64.rank)
  bcast_S2000x1_S2000x64_0_1 : S2000x1.BroadcastsInDim S2000x64 (![0, 1] : Fin 2 → Fin S2000x64.rank)
  pads_S2000x64_S2048x64_0480_000 : S2000x64.Pads (![0, 0] : Fin 2 → Nat) ![48, 0] ![0, 0] S2048x64
  h_S_ : 0 < S_.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x2048_d1_w32 : S2000x2048.Iotas .tc 32 [1]
  broadcasts_S2000x1_S2000x2048 : S2000x1.Broadcasts S2000x2048
  natLt_1_32 : 1 < 32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x64_S64x64_0_0 : ∀ a, (![0, 0] : Fin 2 → Nat) a + S64x64.size a ≤ S64x64.size a
  h_S64x64 : 0 < S64x64.numel
  broadcasts_S1x64_S2000x64 : S1x64.Broadcasts S2000x64
  pads_S2000x128_S2048x128_0480_000 : S2000x128.Pads (![0, 0] : Fin 2 → Nat) ![48, 0] ![0, 0] S2048x128
  inb_S1x128_S1x128_0_0 : ∀ a, (![0, 0] : Fin 2 → Nat) a + S1x128.size a ≤ S1x128.size a
  h_S1x128 : 0 < S1x128.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S64x128_S64x128_0_0 : ∀ a, (![0, 0] : Fin 2 → Nat) a + S64x128.size a ≤ S64x128.size a
  h_S64x128 : 0 < S64x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  reduces_S2000x128_S128 : S2000x128.Reduces [0] S128
  bcast_S_S1x128 : S_.BroadcastsInDim S1x128 (![] : Fin 0 → Fin S1x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  dot_S5000x16_S16x64_S5000x64_1_0_0_1_n_n_wf : DotDims.WF S5000x16 S16x64 S5000x64 [1] [0] [0] [1] [] []
  scatter_S2000_S1000000x1_S1000000_n_0_0_1_wf : ScatterDims.WF S2000 S1000000x1 S1000000 [] [0] [0] 1
  scatter_S2000x64_S1000000x1_S1000000x64_1_0_0_1_wf : ScatterDims.WF S2000x64 S1000000x1 S1000000x64 [1] [0] [0] 1
  dot_S2000x64_S64x64_S2000x64_1_0_0_1_n_n_wf : DotDims.WF S2000x64 S64x64 S2000x64 [1] [0] [0] [1] [] []
  dot_S2000x2048_S2048x64_S2000x64_1_0_0_1_n_n_wf : DotDims.WF S2000x2048 S2048x64 S2000x64 [1] [0] [0] [1] [] []
  dot_S2000x64_S64x128_S2000x128_1_0_0_1_n_n_wf : DotDims.WF S2000x64 S64x128 S2000x128 [1] [0] [0] [1] [] []
  dot_S2000x2048_S2048x128_S2000x128_1_0_0_1_n_n_wf : DotDims.WF S2000x2048 S2048x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S1000000x16.size a
  hwx0_0 : ∀ i : grid0.Coords, EltTy.bits .f32 = 32 ∨ (Rect.block (s := S1000000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S1000000x64.size a
  hwx0_3 : ∀ i : grid0.Coords, EltTy.bits .f32 = 32 ∨ (Rect.block (s := S1000000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S1000000x64.size a
  hwx1_0 : ∀ i : grid1.Coords, EltTy.bits .f32 = 32 ∨ (Rect.block (s := S1000000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S1000000x1.size a
  hwx1_1 : ∀ i : grid1.Coords, EltTy.bits .i32 = 32 ∨ (Rect.block (s := S1000000x1) S2000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S2048x64.size a
  hwx1_2 : ∀ i : grid1.Coords, EltTy.bits .f32 = 32 ∨ (Rect.block (s := S2048x64) S2048x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S1000000x64.size a
  hwx1_5 : ∀ i : grid1.Coords, EltTy.bits .f32 = 32 ∨ (Rect.block (s := S1000000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S1000000x64.size a
  hwx2_0 : ∀ i : grid2.Coords, EltTy.bits .f32 = 32 ∨ (Rect.block (s := S1000000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S1000000x1.size a
  hwx2_1 : ∀ i : grid2.Coords, EltTy.bits .i32 = 32 ∨ (Rect.block (s := S1000000x1) S2000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S2048x128.size a
  hwx2_2 : ∀ i : grid2.Coords, EltTy.bits .f32 = 32 ∨ (Rect.block (s := S2048x128) S2048x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S1000000x128.size a
  hwx2_5 : ∀ i : grid2.Coords, EltTy.bits .f32 = 32 ∨ (Rect.block (s := S1000000x128) S2000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S1000000x128.size a
  hwx3_0 : ∀ i : grid3.Coords, EltTy.bits .f32 = 32 ∨ (Rect.block (s := S1000000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S1000000x128.size a
  hwx3_1 : ∀ i : grid3.Coords, EltTy.bits .f32 = 32 ∨ (Rect.block (s := S1000000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S1000000x128.size a
  hwx3_6 : ∀ i : grid3.Coords, EltTy.bits .f32 = 32 ∨ (Rect.block (s := S1000000x128) S5000x128.size (cc3_transform_6 i) (hinb3_6 i)).WholeWords (EltTy.packing .f32)

variable [Facts₀]

def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def scatter_S2000_S1000000x1_S1000000_n_0_0_1 : ScatterDims S2000 S1000000x1 S1000000 where
  updateWindowDims := []
  insertedWindowDims := [0]
  scatterDimsToOperandDims := [0]
  indexVectorDim := 1
  wf := scatter_S2000_S1000000x1_S1000000_n_0_0_1_wf
def scatter_S2000x64_S1000000x1_S1000000x64_1_0_0_1 : ScatterDims S2000x64 S1000000x1 S1000000x64 where
  updateWindowDims := [1]
  insertedWindowDims := [0]
  scatterDimsToOperandDims := [0]
  indexVectorDim := 1
  wf := scatter_S2000x64_S1000000x1_S1000000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x2048_S2048x64_S2000x64_1_0_0_1_n_n : DotDims S2000x2048 S2048x64 S2000x64 where
  lhsContracting := [1]
  rhsContracting := [0]
  lhsNonContracting := [0]
  rhsNonContracting := [1]
  lhsBatch := []
  rhsBatch := []
  wf := dot_S2000x2048_S2048x64_S2000x64_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x2048_S2048x128_S2000x128_1_0_0_1_n_n : DotDims S2000x2048 S2048x128 S2000x128 where
  lhsContracting := [1]
  rhsContracting := [0]
  lhsNonContracting := [0]
  rhsNonContracting := [1]
  lhsBatch := []
  rhsBatch := []
  wf := dot_S2000x2048_S2048x128_S2000x128_1_0_0_1_n_n_wf

abbrev win0_0 : Pipeline.Window sig grid0 :=
  Pipeline.Window.ofSpec (Memref.whole main_v7) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S2048x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v23) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S2048x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v2) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v31_0) S2000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v31_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v31_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v31_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v33) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v39) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v3) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v4) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v40) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S1000000x128 : Shape := ⟨2, ![1000000, 128]⟩
abbrev S8x1000000x2 : Shape := ⟨3, ![8, 1000000, 2]⟩
abbrev S1000000 : Shape := ⟨1, ![1000000]⟩
abbrev S16x64 : Shape := ⟨2, ![16, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1000000x8x2 : Shape := ⟨3, ![1000000, 8, 2]⟩
abbrev S1000000x16 : Shape := ⟨2, ![1000000, 16]⟩
abbrev S1000000x64 : Shape := ⟨2, ![1000000, 64]⟩
abbrev S1x64 : Shape := ⟨2, ![1, 64]⟩
abbrev S_ : Shape := ⟨0, ![]⟩
abbrev S2000x64 : Shape := ⟨2, ![2000, 64]⟩
abbrev S1000000x1 : Shape := ⟨2, ![1000000, 1]⟩
abbrev S2000 : Shape := ⟨1, ![2000]⟩
abbrev S2000x1 : Shape := ⟨2, ![2000, 1]⟩
abbrev S2000x128 : Shape := ⟨2, ![2000, 128]⟩
abbrev S1x128 : Shape := ⟨2, ![1, 128]⟩

abbrev nBuf : Space → Nat
  | .hbm => 121
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S8x1000000x2, .f32⟩
  | .hbm, ⟨2, _⟩ => ⟨S1000000, .i32⟩
  | .hbm, ⟨3, _⟩ => ⟨S16x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x128, .f32⟩
  | .hbm, ⟨9, _⟩ => ⟨S128, .f32⟩
  | .hbm, ⟨10, _⟩ => ⟨S64x128, .f32⟩
  | .hbm, ⟨11, _⟩ => ⟨S128, .f32⟩
  | .hbm, ⟨12, _⟩ => ⟨S128, .f32⟩
  | .hbm, ⟨13, _⟩ => ⟨S1000000x8x2, .f32⟩
  | .hbm, ⟨14, _⟩ => ⟨S1000000x16, .f32⟩
  | .hbm, ⟨15, _⟩ => ⟨S1000000x64, .f32⟩
  | .hbm, ⟨16, _⟩ => ⟨S1x64, .f32⟩
  | .hbm, ⟨17, _⟩ => ⟨S1000000x64, .f32⟩
  | .hbm, ⟨18, _⟩ => ⟨S1000000x64, .f32⟩
  | .hbm, ⟨19, _⟩ => ⟨S_, .f32⟩
  | .hbm, ⟨20, _⟩ => ⟨S1000000x64, .f32⟩
  | .hbm, ⟨21, _⟩ => ⟨S1000000x64, .f32⟩
  | .hbm, ⟨22, _⟩ => ⟨S_, .f32⟩
  | .hbm, ⟨23, _⟩ => ⟨S2000x64, .f32⟩
  | .hbm, ⟨24, _⟩ => ⟨S1000000x1, .i32⟩
  | .hbm, ⟨25, _⟩ => ⟨S2000x64, .f32⟩
  | .hbm, ⟨26, _⟩ => ⟨S_, .f32⟩
  | .hbm, ⟨27, _⟩ => ⟨S1000000, .f32⟩
  | .hbm, ⟨28, _⟩ => ⟨S_, .f32⟩
  | .hbm, ⟨29, _⟩ => ⟨S2000, .f32⟩
  | .hbm, ⟨30, _⟩ => ⟨S1000000x1, .i32⟩
  | .hbm, ⟨31, _⟩ => ⟨S2000, .f32⟩
  | .hbm, ⟨32, _⟩ => ⟨S_, .f32⟩
  | .hbm, ⟨33, _⟩ => ⟨S2000, .f32⟩
  | .hbm, ⟨34, _⟩ => ⟨S2000, .f32⟩
  | .hbm, ⟨35, _⟩ => ⟨S2000x1, .f32⟩
  | .hbm, ⟨36, _⟩ => ⟨S2000x64, .f32⟩
  | .hbm, ⟨37, _⟩ => ⟨S2000x64, .f32⟩
  | .hbm, ⟨38, _⟩ => ⟨S2000x64, .f32⟩
  | .hbm, ⟨39, _⟩ => ⟨S1000000x64, .f32⟩
  | .hbm, ⟨40, _⟩ => ⟨S1x64, .f32⟩
  | .hbm, ⟨41, _⟩ => ⟨S1000000x64, .f32⟩
  | .hbm, ⟨42, _⟩ => ⟨S1000000x64, .f32⟩
  | .hbm, ⟨43, _⟩ => ⟨S_, .i32⟩
  | .hbm, ⟨44, _⟩ => ⟨S1000000, .i32⟩
  | .hbm, ⟨45, _⟩ => ⟨S1000000, .i1⟩
  | .hbm, ⟨46, _⟩ => ⟨S_, .i32⟩
  | .hbm, ⟨47, _⟩ => ⟨S1000000, .i32⟩
  | .hbm, ⟨48, _⟩ => ⟨S1000000, .i32⟩
  | .hbm, ⟨49, _⟩ => ⟨S1000000, .i32⟩
  | .hbm, ⟨50, _⟩ => ⟨S1000000x1, .i32⟩
  | .hbm, ⟨51, _⟩ => ⟨S1000000x64, .f32⟩
  | .hbm, ⟨52, _⟩ => ⟨S1000000x64, .f32⟩
  | .hbm, ⟨53, _⟩ => ⟨S_, .f32⟩
  | .hbm, ⟨54, _⟩ => ⟨S1000000x64, .f32⟩
  | .hbm, ⟨55, _⟩ => ⟨S1000000x64, .f32⟩
  | .hbm, ⟨56, _⟩ => ⟨S_, .f32⟩
  | .hbm, ⟨57, _⟩ => ⟨S2000x64, .f32⟩
  | .hbm, ⟨58, _⟩ => ⟨S1000000x1, .i32⟩
  | .hbm, ⟨59, _⟩ => ⟨S2000x64, .f32⟩
  | .hbm, ⟨60, _⟩ => ⟨S_, .f32⟩
  | .hbm, ⟨61, _⟩ => ⟨S1000000, .f32⟩
  | .hbm, ⟨62, _⟩ => ⟨S_, .f32⟩
  | .hbm, ⟨63, _⟩ => ⟨S2000, .f32⟩
  | .hbm, ⟨64, _⟩ => ⟨S1000000x1, .i32⟩
  | .hbm, ⟨65, _⟩ => ⟨S2000, .f32⟩
  | .hbm, ⟨66, _⟩ => ⟨S_, .f32⟩
  | .hbm, ⟨67, _⟩ => ⟨S2000, .f32⟩
  | .hbm, ⟨68, _⟩ => ⟨S2000, .f32⟩
  | .hbm, ⟨69, _⟩ => ⟨S2000x1, .f32⟩
  | .hbm, ⟨70, _⟩ => ⟨S2000x64, .f32⟩
  | .hbm, ⟨71, _⟩ => ⟨S2000x64, .f32⟩
  | .hbm, ⟨72, _⟩ => ⟨S2000x128, .f32⟩
  | .hbm, ⟨73, _⟩ => ⟨S1000000x128, .f32⟩
  | .hbm, ⟨74, _⟩ => ⟨S1x128, .f32⟩
  | .hbm, ⟨75, _⟩ => ⟨S1000000x128, .f32⟩
  | .hbm, ⟨76, _⟩ => ⟨S1000000x128, .f32⟩
  | .hbm, ⟨77, _⟩ => ⟨S_, .i32⟩
  | .hbm, ⟨78, _⟩ => ⟨S1000000, .i32⟩
  | .hbm, ⟨79, _⟩ => ⟨S1000000, .i1⟩
  | .hbm, ⟨80, _⟩ => ⟨S_, .i32⟩
  | .hbm, ⟨81, _⟩ => ⟨S1000000, .i32⟩
  | .hbm, ⟨82, _⟩ => ⟨S1000000, .i32⟩
  | .hbm, ⟨83, _⟩ => ⟨S1000000, .i32⟩
  | .hbm, ⟨84, _⟩ => ⟨S1000000x1, .i32⟩
  | .hbm, ⟨85, _⟩ => ⟨S1000000x128, .f32⟩
  | .hbm, ⟨86, _⟩ => ⟨S1000000x128, .f32⟩
  | .hbm, ⟨87, _⟩ => ⟨S_, .f32⟩
  | .hbm, ⟨88, _⟩ => ⟨S1000000x128, .f32⟩
  | .hbm, ⟨89, _⟩ => ⟨S1000000x128, .f32⟩
  | .hbm, ⟨90, _⟩ => ⟨S_, .f32⟩
  | .hbm, ⟨91, _⟩ => ⟨S128, .f32⟩
  | .hbm, ⟨92, _⟩ => ⟨S_, .f32⟩
  | .hbm, ⟨93, _⟩ => ⟨S128, .f32⟩
  | .hbm, ⟨94, _⟩ => ⟨S128, .f32⟩
  | .hbm, ⟨95, _⟩ => ⟨S1x128, .f32⟩
  | .hbm, ⟨96, _⟩ => ⟨S1000000x128, .f32⟩
  | .hbm, ⟨97, _⟩ => ⟨S1000000x128, .f32⟩
  | .hbm, ⟨98, _⟩ => ⟨S1000000x128, .f32⟩
  | .hbm, ⟨99, _⟩ => ⟨S_, .f32⟩
  | .hbm, ⟨100, _⟩ => ⟨S128, .f32⟩
  | .hbm, ⟨101, _⟩ => ⟨S_, .f32⟩
  | .hbm, ⟨102, _⟩ => ⟨S128, .f32⟩
  | .hbm, ⟨103, _⟩ => ⟨S128, .f32⟩
  | .hbm, ⟨104, _⟩ => ⟨S1x128, .f32⟩
  | .hbm, ⟨105, _⟩ => ⟨S1000000x128, .f32⟩
  | .hbm, ⟨106, _⟩ => ⟨S1000000x128, .f32⟩
  | .hbm, ⟨107, _⟩ => ⟨S1x128, .f32⟩
  | .hbm, ⟨108, _⟩ => ⟨S1000000x128, .f32⟩
  | .hbm, ⟨109, _⟩ => ⟨S1000000x128, .f32⟩
  | .hbm, ⟨110, _⟩ => ⟨S_, .f32⟩
  | .hbm, ⟨111, _⟩ => ⟨S128, .f32⟩
  | .hbm, ⟨112, _⟩ => ⟨S128, .f32⟩
  | .hbm, ⟨113, _⟩ => ⟨S128, .f32⟩
  | .hbm, ⟨114, _⟩ => ⟨S1x128, .f32⟩
  | .hbm, ⟨115, _⟩ => ⟨S1000000x128, .f32⟩
  | .hbm, ⟨116, _⟩ => ⟨S1000000x128, .f32⟩
  | .hbm, ⟨117, _⟩ => ⟨S1x128, .f32⟩
  | .hbm, ⟨118, _⟩ => ⟨S1000000x128, .f32⟩
  | .hbm, ⟨119, _⟩ => ⟨S1000000x128, .f32⟩
  | .hbm, ⟨120, _⟩ => ⟨S1000000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call0_cst : Ref sig .tc := ⟨.hbm, 19, rfl⟩
abbrev main_call0_v0 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c : Ref sig .tc := ⟨.hbm, 43, rfl⟩
abbrev main_v24 : Ref sig .tc := ⟨.hbm, 44, rfl⟩
abbrev main_v25 : Ref sig .tc := ⟨.hbm, 45, rfl⟩
abbrev main_c_3 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call1_cst : Ref sig .tc := ⟨.hbm, 53, rfl⟩
abbrev main_call1_v0 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_5 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_7 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_8 : Ref sig .tc := ⟨.hbm, 77, rfl⟩
abbrev main_v50 : Ref sig .tc := ⟨.hbm, 78, rfl⟩
abbrev main_v51 : Ref sig .tc := ⟨.hbm, 79, rfl⟩
abbrev main_c_9 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_call2_cst : Ref sig .tc := ⟨.hbm, 87, rfl⟩
abbrev main_call2_v0 : Ref sig .tc := ⟨.hbm, 88, rfl⟩
abbrev main_v58 : Ref sig .tc := ⟨.hbm, 89, rfl⟩
abbrev main_cst_10 : Ref sig .tc := ⟨.hbm, 90, rfl⟩
abbrev main_v59 : Ref sig .tc := ⟨.hbm, 91, rfl⟩
abbrev main_cst_11 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_12 : Ref sig .tc := ⟨.hbm, 99, rfl⟩
abbrev main_v66 : Ref sig .tc := ⟨.hbm, 100, rfl⟩
abbrev main_cst_13 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_14 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩

abbrev nD : Nat := 1
abbrev τ : Topo := Topo.v7x

variable {F : FTy → Type} [FloatOps F]

class Facts₀ : Prop where
  transposes_S8x1000000x2_S1000000x8x2_1_0_2 : S8x1000000x2.Transposes [1, 0, 2] S1000000x8x2
  shapeCasts_S1000000x8x2_S1000000x16 : S1000000x8x2.ShapeCasts S1000000x16
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S_S2000x64 : S_.BroadcastsInDim S2000x64 (![] : Fin 0 → Fin S2000x64.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x64_0_1 : S2000x1.BroadcastsInDim S2000x64 (![0, 1] : Fin 2 → Fin S2000x64.rank)
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  reducesTo_S1000000x128_S128_d0 : S1000000x128.ReducesTo [0] S128
  h_S_ : 0 < S_.numel
  bcast_S_S128 : S_.BroadcastsInDim S128 (![] : Fin 0 → Fin S128.rank)
  dot_S1000000x16_S16x64_S1000000x64_1_0_0_1_n_n_wf : DotDims.WF S1000000x16 S16x64 S1000000x64 [1] [0] [0] [1] [] []
  scatter_S2000x64_S1000000x1_S1000000x64_1_0_0_1_wf : ScatterDims.WF S2000x64 S1000000x1 S1000000x64 [1] [0] [0] 1
  scatter_S2000_S1000000x1_S1000000_n_0_0_1_wf : ScatterDims.WF S2000 S1000000x1 S1000000 [] [0] [0] 1
  dot_S2000x64_S64x64_S2000x64_1_0_0_1_n_n_wf : DotDims.WF S2000x64 S64x64 S2000x64 [1] [0] [0] [1] [] []
  dot_S1000000x64_S64x64_S1000000x64_1_0_0_1_n_n_wf : DotDims.WF S1000000x64 S64x64 S1000000x64 [1] [0] [0] [1] [] []
  gather_S2000x64_S1000000x1_S1000000x64_1_0_n_n_0_1_164_wf : GatherDims.WF S2000x64 S1000000x1 S1000000x64 [1] [0] [] [0] [] 1 ![1, 64]
  dot_S2000x64_S64x128_S2000x128_1_0_0_1_n_n_wf : DotDims.WF S2000x64 S64x128 S2000x128 [1] [0] [0] [1] [] []
  dot_S1000000x64_S64x128_S1000000x128_1_0_0_1_n_n_wf : DotDims.WF S1000000x64 S64x128 S1000000x128 [1] [0] [0] [1] [] []
  gather_S2000x128_S1000000x1_S1000000x128_1_0_n_n_0_1_1128_wf : GatherDims.WF S2000x128 S1000000x1 S1000000x128 [1] [0] [] [0] [] 1 ![1, 128]

variable [Facts₀]

def dot_S1000000x16_S16x64_S1000000x64_1_0_0_1_n_n : DotDims S1000000x16 S16x64 S1000000x64 where
  lhsContracting := [1]
  rhsContracting := [0]
  lhsNonContracting := [0]
  rhsNonContracting := [1]
  lhsBatch := []
  rhsBatch := []
  wf := dot_S1000000x16_S16x64_S1000000x64_1_0_0_1_n_n_wf
def scatter_S2000x64_S1000000x1_S1000000x64_1_0_0_1 : ScatterDims S2000x64 S1000000x1 S1000000x64 where
  updateWindowDims := [1]
  insertedWindowDims := [0]
  scatterDimsToOperandDims := [0]
  indexVectorDim := 1
  wf := scatter_S2000x64_S1000000x1_S1000000x64_1_0_0_1_wf
def scatter_S2000_S1000000x1_S1000000_n_0_0_1 : ScatterDims S2000 S1000000x1 S1000000 where
  updateWindowDims := []
  insertedWindowDims := [0]
  scatterDimsToOperandDims := [0]
  indexVectorDim := 1
  wf := scatter_S2000_S1000000x1_S1000000_n_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def gather_S2000x64_S1000000x1_S1000000x64_1_0_n_n_0_1_164 : GatherDims S2000x64 S1000000x1 S1000000x64 where
  offsetDims := [1]
  collapsedSliceDims := [0]
  operandBatchingDims := []
  startIndicesBatchingDims := []
  startIndexMap := [0]
  indexVectorDim := 1
  sliceSizes := ![1, 64]
  wf := gather_S2000x64_S1000000x1_S1000000x64_1_0_n_n_0_1_164_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S1000000x64_S64x128_S1000000x128_1_0_0_1_n_n : DotDims S1000000x64 S64x128 S1000000x128 where
  lhsContracting := [1]
  rhsContracting := [0]
  lhsNonContracting := [0]
  rhsNonContracting := [1]
  lhsBatch := []
  rhsBatch := []
  wf := dot_S1000000x64_S64x128_S1000000x128_1_0_0_1_n_n_wf
def gather_S2000x128_S1000000x1_S1000000x128_1_0_n_n_0_1_1128 : GatherDims S2000x128 S1000000x1 S1000000x128 where
  offsetDims := [1]
  collapsedSliceDims := [0]
  operandBatchingDims := []
  startIndicesBatchingDims := []
  startIndexMap := [0]
  indexVectorDim := 1
  sliceSizes := ![1, 128]
  wf := gather_S2000x128_S1000000x1_S1000000x128_1_0_n_n_0_1_1128_wf

class Facts : Prop extends Facts₀ where

variable [Facts]
-- ==== Proof.KDefs.lean ====
/-
  The host operations between the four kernel regions of the idealized kernel program, named as functions of the
  arrays they read (at the ideal instance):
  * `cntSafeCol b`: per segment, max(number of rows whose batch word names it, 1), as a one-column array;
  * `segMean h b`: per segment and feature, the sum of the rows of `h` in the segment over that count;
  * `table64 h b l` / `table128 h b l`: the segment means times the matrix `l`;
  * `padRows64` / `padRows128`: 48 zero rows appended (2000 → 2048);
  * `meanOf s`, `varOf s q`: the batch statistics from the column sums `s` and the column sums of squares `q`.
-/
import proofs.«401850_j66589172957709_2_alg».proof.Proof.Gen.KernelIdeal
import Idealize.ShloMosaic.PureOps.Ideal

noncomputable section

namespace Cert.KernelIdeal.Host

open Cert.KernelIdeal Idealize.ShloMosaic
open Cert.KernelIdeal.Facts₀ Cert.KernelIdeal.Facts

/-- max(count of the segment's rows, 1), as a one-column array. -/
def cntSafeCol (b : IVec S1000000 32) : FVec Ideal S2000x1 .f32 :=
  broadcastInDim S2000x1 ![0] bcast_S2000_S2000x1_0
    (maximumf
      (Host.scatterAdd (F := Ideal) scatter_S2000_S1000000x1_S1000000_n_0_0_1
        (broadcastInDim S2000 ![] bcast_S_S2000 (constant (F := Ideal) S_ .f32 0x00000000#32))
        (broadcastInDim S1000000x1 ![0] bcast_S1000000_S1000000x1_0 b)
        (broadcastInDim S1000000 ![] bcast_S_S1000000 (constant (F := Ideal) S_ .f32 0x3F800000#32)))
      (broadcastInDim S2000 ![] bcast_S_S2000 (constant (F := Ideal) S_ .f32 0x3F800000#32)))

/-- The segment sums of the rows of `h` over the safe counts. -/
def segMean (h : FVec Ideal S1000000x64 .f32) (b : IVec S1000000 32) : FVec Ideal S2000x64 .f32 :=
  Host.divf (F := Ideal)
    (Host.scatterAdd (F := Ideal) scatter_S2000x64_S1000000x1_S1000000x64_1_0_0_1
      (broadcastInDim S2000x64 ![] bcast_S_S2000x64 (constant (F := Ideal) S_ .f32 0x00000000#32))
      (broadcastInDim S1000000x1 ![0] bcast_S1000000_S1000000x1_0 b) h)
    (broadcastInDim S2000x64 ![0, 1] bcast_S2000x1_S2000x64_0_1 (cntSafeCol b))

/-- The segment means times a 64×64 matrix. -/
def table64 (h : FVec Ideal S1000000x64 .f32) (b : IVec S1000000 32) (l : FVec Ideal S64x64 .f32) : FVec Ideal S2000x64 .f32 :=
  Host.dotGeneral (F := Ideal) dot_S2000x64_S64x64_S2000x64_1_0_0_1_n_n none (segMean h b) l

/-- The segment means times a 64×128 matrix. -/
def table128 (h : FVec Ideal S1000000x64 .f32) (b : IVec S1000000 32) (l : FVec Ideal S64x128 .f32) : FVec Ideal S2000x128 .f32 :=
  Host.dotGeneral (F := Ideal) dot_S2000x64_S64x128_S2000x128_1_0_0_1_n_n none (segMean h b) l

/-- 48 zero rows appended to a 2000×64 table. -/
def padRows64 (t : FVec Ideal S2000x64 .f32) : FVec Ideal S2048x64 .f32 :=
  pad S2048x64 ![0, 0] ![48, 0] ![0, 0] t (sitofp (F := Ideal) .f32 (constantI S_ 32 0#32)) pads_S2000x64_S2048x64_0480_000 h_S_

/-- 48 zero rows appended to a 2000×128 table. -/
def padRows128 (t : FVec Ideal S2000x128 .f32) : FVec Ideal S2048x128 .f32 :=
  pad S2048x128 ![0, 0] ![48, 0] ![0, 0] t (sitofp (F := Ideal) .f32 (constantI S_ 32 0#32)) pads_S2000x128_S2048x128_0480_000 h_S_

/-- The column sums over the row count. -/
def meanOf (s : FVec Ideal S1x128 .f32) : FVec Ideal S1x128 .f32 :=
  Host.divf (F := Ideal) s (broadcastInDim S1x128 ![] bcast_S_S1x128 (constant (F := Ideal) S_ .f32 0x49742400#32))

/-- max(mean of squares − squared mean, 0). -/
def varOf (s q : FVec Ideal S1x128 .f32) : FVec Ideal S1x128 .f32 :=
  maximumf
    (subf (Host.divf (F := Ideal) q (broadcastInDim S1x128 ![] bcast_S_S1x128 (constant (F := Ideal) S_ .f32 0x49742400#32)))
      (mulf (meanOf s) (meanOf s)))
    (broadcastInDim S1x128 ![] bcast_S_S1x128 (constant (F := Ideal) S_ .f32 0x00000000#32))

end Cert.KernelIdeal.Host

end
-- ==== Proof.KHost.lean ====
/-
  What each kernel region finds in its input arrays when it is entered, and what the program returns: the buffer
  contents at the region boundaries read back through the host operations between the regions (the reshapes of the
  arguments; the segment means, the tables and their padding; the batch statistics) to the launch memory and to the
  arrays the earlier regions left.
-/
import proofs.«401850_j66589172957709_2_alg».proof.Proof.Gen.KernelIdeal.Frame
import proofs.«401850_j66589172957709_2_alg».proof.Proof.KDefs
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

/-- The array region 0 leaves: the projected node features. -/
abbrev s0 : S1000000x64.Idx → EReal := (dat0 (F := Ideal) (V1 m ρ) c).arrAt 3 cfg0.N
/-- The array region 1 leaves: the first deep-set layer. -/
abbrev h1 : S1000000x64.Idx → EReal := (dat1 (F := Ideal) (V4 m ρ) c).arrAt 5 cfg1.N
/-- The arrays region 2 leaves: the second layer, its column sums and the column sums of its squares. -/
abbrev v2 : S1000000x128.Idx → EReal := (dat2 (F := Ideal) (V7 m ρ) c).arrAt 5 cfg2.N
abbrev sum2 : S1x128.Idx → EReal := (dat2 (F := Ideal) (V7 m ρ) c).arrAt 6 cfg2.N
abbrev sumsq2 : S1x128.Idx → EReal := (dat2 (F := Ideal) (V7 m ρ) c).arrAt 7 cfg2.N

/-! ## What each stretch of host operations and each region leaves unchanged -/

/-- The references each stretch of host operations writes. -/
abbrev wr0 : List (Ref sig .tc) := [main_v0, main_v1, main_v2, main_v3, main_v4, main_v5, main_v6, main_v7]
abbrev wr1 : List (Ref sig .tc) :=
  [main_cst, main_v9, main_cst_0, main_v10, main_v11, main_v12, main_cst_1, main_v13, main_v14, main_v15, main_cst_2,
    main_v16, main_v17, main_v18, main_v19, main_v20, main_v21, main_c]
abbrev wr1_1 : List (Ref sig .tc) := [main_call0_v0, main_v22]
abbrev wr2 : List (Ref sig .tc) := [main_cst_3, main_v24, main_v25, main_v26, main_v27, main_v28, main_v29, main_c_4]
abbrev wr2_1 : List (Ref sig .tc) := [main_call1_v0, main_v30]
abbrev wr3 : List (Ref sig .tc) :=
  [main_cst_5, main_v32, main_v33, main_cst_6, main_v34, main_v35, main_v36, main_v37, main_cst_7, main_v38, main_v39]

theorem writes0 : (hostOps0 : List (HloOp τ sig (Elt Ideal))).Forall fun op => op.writes ⊆ (wr0.map (Proc.devRef (τ := τ) .tc)).toFinset := by
  simp only [hostOps0, List.Forall, StableHlo.unary_writes, StableHlo.reshape_writes, Finset.singleton_subset_iff, List.mem_toFinset]
  repeat' apply And.intro
  all_goals exact List.mem_map_of_mem (by decide)
theorem writes1 : (hostOps1 : List (HloOp τ sig (Elt Ideal))).Forall fun op => op.writes ⊆ (wr1.map (Proc.devRef (τ := τ) .tc)).toFinset := by
  simp only [hostOps1, List.Forall, StableHlo.nullary_writes, StableHlo.unary_writes, StableHlo.binary_writes, StableHlo.ternary_writes,
    Finset.singleton_subset_iff, List.mem_toFinset]
  repeat' apply And.intro
  all_goals exact List.mem_map_of_mem (by decide)
theorem writes1_1 : (hostOps1_1 : List (HloOp τ sig (Elt Ideal))).Forall fun op => op.writes ⊆ (wr1_1.map (Proc.devRef (τ := τ) .tc)).toFinset := by
  simp only [hostOps1_1, List.Forall, StableHlo.unary_writes, StableHlo.binary_writes, Finset.singleton_subset_iff, List.mem_toFinset]
  repeat' apply And.intro
  all_goals exact List.mem_map_of_mem (by decide)
theorem writes2 : (hostOps2 : List (HloOp τ sig (Elt Ideal))).Forall fun op => op.writes ⊆ (wr2.map (Proc.devRef (τ := τ) .tc)).toFinset := by
  simp only [hostOps2, List.Forall, StableHlo.nullary_writes, StableHlo.unary_writes, StableHlo.binary_writes, StableHlo.ternary_writes,
    Finset.singleton_subset_iff, List.mem_toFinset]
  repeat' apply And.intro
  all_goals exact List.mem_map_of_mem (by decide)
theorem writes2_1 : (hostOps2_1 : List (HloOp τ sig (Elt Ideal))).Forall fun op => op.writes ⊆ (wr2_1.map (Proc.devRef (τ := τ) .tc)).toFinset := by
  simp only [hostOps2_1, List.Forall, StableHlo.unary_writes, StableHlo.binary_writes, Finset.singleton_subset_iff, List.mem_toFinset]
  repeat' apply And.intro
  all_goals exact List.mem_map_of_mem (by decide)
theorem writes3 : (hostOps3 : List (HloOp τ sig (Elt Ideal))).Forall fun op => op.writes ⊆ (wr3.map (Proc.devRef (τ := τ) .tc)).toFinset := by
  simp only [hostOps3, List.Forall, StableHlo.nullary_writes, StableHlo.unary_writes, StableHlo.binary_writes,
    Finset.singleton_subset_iff, List.mem_toFinset]
  repeat' apply And.intro
  all_goals exact List.mem_map_of_mem (by decide)

/-- A buffer a stretch does not write holds after it what it held before. -/
theorem skip0 (b : Ref sig .tc) (h : b ∉ wr0) : W1 m ρ c (Proc.devRef .tc b) = m ((c : Thread nD τ).loc b) :=
  StableHlo.after_of_writes_sub hostOps0 _ writes0 h
theorem skip1 (b : Ref sig .tc) (h : b ∉ wr1) : W3 m ρ c (Proc.devRef .tc b) = W2 m ρ c (Proc.devRef .tc b) :=
  StableHlo.after_of_writes_sub hostOps1 _ writes1 h
theorem skip1_1 (b : Ref sig .tc) (h : b ∉ wr1_1) : W4 m ρ c (Proc.devRef .tc b) = W3 m ρ c (Proc.devRef .tc b) :=
  StableHlo.after_of_writes_sub hostOps1_1 _ writes1_1 h
theorem skip2 (b : Ref sig .tc) (h : b ∉ wr2) : W6 m ρ c (Proc.devRef .tc b) = W5 m ρ c (Proc.devRef .tc b) :=
  StableHlo.after_of_writes_sub hostOps2 _ writes2 h
theorem skip2_1 (b : Ref sig .tc) (h : b ∉ wr2_1) : W7 m ρ c (Proc.devRef .tc b) = W6 m ρ c (Proc.devRef .tc b) :=
  StableHlo.after_of_writes_sub hostOps2_1 _ writes2_1 h
theorem skip3 (b : Ref sig .tc) (h : b ∉ wr3) : W9 m ρ c (Proc.devRef .tc b) = W8 m ρ c (Proc.devRef .tc b) :=
  StableHlo.after_of_writes_sub hostOps3 _ writes3 h

/-- An input window's array holds after its region what it held when the region was entered. -/
theorem in0 (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
theorem in1 (w : Fin cfg1.W) (hin : (cfg1.win w).isOut = false) :
    W5 m ρ c (Proc.devRef .tc (Pipeline.arrRef spec1 w)) = W4 m ρ c (Proc.devRef .tc (Pipeline.arrRef spec1 w)) :=
  (W5_arr m ρ c w).trans (((dat1 (V4 m ρ) c).arrAt_in w hin _).trans (A_eq1 (V4 m ρ) c w))
theorem in2 (w : Fin cfg2.W) (hin : (cfg2.win w).isOut = false) :
    W8 m ρ c (Proc.devRef .tc (Pipeline.arrRef spec2 w)) = W7 m ρ c (Proc.devRef .tc (Pipeline.arrRef spec2 w)) :=
  (W8_arr m ρ c w).trans (((dat2 (V7 m ρ) c).arrAt_in w hin _).trans (A_eq2 (V7 m ρ) c w))

/-! ## Region 0's entry -/

theorem v1_pp : (V1 m ρ c main_v7 : S1000000x16.Idx → EReal)
    = shapeCast S1000000x16 (transpose S1000000x8x2 [1, 0, 2] (m ((c : Thread nD τ).loc main_arg1)) transposes_S8x1000000x2_S1000000x8x2_1_0_2) shapeCasts_S1000000x8x2_S1000000x16 := by
  dsimp only [V1, W1, hostOps0]
  after_results
  rfl
theorem v1_w : (V1 m ρ c main_arg3 : S16x64.Idx → EReal) = m ((c : Thread nD τ).loc main_arg3) := by
  dsimp only [V1, W1, hostOps0]
  after_results
theorem v1_b : (V1 m ρ c main_v0 : S1x64.Idx → EReal) = shapeCast S1x64 (m ((c : Thread nD τ).loc main_arg4)) shapeCasts_S64_S1x64 := by
  dsimp only [V1, W1, hostOps0]
  after_results
  rfl

/-! ## The reshaped arguments, as the first stretch leaves them -/

theorem w1_v1 : (W1 m ρ c (Proc.devRef .tc main_v1) : S1x64.Idx → EReal) = shapeCast S1x64 (m ((c : Thread nD τ).loc main_arg6)) shapeCasts_S64_S1x64 := by
  dsimp only [W1, hostOps0]
  after_results
  rfl
theorem w1_v2 : (W1 m ρ c (Proc.devRef .tc main_v2) : S1x128.Idx → EReal) = shapeCast S1x128 (m ((c : Thread nD τ).loc main_arg9)) shapeCasts_S128_S1x128 := by
  dsimp only [W1, hostOps0]
  after_results
  rfl
theorem w1_v3 : (W1 m ρ c (Proc.devRef .tc main_v3) : S1x128.Idx → EReal) = shapeCast S1x128 (m ((c : Thread nD τ).loc main_arg11)) shapeCasts_S128_S1x128 := by
  dsimp only [W1, hostOps0]
  after_results
  rfl
theorem w1_v4 : (W1 m ρ c (Proc.devRef .tc main_v4) : S1x128.Idx → EReal) = shapeCast S1x128 (m ((c : Thread nD τ).loc main_arg12)) shapeCasts_S128_S1x128 := by
  dsimp only [W1, hostOps0]
  after_results
  rfl
theorem w1_v5 : (W1 m ρ c (Proc.devRef .tc main_v5) : S1000000x1.Idx → BitVec 32) = shapeCast S1000000x1 (m ((c : Thread nD τ).loc main_arg2)) shapeCasts_S1000000_S1000000x1 := by
  dsimp only [W1, hostOps0]
  after_results
  rfl

/-! ## What each later stretch computes, from any contents `X` it starts at -/

section Stretch

variable (X : Valuation τ sig (Elt Ideal))

theorem cnt1_of : (StableHlo.after hostOps1 X (Proc.devRef .tc main_v15) : S2000x1.Idx → EReal)
    = cntSafeCol (X (Proc.devRef .tc main_arg2)) := by
  dsimp only [hostOps1]
  after_results_simp
  rfl
theorem tab1_of : (StableHlo.after hostOps1 X (Proc.devRef .tc main_v21) : S2000x64.Idx → EReal)
    = table64 (X (Proc.devRef .tc main_v8)) (X (Proc.devRef .tc main_arg2)) (X (Proc.devRef .tc main_arg7)) := by
  dsimp only [hostOps1]
  after_results_simp
  rfl
theorem zero1_of : (StableHlo.after hostOps1 X (Proc.devRef .tc main_c) : S_.Idx → BitVec 32) = constantI S_ 32 0#32 := by
  dsimp only [hostOps1]
  after_results_simp
theorem pad1_of : (StableHlo.after hostOps1_1 X (Proc.devRef .tc main_v22) : S2048x64.Idx → EReal)
    = pad S2048x64 ![0, 0] ![48, 0] ![0, 0] (X (Proc.devRef .tc main_v21) : S2000x64.Idx → EReal)
        (sitofp (F := Ideal) .f32 (X (Proc.devRef .tc main_c) : S_.Idx → BitVec 32)) pads_S2000x64_S2048x64_0480_000 h_S_ := by
  dsimp only [hostOps1_1]
  after_results
  rfl
theorem tab2_of : (StableHlo.after hostOps2 X (Proc.devRef .tc main_v29) : S2000x128.Idx → EReal)
    = Host.dotGeneral (F := Ideal) (φ₁ := .f32) (φ₂ := .f32) dot_S2000x64_S64x128_S2000x128_1_0_0_1_n_n none
        (Host.divf (F := Ideal) (φ := .f32)
          (Host.scatterAdd (F := Ideal) (φ := .f32) scatter_S2000x64_S1000000x1_S1000000x64_1_0_0_1
            (broadcastInDim S2000x64 ![] bcast_S_S2000x64 (constant (F := Ideal) S_ .f32 0x00000000#32))
            (broadcastInDim S1000000x1 ![0] bcast_S1000000_S1000000x1_0 (X (Proc.devRef .tc main_arg2) : IVec S1000000 32))
            (X (Proc.devRef .tc main_v23) : FVec Ideal S1000000x64 .f32))
          (broadcastInDim S2000x64 ![0, 1] bcast_S2000x1_S2000x64_0_1 (X (Proc.devRef .tc main_v15) : FVec Ideal S2000x1 .f32)))
        (X (Proc.devRef .tc main_arg10) : FVec Ideal S64x128 .f32) := by
  dsimp only [hostOps2]
  after_results_simp
theorem zero2_of : (StableHlo.after hostOps2 X (Proc.devRef .tc main_c_4) : S_.Idx → BitVec 32) = constantI S_ 32 0#32 := by
  dsimp only [hostOps2]
  after_results_simp
theorem pad2_of : (StableHlo.after hostOps2_1 X (Proc.devRef .tc main_v30) : S2048x128.Idx → EReal)
    = pad S2048x128 ![0, 0] ![48, 0] ![0, 0] (X (Proc.devRef .tc main_v29) : S2000x128.Idx → EReal)
        (sitofp (F := Ideal) .f32 (X (Proc.devRef .tc main_c_4) : S_.Idx → BitVec 32)) pads_S2000x128_S2048x128_0480_000 h_S_ := by
  dsimp only [hostOps2_1]
  after_results
  rfl
theorem mean3_of : (StableHlo.after hostOps3 X (Proc.devRef .tc main_v33) : S1x128.Idx → EReal)
    = meanOf (X (Proc.devRef .tc main_v31_1)) := by
  dsimp only [hostOps3]
  after_results_simp
  rfl
theorem var3_of : (StableHlo.after hostOps3 X (Proc.devRef .tc main_v39) : S1x128.Idx → EReal)
    = varOf (X (Proc.devRef .tc main_v31_1)) (X (Proc.devRef .tc main_v31_2)) := by
  dsimp only [hostOps3]
  after_results_simp
  rfl

end Stretch

/-! ## A buffer written by the first stretch only, or by none, at the later boundaries -/

theorem w4_of_w1 (b : Ref sig .tc) (h1_1 : b ∉ wr1_1) (h1 : b ∉ wr1) (hr0 : ∀ w, Pipeline.arrRef spec0 w ≠ b) :
    W4 m ρ c (Proc.devRef .tc b) = W1 m ρ c (Proc.devRef .tc b) :=
  (skip1_1 m ρ c b h1_1).trans ((skip1 m ρ c b h1).trans (W2_of_ne m ρ c b hr0))
theorem w7_of_w4 (b : Ref sig .tc) (h2_1 : b ∉ wr2_1) (h2 : b ∉ wr2) (hr1 : ∀ w, Pipeline.arrRef spec1 w ≠ b) :
    W7 m ρ c (Proc.devRef .tc b) = W4 m ρ c (Proc.devRef .tc b) :=
  (skip2_1 m ρ c b h2_1).trans ((skip2 m ρ c b h2).trans (W5_of_ne m ρ c b hr1))
theorem w9_of_w7 (b : Ref sig .tc) (h3 : b ∉ wr3) (hr2 : ∀ w, Pipeline.arrRef spec2 w ≠ b) :
    W9 m ρ c (Proc.devRef .tc b) = W7 m ρ c (Proc.devRef .tc b) :=
  (skip3 m ρ c b h3).trans (W8_of_ne m ρ c b hr2)

/-! ## What the second stretch computes from region 0's exit contents -/

theorem w2_arg2 : W2 m ρ c (Proc.devRef .tc main_arg2) = m ((c : Thread nD τ).loc main_arg2) :=
  (W2_of_ne m ρ c main_arg2 (by decide)).trans (skip0 m ρ c main_arg2 (by decide))
theorem w2_arg7 : W2 m ρ c (Proc.devRef .tc main_arg7) = m ((c : Thread nD τ).loc main_arg7) :=
  (W2_of_ne m ρ c main_arg7 (by decide)).trans (skip0 m ρ c main_arg7 (by decide))
theorem w2_v8 : W2 m ρ c (Proc.devRef .tc main_v8) = s0 m ρ c := W2_arr m ρ c 3

theorem w3_v15 : (W3 m ρ c (Proc.devRef .tc main_v15) : S2000x1.Idx → EReal) = cntSafeCol (m ((c : Thread nD τ).loc main_arg2)) :=
  (cnt1_of (W2 m ρ c)).trans (by rw [w2_arg2 m ρ c])
theorem w3_v21 : (W3 m ρ c (Proc.devRef .tc main_v21) : S2000x64.Idx → EReal)
    = table64 (s0 m ρ c) (m ((c : Thread nD τ).loc main_arg2)) (m ((c : Thread nD τ).loc main_arg7)) :=
  (tab1_of (W2 m ρ c)).trans (by rw [w2_arg2 m ρ c, w2_arg7 m ρ c, w2_v8 m ρ c])
theorem w3_c : (W3 m ρ c (Proc.devRef .tc main_c) : S_.Idx → BitVec 32) = constantI S_ 32 0#32 := zero1_of (W2 m ρ c)

/-! ## Region 1's entry -/

theorem v4_h : (V4 m ρ c main_v8 : S1000000x64.Idx → EReal) = s0 m ρ c := by
  exact (skip1_1 m ρ c main_v8 (by decide)).trans ((skip1 m ρ c main_v8 (by decide)).trans (W2_arr m ρ c 3))
theorem v4_batch : (V4 m ρ c main_v5 : S1000000x1.Idx → BitVec 32) = shapeCast S1000000x1 (m ((c : Thread nD τ).loc main_arg2)) shapeCasts_S1000000_S1000000x1 := by
  exact (skip1_1 m ρ c main_v5 (by decide)).trans ((skip1 m ρ c main_v5 (by decide)).trans
    ((W2_of_ne m ρ c main_v5 (by decide)).trans (w1_v5 m ρ c)))
theorem v4_table : (V4 m ρ c main_v22 : S2048x64.Idx → EReal)
    = padRows64 (table64 (s0 m ρ c) (m ((c : Thread nD τ).loc main_arg2)) (m ((c : Thread nD τ).loc main_arg7))) := by
  refine (pad1_of (W3 m ρ c)).trans ?_
  rw [w3_v21 m ρ c, w3_c m ρ c]
  rfl
theorem v4_g : (V4 m ρ c main_arg5 : S64x64.Idx → EReal) = m ((c : Thread nD τ).loc main_arg5) := by
  exact (skip1_1 m ρ c main_arg5 (by decide)).trans ((skip1 m ρ c main_arg5 (by decide)).trans
    ((W2_of_ne m ρ c main_arg5 (by decide)).trans (skip0 m ρ c main_arg5 (by decide))))
theorem v4_gb : (V4 m ρ c main_v1 : S1x64.Idx → EReal) = shapeCast S1x64 (m ((c : Thread nD τ).loc main_arg6)) shapeCasts_S64_S1x64 := by
  exact (skip1_1 m ρ c main_v1 (by decide)).trans ((skip1 m ρ c main_v1 (by decide)).trans
    ((W2_of_ne m ρ c main_v1 (by decide)).trans (w1_v1 m ρ c)))

/-! ## What the third stretch reads of region 1's exit contents -/

theorem w5_arg2 : W5 m ρ c (Proc.devRef .tc main_arg2) = m ((c : Thread nD τ).loc main_arg2) :=
  (W5_of_ne m ρ c main_arg2 (by decide)).trans ((w4_of_w1 m ρ c main_arg2 (by decide) (by decide) (by decide)).trans
    (skip0 m ρ c main_arg2 (by decide)))
theorem w5_arg10 : W5 m ρ c (Proc.devRef .tc main_arg10) = m ((c : Thread nD τ).loc main_arg10) :=
  (W5_of_ne m ρ c main_arg10 (by decide)).trans ((w4_of_w1 m ρ c main_arg10 (by decide) (by decide) (by decide)).trans
    (skip0 m ρ c main_arg10 (by decide)))
theorem w5_v23 : W5 m ρ c (Proc.devRef .tc main_v23) = h1 m ρ c := W5_arr m ρ c 5
theorem w5_v15 : (W5 m ρ c (Proc.devRef .tc main_v15) : S2000x1.Idx → EReal) = cntSafeCol (m ((c : Thread nD τ).loc main_arg2)) :=
  (W5_of_ne m ρ c main_v15 (by decide)).trans ((skip1_1 m ρ c main_v15 (by decide)).trans (w3_v15 m ρ c))

theorem w6_v29 : (W6 m ρ c (Proc.devRef .tc main_v29) : S2000x128.Idx → EReal)
    = table128 (h1 m ρ c) (m ((c : Thread nD τ).loc main_arg2)) (m ((c : Thread nD τ).loc main_arg10)) := by
  refine (tab2_of (W5 m ρ c)).trans ?_
  rw [w5_arg2 m ρ c, w5_arg10 m ρ c, w5_v23 m ρ c, w5_v15 m ρ c]
  rfl
theorem w6_c : (W6 m ρ c (Proc.devRef .tc main_c_4) : S_.Idx → BitVec 32) = constantI S_ 32 0#32 := zero2_of (W5 m ρ c)

/-! ## Region 2's entry -/

theorem v7_h : (V7 m ρ c main_v23 : S1000000x64.Idx → EReal) = h1 m ρ c := by
  exact (skip2_1 m ρ c main_v23 (by decide)).trans ((skip2 m ρ c main_v23 (by decide)).trans (W5_arr m ρ c 5))
theorem v7_batch : (V7 m ρ c main_v5 : S1000000x1.Idx → BitVec 32) = shapeCast S1000000x1 (m ((c : Thread nD τ).loc main_arg2)) shapeCasts_S1000000_S1000000x1 := by
  exact (skip2_1 m ρ c main_v5 (by decide)).trans ((skip2 m ρ c main_v5 (by decide)).trans
    ((in1 m ρ c 1 rfl).trans (v4_batch m ρ c)))
theorem v7_table : (V7 m ρ c main_v30 : S2048x128.Idx → EReal)
    = padRows128 (table128 (h1 m ρ c) (m ((c : Thread nD τ).loc main_arg2)) (m ((c : Thread nD τ).loc main_arg10))) := by
  refine (pad2_of (W6 m ρ c)).trans ?_
  rw [w6_v29 m ρ c, w6_c m ρ c]
  rfl
theorem v7_g : (V7 m ρ c main_arg8 : S64x128.Idx → EReal) = m ((c : Thread nD τ).loc main_arg8) := by
  exact (w7_of_w4 m ρ c main_arg8 (by decide) (by decide) (by decide)).trans
    ((w4_of_w1 m ρ c main_arg8 (by decide) (by decide) (by decide)).trans (skip0 m ρ c main_arg8 (by decide)))
theorem v7_gb : (V7 m ρ c main_v2 : S1x128.Idx → EReal) = shapeCast S1x128 (m ((c : Thread nD τ).loc main_arg9)) shapeCasts_S128_S1x128 := by
  exact (w7_of_w4 m ρ c main_v2 (by decide) (by decide) (by decide)).trans
    ((w4_of_w1 m ρ c main_v2 (by decide) (by decide) (by decide)).trans (w1_v2 m ρ c))

/-! ## What the last stretch reads of region 2's exit contents -/

theorem w8_sum : W8 m ρ c (Proc.devRef .tc main_v31_1) = sum2 m ρ c := W8_arr m ρ c 6
theorem w8_sumsq : W8 m ρ c (Proc.devRef .tc main_v31_2) = sumsq2 m ρ c := W8_arr m ρ c 7

/-! ## Region 3's entry -/

theorem v9_v : (V9 m ρ c main_v31_0 : S1000000x128.Idx → EReal) = v2 m ρ c := by
  exact (skip3 m ρ c main_v31_0 (by decide)).trans (W8_arr m ρ c 5)
theorem v9_x : (V9 m ρ c main_arg0 : S1000000x128.Idx → EReal) = m ((c : Thread nD τ).loc main_arg0) := by
  exact (w9_of_w7 m ρ c main_arg0 (by decide) (by decide)).trans
    ((w7_of_w4 m ρ c main_arg0 (by decide) (by decide) (by decide)).trans
      ((w4_of_w1 m ρ c main_arg0 (by decide) (by decide) (by decide)).trans (skip0 m ρ c main_arg0 (by decide))))
theorem v9_mean : (V9 m ρ c main_v33 : S1x128.Idx → EReal) = meanOf (sum2 m ρ c) := by
  refine (mean3_of (W8 m ρ c)).trans ?_
  rw [w8_sum m ρ c]
theorem v9_var : (V9 m ρ c main_v39 : S1x128.Idx → EReal) = varOf (sum2 m ρ c) (sumsq2 m ρ c) := by
  refine (var3_of (W8 m ρ c)).trans ?_
  rw [w8_sum m ρ c, w8_sumsq m ρ c]
theorem v9_gamma : (V9 m ρ c main_v3 : S1x128.Idx → EReal) = shapeCast S1x128 (m ((c : Thread nD τ).loc main_arg11)) shapeCasts_S128_S1x128 := by
  exact (w9_of_w7 m ρ c main_v3 (by decide) (by decide)).trans
    ((w7_of_w4 m ρ c main_v3 (by decide) (by decide) (by decide)).trans
      ((w4_of_w1 m ρ c main_v3 (by decide) (by decide) (by decide)).trans (w1_v3 m ρ c)))
theorem v9_beta : (V9 m ρ c main_v4 : S1x128.Idx → EReal) = shapeCast S1x128 (m ((c : Thread nD τ).loc main_arg12)) shapeCasts_S128_S1x128 := by
  exact (w9_of_w7 m ρ c main_v4 (by decide) (by decide)).trans
    ((w7_of_w4 m ρ c main_v4 (by decide) (by decide) (by decide)).trans
      ((w4_of_w1 m ρ c main_v4 (by decide) (by decide) (by decide)).trans (w1_v4 m ρ c)))

/-! ## The result -/

theorem result : (W10 m ρ c (Proc.devRef .tc main_v40) : S1000000x128.Idx → EReal) = (dat3 (F := Ideal) (V9 m ρ) c).arrAt 6 cfg3.N :=
  W10_arr m ρ c 6

end Cert.KernelIdeal.Host

end
-- ==== Proof.Spec.lean ====
/-
  The specification both programs are proved against, at the ideal instance (a float is an extended real):
  whole-array functions over literal rank-2 shapes, read index by index.

  * `lin A W b` at (r, q): the affine map  Σ_k A[r,k] · W[k,q] + b[0,q]  (b a one-row array).
  * `reluLin A W b`: its positive part  max(·, 0)  — the first stage (node features projected).
  * `reluLinSub A W b g`: max(lin A W b − g, 0) — a deep-set layer: the projected rows minus a per-row gathered mean.
  * `onehotRows bt P` at (r, q): Σ_s [bt[r,0] = s] · P[s,q] — a table row selected by a product with an indicator row.
  * `colSum v` at (0, q): Σ_r v[r,q];  `sq v` the entrywise square.
  * `meanRow v`, `varOfMoments v` (mean of squares minus squared mean, clipped at 0), `varOfDeviations v` (mean squared
    deviation): the column statistics over the 1000000 rows.
  * `normalize v x μ σ² γ β` at (r, q): x[r,q] + (γ[0,q]·(v[r,q] − μ[0,q])·rsqrt(σ²[0,q] + ε) + β[0,q]), ε the f32 nearest 1e-5.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals with `n` rows and `m` columns. -/
abbrev A2 (n m : Nat) := (⟨2, ![n, m]⟩ : Shape).Idx → EReal
/-- A rank-2 array of 32-bit words. -/
abbrev W2 (n m : Nat) := (⟨2, ![n, m]⟩ : Shape).Idx → BitVec 32

/-- The row of an index. -/
abbrev row {n m : Nat} (i : (⟨2, ![n, m]⟩ : Shape).Idx) : Fin n := ⟨(i 0).val, idx2_lt0 i⟩
/-- The column of an index. -/
abbrev col {n m : Nat} (i : (⟨2, ![n, m]⟩ : Shape).Idx) : Fin m := ⟨(i 1).val, idx2_lt1 i⟩

theorem row_ix2 {n m : Nat} (p : Fin n) (q : Fin m) : row (ix2 p q) = p := rfl
theorem col_ix2 {n m : Nat} (p : Fin n) (q : Fin m) : col (ix2 p q) = q := rfl

/-- Σ_k A[r,k] · W[k,q] + b[0,q]. -/
def lin {n k m : Nat} (A : A2 n k) (W : A2 k m) (b : A2 1 m) : A2 n m :=
  fun i => (∑ s : Fin k, A (ix2 (row i) s) * W (ix2 s (col i))) + b (ix2 0 (col i))

/-- max(A·W + b, 0). -/
def reluLin {n k m : Nat} (A : A2 n k) (W : A2 k m) (b : A2 1 m) : A2 n m :=
  fun i => max (lin A W b i) 0

/-- max(A·W + b − g, 0). -/
def reluLinSub {n k m : Nat} (A : A2 n k) (W : A2 k m) (b : A2 1 m) (g : A2 n m) : A2 n m :=
  fun i => max (lin A W b i - g i) 0

/-- Σ_s [bt[r,0] = s] · P[s,q]: row `bt[r,0]` of the table `P` when that word is one of the table's row numbers, else 0. -/
def onehotRows {n t m : Nat} (bt : W2 n 1) (P : A2 t m) : A2 n m :=
  fun i => ∑ s : Fin t, (if bt (ix2 (row i) 0) = BitVec.ofNat 32 s.val then (1 : EReal) else 0) * P (ix2 s (col i))

/-- Column sums, as a one-row array. -/
def colSum {n m : Nat} (v : A2 n m) : A2 1 m := fun i => ∑ r : Fin n, v (ix2 r (col i))

/-- Entrywise square. -/
def sq {n m : Nat} (v : A2 n m) : A2 n m := fun i => v i * v i

/-- Every entry is a real number (neither infinity). -/
def AllReal {s : Shape} (f : s.Idx → EReal) : Prop := ∀ i, ∃ r : ℝ, f i = (r : EReal)

/-- A vector laid out as a one-row array. -/
def rowOf {m : Nat} (b : (⟨1, ![m]⟩ : Shape).Idx → EReal) : A2 1 m := fun i => b (ix1 (col i))

/-- A vector of words laid out as a one-column array. -/
def colOfW {n : Nat} (w : (⟨1, ![n]⟩ : Shape).Idx → BitVec 32) : W2 n 1 := fun i => w (ix1 (row i))

/-- The f32 word nearest 1e-5, read at the ideal instance. -/
def eps : EReal := Ideal.ofBits .f32 0x3727C5AC#32

/-- The f32 word of 1000000 (the number of rows), read at the ideal instance. -/
def million : EReal := Ideal.ofBits .f32 0x49742400#32

/-- The column means: column sums over the row count. -/
def meanRow {n m : Nat} (v : A2 n m) : A2 1 m := fun i => Ideal.div (colSum v i) million

/-- The variance as the mean of squares minus the squared mean, clipped below at 0. -/
def varOfMoments {n m : Nat} (v : A2 n m) : A2 1 m :=
  fun i => max (Ideal.div (colSum (sq v) i) million - meanRow v i * meanRow v i) 0

/-- The variance as the mean of the squared deviations from the mean. -/
def varOfDeviations {n m : Nat} (v : A2 n m) : A2 1 m :=
  fun i => Ideal.div (∑ r : Fin n, (v (ix2 r (col i)) - meanRow v i) * (v (ix2 r (col i)) - meanRow v i)) million

/-- x + (γ·(v − μ)·rsqrt(σ² + ε) + β), the statistics and the affine parameters one-row arrays. -/
def normalize {n m : Nat} (v x : A2 n m) (mu var gam bet : A2 1 m) : A2 n m :=
  fun i => x i + (gam (ix2 0 (col i)) * (v i - mu (ix2 0 (col i))) * Ideal.rsqrt (var (ix2 0 (col i)) + eps) + bet (ix2 0 (col i)))

end Cert.Spec

end
-- ==== Proof.KComp.lean ====
/-
  The idealized kernel program's result as one function of its thirteen arguments: the four regions' whole-array
  functions (the specification's) composed with the host operations between them.
-/
import proofs.«401850_j66589172957709_2_alg».proof.Proof.Spec
import proofs.«401850_j66589172957709_2_alg».proof.Proof.KDefs

noncomputable section

open scoped BigOperators

namespace Cert.KernelIdeal.Host

open Cert.KernelIdeal Idealize.ShloMosaic Idealize.ShloMosaic.ValueIdx Cert.Spec
open Cert.KernelIdeal.Facts₀ Cert.KernelIdeal.Facts

/-- The persistence pairs laid out one node per row: [8, N, 2] → [N, 16]. -/
def ppK (a1 : FVec Ideal S8x1000000x2 .f32) : FVec Ideal S1000000x16 .f32 :=
  shapeCast S1000000x16 (transpose S1000000x8x2 [1, 0, 2] a1 transposes_S8x1000000x2_S1000000x8x2_1_0_2) shapeCasts_S1000000x8x2_S1000000x16

/-- The batch words as a one-column array. -/
def batchCol (a2 : IVec S1000000 32) : IVec S1000000x1 32 := shapeCast S1000000x1 a2 shapeCasts_S1000000_S1000000x1

/-- Region 0: the projected node features. -/
def s0K (a1 : FVec Ideal S8x1000000x2 .f32) (a3 : FVec Ideal S16x64 .f32) (a4 : FVec Ideal S64 .f32) : FVec Ideal S1000000x64 .f32 :=
  reluLin (ppK a1) a3 (shapeCast S1x64 a4 shapeCasts_S64_S1x64)

/-- Region 1: the first deep-set layer. -/
def h1K (a1 : FVec Ideal S8x1000000x2 .f32) (a2 : IVec S1000000 32) (a3 : FVec Ideal S16x64 .f32) (a4 : FVec Ideal S64 .f32)
    (a5 : FVec Ideal S64x64 .f32) (a6 : FVec Ideal S64 .f32) (a7 : FVec Ideal S64x64 .f32) : FVec Ideal S1000000x64 .f32 :=
  reluLinSub (s0K a1 a3 a4) a5 (shapeCast S1x64 a6 shapeCasts_S64_S1x64)
    (onehotRows (batchCol a2) (padRows64 (table64 (s0K a1 a3 a4) a2 a7)))

/-- Region 2: the second deep-set layer. -/
def vK (a1 : FVec Ideal S8x1000000x2 .f32) (a2 : IVec S1000000 32) (a3 : FVec Ideal S16x64 .f32) (a4 : FVec Ideal S64 .f32)
    (a5 : FVec Ideal S64x64 .f32) (a6 : FVec Ideal S64 .f32) (a7 : FVec Ideal S64x64 .f32) (a8 : FVec Ideal S64x128 .f32)
    (a9 : FVec Ideal S128 .f32) (a10 : FVec Ideal S64x128 .f32) : FVec Ideal S1000000x128 .f32 :=
  reluLinSub (h1K a1 a2 a3 a4 a5 a6 a7) a8 (shapeCast S1x128 a9 shapeCasts_S128_S1x128)
    (onehotRows (batchCol a2) (padRows128 (table128 (h1K a1 a2 a3 a4 a5 a6 a7) a2 a10)))

/-- Column sums taken block by block: 500 blocks of 2000 rows. -/
def blockSums (v : FVec Ideal S1000000x128 .f32) : FVec Ideal S1x128 .f32 :=
  fun i => ∑ t : Fin 500, ∑ p : Fin 2000, v (ix2 ⟨t.val * 2000 + p.val, by have := t.isLt; have := p.isLt; omega⟩ (col i))

/-- The program's result. -/
def outK (a0 : FVec Ideal S1000000x128 .f32) (a1 : FVec Ideal S8x1000000x2 .f32) (a2 : IVec S1000000 32) (a3 : FVec Ideal S16x64 .f32)
    (a4 : FVec Ideal S64 .f32) (a5 : FVec Ideal S64x64 .f32) (a6 : FVec Ideal S64 .f32) (a7 : FVec Ideal S64x64 .f32)
    (a8 : FVec Ideal S64x128 .f32) (a9 : FVec Ideal S128 .f32) (a10 : FVec Ideal S64x128 .f32) (a11 a12 : FVec Ideal S128 .f32) :
    FVec Ideal S1000000x128 .f32 :=
  Cert.Spec.normalize (vK a1 a2 a3 a4 a5 a6 a7 a8 a9 a10) a0
    (meanOf (blockSums (vK a1 a2 a3 a4 a5 a6 a7 a8 a9 a10)))
    (varOf (blockSums (vK a1 a2 a3 a4 a5 a6 a7 a8 a9 a10)) (blockSums (sq (vK a1 a2 a3 a4 a5 a6 a7 a8 a9 a10))))
    (shapeCast S1x128 a11 shapeCasts_S128_S1x128) (shapeCast S1x128 a12 shapeCasts_S128_S1x128)

end Cert.KernelIdeal.Host

end
-- ==== Proof.Region0.lean ====
/-
  Region 0 of the kernel (the projection stage): the output array after the whole grid, as one function of the
  region's three input arrays.

  Each of the 200 grid points takes 5000 rows of the node-feature array A (1000000 × 16), the whole weight matrix
  W (16 × 64) and the one-row bias b (1 × 64), and writes the 5000 × 64 block  max(A_block · W + b, 0).
  At the ideal instance the conversion of the operands to the narrower format is the identity and the product
  accumulates into an exact zero, so an element of the block is the positive part of the affine map
  Σ_s A[r,s] · W[s,q] + b[0,q] at the row r = 5000·t + p of the array. The 200 blocks tile the array's rows
  (row r lies in the block of point r / 5000), hence the array ends holding `reluLin A W b`.
-/
import proofs.«401850_j66589172957709_2_alg».proof.Proof.Gen.KernelIdeal.Frame
import proofs.«401850_j66589172957709_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val0

open Cert.KernelIdeal Cert.KernelIdeal.Gen Idealize.ShloMosaic Idealize.ShloMosaic.TcCoe Idealize.SL.Sem Cert.Spec Idealize.ShloMosaic.ValueIdx
open Idealize.ShloMosaic.Pipeline (Dat Cfg Window)

/-! ## The product's operand indices

The product contracts axis 1 of the left operand with axis 0 of the right one: at the output index (p, q) and the
contraction index s its operands are read at (p, s) and (s, q). One lemma per operand axis. -/

theorem lhs_prod_0 (i : S5000x64.Idx) (k : dot_S5000x16_S16x64_S5000x64_1_0_0_1_n_n.contr.Idx) :
    (dot_S5000x16_S16x64_S5000x64_1_0_0_1_n_n.lhsIdx i k 0).val = (i 0).val := by
  unfold DotDims.lhsIdx
  rw [dif_neg (show ¬(0 : Fin S5000x16.rank) ∈ dot_S5000x16_S16x64_S5000x64_1_0_0_1_n_n.lhsBatch by decide), dif_pos (show (0 : Fin S5000x16.rank) ∈ dot_S5000x16_S16x64_S5000x64_1_0_0_1_n_n.lhsNonContracting by decide)]
  rfl
theorem lhs_prod_1 (i : S5000x64.Idx) (k : dot_S5000x16_S16x64_S5000x64_1_0_0_1_n_n.contr.Idx) :
    (dot_S5000x16_S16x64_S5000x64_1_0_0_1_n_n.lhsIdx i k 1).val = (k ⟨0, by decide⟩).val :=
  dot_S5000x16_S16x64_S5000x64_1_0_0_1_n_n.lhsIdx_val_of_single rfl i k
theorem rhs_prod_0 (i : S5000x64.Idx) (k : dot_S5000x16_S16x64_S5000x64_1_0_0_1_n_n.contr.Idx) :
    (dot_S5000x16_S16x64_S5000x64_1_0_0_1_n_n.rhsIdx i k 0).val = (k ⟨0, by decide⟩).val :=
  dot_S5000x16_S16x64_S5000x64_1_0_0_1_n_n.rhsIdx_val_of_single rfl i k
theorem rhs_prod_1 (i : S5000x64.Idx) (k : dot_S5000x16_S16x64_S5000x64_1_0_0_1_n_n.contr.Idx) :
    (dot_S5000x16_S16x64_S5000x64_1_0_0_1_n_n.rhsIdx i k 1).val = (i 1).val := by
  unfold DotDims.rhsIdx
  rw [dif_neg (show ¬(1 : Fin S16x64.rank) ∈ dot_S5000x16_S16x64_S5000x64_1_0_0_1_n_n.rhsBatch by decide), dif_pos (show (1 : Fin S16x64.rank) ∈ dot_S5000x16_S16x64_S5000x64_1_0_0_1_n_n.rhsNonContracting by decide)]
  rfl

/-- The block product into the zero accumulator, at (p, q): Σ_s a[p,s] · w[s,q]. -/
theorem prod_apply (a : FVec Ideal S5000x16 .bf16) (w : FVec Ideal S16x64 .bf16) (p : Fin 5000) (q : Fin 64) :
    matmul dot_S5000x16_S16x64_S5000x64_1_0_0_1_n_n none a w (constant (F := Ideal) S5000x64 .f32 0x00000000#32) (ix2 p q)
      = ∑ s : Fin 16, a (ix2 p s) * w (ix2 s q) := by
  simp only [matmul]
  rw [Ideal.matmul_constant_zero_apply, ← Equiv.sum_comp (ValueIdx.contrEquiv1 dot_S5000x16_S16x64_S5000x64_1_0_0_1_n_n 16 rfl rfl).symm]
  refine Finset.sum_congr rfl fun s _ => ?_
  have hs := ValueIdx.contrEquiv1_symm_val dot_S5000x16_S16x64_S5000x64_1_0_0_1_n_n 16 rfl rfl s
  have el : dot_S5000x16_S16x64_S5000x64_1_0_0_1_n_n.lhsIdx (ix2 p q) ((ValueIdx.contrEquiv1 dot_S5000x16_S16x64_S5000x64_1_0_0_1_n_n 16 rfl rfl).symm s) = ix2 p s := funext fun ax => Fin.ext (by
    match ax with
    | ⟨0, _⟩ => exact lhs_prod_0 _ _
    | ⟨1, _⟩ => exact (lhs_prod_1 _ _).trans hs)
  have er : dot_S5000x16_S16x64_S5000x64_1_0_0_1_n_n.rhsIdx (ix2 p q) ((ValueIdx.contrEquiv1 dot_S5000x16_S16x64_S5000x64_1_0_0_1_n_n 16 rfl rfl).symm s) = ix2 s q := funext fun ax => Fin.ext (by
    match ax with
    | ⟨0, _⟩ => exact (rhs_prod_0 _ _).trans hs
    | ⟨1, _⟩ => exact rhs_prod_1 _ _)
  rw [el, er]

/-! ## The body's stored value at an index -/

/-- The stored block at (p, q): max(Σ_s x0[p,s] · x1[s,q] + x2[0,q], 0). -/
theorem payload_apply (x0 : Vec Ideal S5000x16 .f32) (x1 : Vec Ideal S16x64 .f32) (x2 : Vec Ideal S1x64 .f32)
    (p : Fin 5000) (q : Fin 64) :
    k0_pay1 (F := Ideal) x0 x1 x2 (ix2 p q) = max ((∑ s : Fin 16, x0 (ix2 p s) * x1 (ix2 s q)) + x2 (ix2 0 q)) 0 := by
  unfold k0_pay1
  rw [maximumf_apply, addf_apply, broadcast_apply, prod_apply, shapeCast_self, shapeCast_self]
  simp only [truncf_apply]
  rw [broadcastTo_1b_ab_apply]
  show max _ (Ideal.ofBits .f32 0x00000000#32) = _
  rw [Ideal.ofBits_zero_f32]

/-! ## From the blocks to the array -/

variable (V : (c : Dev nD) → (b : Ref sig .tc) → Buf (Elt Ideal) ((c : Thread nD τ).loc b))

theorem zero_off : (![0, 0] : Fin 2 → Nat) = fun _ => 0 := funext fun a => by fin_cases a <;> rfl

/-- The four windows' block indices over the grid: at point t the feature rows and the output rows are block t along
    axis 0, the weights and the bias are their one block. -/
theorem block_index : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- Element (p, q) of the output block of point t is element (5000·t + p, q) of the output array. -/
theorem out_place (t : Fin cfg0.N) (p : Fin 5000) (q : Fin 64) (r : Fin 1000000) (hr : r.val = t.val * 5000 + p.val) :
    ((cfg0.win 3).blk t).view.emb (ix2 p q : S5000x64.Idx) = (ix2 r q : S1000000x64.Idx) := by
  obtain ⟨e00, e01, e10, e11, e20, e21, e30, e31⟩ := block_index t
  funext a; apply Fin.ext
  match a with
  | ⟨0, _⟩ => show win0_3.index t (0 : Fin 2) * 5000 + 1 * p.val = r.val; omega
  | ⟨1, _⟩ => show win0_3.index t (1 : Fin 2) * 64 + 1 * q.val = q.val; omega

/-- Element (p, s) of the feature block of point t is element (5000·t + p, s) of the feature array. -/
theorem rows_place (t : Fin cfg0.N) (p : Fin 5000) (s : Fin 16) (r : Fin 1000000) (hr : r.val = t.val * 5000 + p.val) :
    ((cfg0.win 0).blk t).view.emb (ix2 p s : S5000x16.Idx) = (ix2 r s : S1000000x16.Idx) := by
  obtain ⟨e00, e01, e10, e11, e20, e21, e30, e31⟩ := block_index t
  funext a; apply Fin.ext
  match a with
  | ⟨0, _⟩ => show win0_0.index t (0 : Fin 2) * 5000 + 1 * p.val = r.val; omega
  | ⟨1, _⟩ => show win0_0.index t (1 : Fin 2) * 16 + 1 * s.val = s.val; omega

/-- The weights' block is the whole matrix. -/
theorem weights_place (t : Fin cfg0.N) (s : Fin 16) (q : Fin 64) :
    ((cfg0.win 1).blk t).view.emb (ix2 s q : S16x64.Idx) = (ix2 s q : S16x64.Idx) := by
  obtain ⟨e00, e01, e10, e11, e20, e21, e30, e31⟩ := block_index t
  funext a; apply Fin.ext
  match a with
  | ⟨0, _⟩ => show win0_1.index t (0 : Fin 2) * 16 + 1 * s.val = s.val; omega
  | ⟨1, _⟩ => show win0_1.index t (1 : Fin 2) * 64 + 1 * q.val = q.val; omega

/-- The bias' block is the whole row. -/
theorem bias_place (t : Fin cfg0.N) (z : Fin 1) (q : Fin 64) :
    ((cfg0.win 2).blk t).view.emb (ix2 z q : S1x64.Idx) = (ix2 z q : S1x64.Idx) := by
  obtain ⟨e00, e01, e10, e11, e20, e21, e30, e31⟩ := block_index t
  funext a; apply Fin.ext
  match a with
  | ⟨0, _⟩ => show win0_2.index t (0 : Fin 2) * 1 + 1 * z.val = z.val; omega
  | ⟨1, _⟩ => show win0_2.index t (1 : Fin 2) * 64 + 1 * q.val = q.val; omega

/-- The feature block of point t, read at (p, s). -/
theorem rows_apply (c : Dev nD) (t : Fin cfg0.N) (p : Fin 5000) (s : Fin 16) (r : Fin 1000000) (hr : r.val = t.val * 5000 + p.val) :
    iblk0 V c 0 t (ix2 p s : S5000x16.Idx) = (V c main_v7 : S1000000x16.Idx → EReal) (ix2 r s) := by
  show V c main_v7 (((cfg0.win 0).blk t).view.emb (ix2 p s : S5000x16.Idx)) = _
  rw [rows_place t p s r hr]

/-- The weights' block, read at (s, q). -/
theorem weights_apply (c : Dev nD) (t : Fin cfg0.N) (s : Fin 16) (q : Fin 64) :
    iblk0 V c 1 t (ix2 s q : S16x64.Idx) = (V c main_arg3 : S16x64.Idx → EReal) (ix2 s q) := by
  show V c main_arg3 (((cfg0.win 1).blk t).view.emb (ix2 s q : S16x64.Idx)) = _
  rw [weights_place t s q]

/-- The bias' block, read at (0, q). -/
theorem bias_apply (c : Dev nD) (t : Fin cfg0.N) (z : Fin 1) (q : Fin 64) :
    iblk0 V c 2 t (ix2 z q : S1x64.Idx) = (V c main_v0 : S1x64.Idx → EReal) (ix2 z q) := by
  show V c main_v0 (((cfg0.win 2).blk t).view.emb (ix2 z q : S1x64.Idx)) = _
  rw [bias_place t z q]

/-- What point t writes back is block t of the positive part of the affine map of the three arrays. -/
theorem flushed_eq (c : Dev nD) (t : Fin cfg0.N) :
    (dat0 (F := Ideal) V c).flushed 3 t = ((cfg0.win 3).blk t).view.read (Elt Ideal)
      (reluLin (V c main_v7 : S1000000x16.Idx → EReal) (V c main_arg3 : S16x64.Idx → EReal) (V c main_v0 : S1x64.Idx → EReal)) := by
  show (cfg0.win 3).cut (grid0.coords t) ((dat0 V c).after 3 t) = _
  rw [after0_3]
  unfold out0_3
  rw [View.canon_unit_zero zero_off]
  simp only [View.ld_unit_zero (S := S5000x16) zero_off, View.ld_unit_zero (S := S16x64) zero_off, View.ld_unit_zero (S := S1x64) zero_off]
  funext j
  obtain ⟨p, q, rfl⟩ : ∃ (p : Fin 5000) (q : Fin 64), j = ix2 p q := ⟨j 0, j 1, eq_ix2 j⟩
  have hN : t.val < 200 := lt_of_lt_of_eq t.isLt N_0
  obtain ⟨r, hr⟩ : ∃ r : Fin 1000000, r.val = t.val * 5000 + p.val := ⟨⟨t.val * 5000 + p.val, by have := p.isLt; omega⟩, rfl⟩
  show k0_pay1 (F := Ideal) (iblk0 V c 0 t) (iblk0 V c 1 t) (iblk0 V c 2 t) (ix2 p q)
    = reluLin (V c main_v7 : S1000000x16.Idx → EReal) (V c main_arg3 : S16x64.Idx → EReal) (V c main_v0 : S1x64.Idx → EReal)
        (((cfg0.win 3).blk t).view.emb (ix2 p q : S5000x64.Idx))
  rw [out_place t p q r hr]
  refine (payload_apply (iblk0 V c 0 t) (iblk0 V c 1 t) (iblk0 V c 2 t) p q).trans ?_
  simp only [rows_apply V c t p _ r hr, weights_apply V c t, bias_apply V c t]
  rfl

/-- An index of the array is in point t's block iff each coordinate is in the block's range on its axis. -/
theorem mem_block (t : Fin cfg0.N) (i : S1000000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v8).slice (win0_3.rect t)).set ↔ _
  rw [View.set_slice_whole, Rect.mem_set_unit]
  exact Iff.rfl

/-- Row r of the array lies in the block of point r / 5000: the 200 blocks tile the rows. -/
theorem rows_tiled (i : S1000000x64.Idx) :
    ∃ t : Fin cfg0.N, (cfg0.win 3).flush t = true ∧ i ∈ ((cfg0.win 3).blk t).view.set := by
  have hi0 : (i 0).val < 1000000 := (i 0).isLt
  have hi1 : (i 1).val < 64 := (i 1).isLt
  obtain ⟨t, ht⟩ : ∃ t : Fin cfg0.N, t.val = (i 0).val / 5000 :=
    ⟨⟨(i 0).val / 5000, lt_of_lt_of_eq (show (i 0).val / 5000 < 200 by omega) N_0.symm⟩, rfl⟩
  obtain ⟨e00, e01, e10, e11, e20, e21, e30, e31⟩ := block_index t
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The output array after the whole grid is the positive part of the affine map of the three input arrays. -/
theorem out (c : Dev nD) :
    ((dat0 (F := Ideal) V c).arrAt 3 cfg0.N : S1000000x64.Idx → EReal)
      = reluLin (V c main_v7 : S1000000x16.Idx → EReal) (V c main_arg3 : S16x64.Idx → EReal) (V c main_v0 : S1x64.Idx → EReal) :=
  (dat0 (F := Ideal) V c).arrAt_eq_of_cover 3
    (reluLin (V c main_v7 : S1000000x16.Idx → EReal) (V c main_arg3 : S16x64.Idx → EReal) (V c main_v0 : S1x64.Idx → EReal))
    (fun t _ => flushed_eq V c t) rows_tiled

end Cert.KernelIdeal.Val0

end
-- ==== Proof.Region1.lean ====
/-
  Region 1 (the gather stage): the array the region leaves, read as one function of the arrays it finds.

  The grid has 500 points; point t works on rows 2000·t … 2000·t + 1999. For such a row r and a column q the body
  stores
      max( (Σ_k h[r,k] · g[k,q] + gb[0,q]) − Σ_s [batch[r,0] = s] · table[s,q] , 0 ),
  the second sum being a product with an indicator row: entry s of the row is 1 when the row's batch word is the
  32-bit word of s and 0 otherwise, s running over the 2048 rows of the padded table. The blocks of the 500 points
  tile the 1000000 rows, so the whole array is that function of the whole input arrays.
-/
import proofs.«401850_j66589172957709_2_alg».proof.Proof.Gen.KernelIdeal.Frame
import proofs.«401850_j66589172957709_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val1

open Cert.KernelIdeal Cert.KernelIdeal.Gen Idealize.ShloMosaic Idealize.ShloMosaic.TcCoe Idealize.SL.Sem Cert.Spec Idealize.ShloMosaic.ValueIdx
open Idealize.ShloMosaic.Pipeline (Dat Cfg Window)
open scoped BigOperators

/-! ## The two matrix products at an index

Both contract the left operand's columns with the right operand's rows; the operand indices at output index (p, q)
and contraction position s are (p, s) and (s, q). -/

theorem lhs_lin_0 (i : S2000x64.Idx) (k : dot_S2000x64_S64x64_S2000x64_1_0_0_1_n_n.contr.Idx) :
    (dot_S2000x64_S64x64_S2000x64_1_0_0_1_n_n.lhsIdx i k 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_lin_1 (i : S2000x64.Idx) (k : dot_S2000x64_S64x64_S2000x64_1_0_0_1_n_n.contr.Idx) :
    (dot_S2000x64_S64x64_S2000x64_1_0_0_1_n_n.lhsIdx i k 1).val = (k ⟨0, by decide⟩).val :=
  dot_S2000x64_S64x64_S2000x64_1_0_0_1_n_n.lhsIdx_val_of_single rfl i k
theorem rhs_lin_0 (i : S2000x64.Idx) (k : dot_S2000x64_S64x64_S2000x64_1_0_0_1_n_n.contr.Idx) :
    (dot_S2000x64_S64x64_S2000x64_1_0_0_1_n_n.rhsIdx i k 0).val = (k ⟨0, by decide⟩).val :=
  dot_S2000x64_S64x64_S2000x64_1_0_0_1_n_n.rhsIdx_val_of_single rfl i k
theorem rhs_lin_1 (i : S2000x64.Idx) (k : dot_S2000x64_S64x64_S2000x64_1_0_0_1_n_n.contr.Idx) :
    (dot_S2000x64_S64x64_S2000x64_1_0_0_1_n_n.rhsIdx i k 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

theorem lhs_sel_0 (i : S2000x64.Idx) (k : dot_S2000x2048_S2048x64_S2000x64_1_0_0_1_n_n.contr.Idx) :
    (dot_S2000x2048_S2048x64_S2000x64_1_0_0_1_n_n.lhsIdx i k 0).val = (i 0).val := by
  unfold DotDims.lhsIdx
  rw [dif_neg (show ¬(0 : Fin S2000x2048.rank) ∈ dot_S2000x2048_S2048x64_S2000x64_1_0_0_1_n_n.lhsBatch by decide), dif_pos (show (0 : Fin S2000x2048.rank) ∈ dot_S2000x2048_S2048x64_S2000x64_1_0_0_1_n_n.lhsNonContracting by decide)]
  rfl
theorem lhs_sel_1 (i : S2000x64.Idx) (k : dot_S2000x2048_S2048x64_S2000x64_1_0_0_1_n_n.contr.Idx) :
    (dot_S2000x2048_S2048x64_S2000x64_1_0_0_1_n_n.lhsIdx i k 1).val = (k ⟨0, by decide⟩).val :=
  dot_S2000x2048_S2048x64_S2000x64_1_0_0_1_n_n.lhsIdx_val_of_single rfl i k
theorem rhs_sel_0 (i : S2000x64.Idx) (k : dot_S2000x2048_S2048x64_S2000x64_1_0_0_1_n_n.contr.Idx) :
    (dot_S2000x2048_S2048x64_S2000x64_1_0_0_1_n_n.rhsIdx i k 0).val = (k ⟨0, by decide⟩).val :=
  dot_S2000x2048_S2048x64_S2000x64_1_0_0_1_n_n.rhsIdx_val_of_single rfl i k
theorem rhs_sel_1 (i : S2000x64.Idx) (k : dot_S2000x2048_S2048x64_S2000x64_1_0_0_1_n_n.contr.Idx) :
    (dot_S2000x2048_S2048x64_S2000x64_1_0_0_1_n_n.rhsIdx i k 1).val = (i 1).val := by
  unfold DotDims.rhsIdx
  rw [dif_neg (show ¬(1 : Fin S2048x64.rank) ∈ dot_S2000x2048_S2048x64_S2000x64_1_0_0_1_n_n.rhsBatch by decide), dif_pos (show (1 : Fin S2048x64.rank) ∈ dot_S2000x2048_S2048x64_S2000x64_1_0_0_1_n_n.rhsNonContracting by decide)]
  rfl

/-- The projection: row p of the features against column q of the 64 × 64 weight. -/
theorem lin_apply {φ₁ φ₂ : FTy} (a : FVec Ideal S2000x64 φ₁) (b : FVec Ideal S64x64 φ₂) (p : Fin 2000) (q : Fin 64) :
    matmul dot_S2000x64_S64x64_S2000x64_1_0_0_1_n_n none a b (constant (F := Ideal) S2000x64 .f32 0x00000000#32) (ix2 p q)
      = ∑ s : Fin 64, a (ix2 p s) * b (ix2 s q) := by
  show FloatOps.matmul dot_S2000x64_S64x64_S2000x64_1_0_0_1_n_n none a b (constant (F := Ideal) S2000x64 .f32 0x00000000#32) (ix2 p q) = _
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k := funext fun a => Fin.ext (by
    match a with
    | ⟨0, _⟩ => exact lhs_lin_0 _ _
    | ⟨1, _⟩ => exact (lhs_lin_1 _ _).trans hk)
  have er : dot_S2000x64_S64x64_S2000x64_1_0_0_1_n_n.rhsIdx (ix2 p q) ((contrEquiv1 dot_S2000x64_S64x64_S2000x64_1_0_0_1_n_n 64 rfl rfl).symm k) = ix2 k q := funext fun a => Fin.ext (by
    match a with
    | ⟨0, _⟩ => exact (rhs_lin_0 _ _).trans hk
    | ⟨1, _⟩ => exact rhs_lin_1 _ _)
  rw [el, er]

/-- The selection: row p of the indicator matrix against column q of the 2048-row table. -/
theorem sel_apply {φ₁ φ₂ : FTy} (a : FVec Ideal S2000x2048 φ₁) (b : FVec Ideal S2048x64 φ₂) (p : Fin 2000) (q : Fin 64) :
    matmul dot_S2000x2048_S2048x64_S2000x64_1_0_0_1_n_n none a b (constant (F := Ideal) S2000x64 .f32 0x00000000#32) (ix2 p q)
      = ∑ s : Fin 2048, a (ix2 p s) * b (ix2 s q) := by
  show FloatOps.matmul dot_S2000x2048_S2048x64_S2000x64_1_0_0_1_n_n none a b (constant (F := Ideal) S2000x64 .f32 0x00000000#32) (ix2 p q) = _
  rw [Ideal.matmul_constant_zero_apply, ← Equiv.sum_comp (contrEquiv1 dot_S2000x2048_S2048x64_S2000x64_1_0_0_1_n_n 2048 rfl rfl).symm]
  refine Finset.sum_congr rfl fun k _ => ?_
  have hk := contrEquiv1_symm_val dot_S2000x2048_S2048x64_S2000x64_1_0_0_1_n_n 2048 rfl rfl k
  have el : dot_S2000x2048_S2048x64_S2000x64_1_0_0_1_n_n.lhsIdx (ix2 p q) ((contrEquiv1 dot_S2000x2048_S2048x64_S2000x64_1_0_0_1_n_n 2048 rfl rfl).symm k) = ix2 p k := funext fun a => Fin.ext (by
    match a with
    | ⟨0, _⟩ => exact lhs_sel_0 _ _
    | ⟨1, _⟩ => exact (lhs_sel_1 _ _).trans hk)
  have er : dot_S2000x2048_S2048x64_S2000x64_1_0_0_1_n_n.rhsIdx (ix2 p q) ((contrEquiv1 dot_S2000x2048_S2048x64_S2000x64_1_0_0_1_n_n 2048 rfl rfl).symm k) = ix2 k q := funext fun a => Fin.ext (by
    match a with
    | ⟨0, _⟩ => exact (rhs_sel_0 _ _).trans hk
    | ⟨1, _⟩ => exact rhs_sel_1 _ _)
  rw [el, er]

/-! ## The indicator row and the bias row -/

/-- A comparison of two words for equality, widened and read as a number: 1 when they are equal, 0 when not. -/
theorem eq_word_as_number (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · subst h
    simp [IntOp.cmpi]
  · have hb : (a == b) = false := beq_eq_false_iff_ne.mpr h
    simp [IntOp.cmpi, hb, h]

/-- Entry (p, s) of the indicator matrix: the batch word of row p, repeated along the row, compared with the column
    number s. -/
theorem indicator_apply (x1 : Vec Ideal S2000x1 .i32) (p : Fin 2000) (s : Fin 2048) :
    (sitofp .f32 (extui 32 (cmpi .eq (broadcastTo S2000x2048 (shapeCast S2000x1 x1 shapeCasts_S2000x1_S2000x1) broadcasts_S2000x1_S2000x2048)
        (iota .tc S2000x2048 32 [1] iota_S2000x2048_d1_w32)) natLt_1_32) : FVec Ideal S2000x2048 .f32) (ix2 p s)
      = if x1 (ix2 p 0) = BitVec.ofNat 32 s.val then (1 : EReal) else 0 := by
  rw [sitofp_apply, extui_apply]
  show FloatOps.sitofp (F := Ideal) .f32 ((IntOp.cmpi .eq
    (broadcastTo S2000x2048 (shapeCast S2000x1 x1 shapeCasts_S2000x1_S2000x1) broadcasts_S2000x1_S2000x2048 (ix2 p s))
    (iota .tc S2000x2048 32 [1] iota_S2000x2048_d1_w32 (ix2 p s))).setWidth 32) = _
  rw [shapeCast_self, iota_single_apply,
    broadcastTo_apply x1 broadcasts_S2000x1_S2000x2048 (ix2 p s) (ix2 p 0) (fun a => by
      match a with
      | ⟨0, _⟩ => show p.val = if (2000 : Nat) = 1 then 0 else p.val; rw [if_neg (by decide)]
      | ⟨1, _⟩ => show 0 = if (1 : Nat) = 1 then 0 else s.val; rw [if_pos rfl])]
  exact eq_word_as_number _ _

/-- Entry (p, q) of the bias, repeated down the rows: the one-row array at column q. -/
theorem bias_apply (x4 : Vec Ideal S1x64 .f32) (p : Fin 2000) (q : Fin 64) :
    broadcastTo S2000x64 (shapeCast S1x64 x4 shapeCasts_S1x64_S1x64) broadcasts_S1x64_S2000x64 (ix2 p q) = x4 (ix2 0 q) := by
  rw [shapeCast_self]
  exact broadcastTo_apply x4 broadcasts_S1x64_S2000x64 (ix2 p q) (ix2 0 q) (fun a => by
    match a with
    | ⟨0, _⟩ => show 0 = if (1 : Nat) = 1 then 0 else p.val; rw [if_pos rfl]
    | ⟨1, _⟩ => show q.val = if (64 : Nat) = 1 then 0 else q.val; rw [if_neg (by decide)])

/-! ## The body's arithmetic at an index -/

/-- What the body stores at row p, column q of its block, from the five blocks it loads. -/
theorem payload_apply (x0 : Vec Ideal S2000x64 .f32) (x1 : Vec Ideal S2000x1 .i32) (x2 : Vec Ideal S2048x64 .f32)
    (x3 : Vec Ideal S64x64 .f32) (x4 : Vec Ideal S1x64 .f32) (p : Fin 2000) (q : Fin 64) :
    k1_pay1 (F := Ideal) x0 x1 x2 x3 x4 (ix2 p q)
      = max (((∑ s : Fin 64, x0 (ix2 p s) * x3 (ix2 s q)) + x4 (ix2 0 q))
            - ∑ s : Fin 2048, (if x1 (ix2 p 0) = BitVec.ofNat 32 s.val then (1 : EReal) else 0) * x2 (ix2 s q)) 0 := by
  unfold k1_pay1
  rw [maximumf_apply, subf_apply, addf_apply, broadcast_apply, lin_apply, sel_apply, bias_apply,
    show (FloatOps.ofBits (F := Ideal) .f32 0x00000000#32 : EReal) = 0 from Ideal.ofBits_zero_f32]
  refine congrArg (max · (0 : EReal)) (congrArg₂ (· - ·) ?_ ?_)
  · refine congrArg (· + x4 (ix2 0 q)) (Finset.sum_congr rfl fun s _ => ?_)
    rw [truncf_apply, truncf_apply, shapeCast_self]
  · refine Finset.sum_congr rfl fun s _ => ?_
    rw [truncf_apply, truncf_apply, indicator_apply, shapeCast_self]

/-- The body's value at (p, q) is the specification's at an index i of the whole arrays, once the entries of the
    five blocks that the value depends on are the corresponding entries of the arrays: row p of the feature block and
    of the batch block are row (row i) of their arrays, column q of the table, of the weight and of the bias row is
    column (col i). -/
theorem block_value (A : A2 1000000 64) (bt : W2 1000000 1) (P : A2 2048 64) (W : A2 64 64) (b : A2 1 64)
    (x0 : Vec Ideal S2000x64 .f32) (x1 : Vec Ideal S2000x1 .i32) (x2 : Vec Ideal S2048x64 .f32)
    (x3 : Vec Ideal S64x64 .f32) (x4 : Vec Ideal S1x64 .f32)
    (i : S1000000x64.Idx) (p : Fin 2000) (q : Fin 64)
    (h0 : ∀ s : Fin 64, x0 (ix2 p s) = A (ix2 (row i) s))
    (h1 : x1 (ix2 p 0) = bt (ix2 (row i) 0))
    (h2 : ∀ s : Fin 2048, x2 (ix2 s q) = P (ix2 s (col i)))
    (h3 : ∀ s : Fin 64, x3 (ix2 s q) = W (ix2 s (col i)))
    (h4 : x4 (ix2 0 q) = b (ix2 0 (col i))) :
    k1_pay1 (F := Ideal) x0 x1 x2 x3 x4 (ix2 p q) = reluLinSub A W b (onehotRows bt P) i := by
  rw [payload_apply]
  show _ = max (((∑ s : Fin 64, A (ix2 (row i) s) * W (ix2 s (col i))) + b (ix2 0 (col i)))
      - ∑ s : Fin 2048, (if bt (ix2 (row i) 0) = BitVec.ofNat 32 s.val then (1 : EReal) else 0) * P (ix2 s (col i))) 0
  simp only [h0, h1, h2, h3, h4]

/-! ## From the blocks to the array -/

variable (V : (c : Dev nD) → (b : Ref sig .tc) → Buf (Elt Ideal) ((c : Thread nD τ).loc b))

/-- The array the region leaves, as one function of the arrays it finds: the features, the weight, the bias row, the
    batch column and the padded table. -/
abbrev gathered (c : Dev nD) : A2 1000000 64 :=
  reluLinSub (V c main_v8 : S1000000x64.Idx → EReal) (V c main_arg5 : S64x64.Idx → EReal) (V c main_v1 : S1x64.Idx → EReal)
    (onehotRows (V c main_v5 : S1000000x1.Idx → BitVec 32) (V c (Pipeline.arrRef spec1 2) : S2048x64.Idx → EReal))

theorem hz : (![0, 0] : Fin 2 → Nat) = fun _ => 0 := funext fun a => by fin_cases a <;> rfl

/-- The block index maps over the 500 points: the feature, batch and output blocks of point t are block t along the
    rows; the table, the weight and the bias row are staged whole at every point. -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of `gathered`. -/
theorem flushed_eq (c : Dev nD) (t : Fin cfg1.N) :
    (dat1 (F := Ideal) V c).flushed 5 t = ((cfg1.win 5).blk t).view.read (Elt Ideal) (gathered V c) := by
  show (cfg1.win 5).cut (grid1.coords t) ((dat1 (F := Ideal) V c).after 5 t) = _
  rw [after1_5]
  unfold out1_5
  rw [View.canon_unit_zero hz]
  simp only [View.ld_unit_zero (S := S2000x64) hz, View.ld_unit_zero (S := S2000x1) hz, View.ld_unit_zero (S := S2048x64) hz,
    View.ld_unit_zero (S := S64x64) hz, View.ld_unit_zero (S := S1x64) hz]
  obtain ⟨e00, e01, e10, e11, e20, e21, e30, e31, e40, e41, e50, e51⟩ := idx_facts t
  funext j
  have hj0 : (j 0).val < 2000 := (j 0).isLt
  have hj1 : (j 1).val < 64 := (j 1).isLt
  have hx : (cfg1.win 5).xinj (grid1.coords t) j = ix2 (⟨(j 0).val, hj0⟩ : Fin 2000) (⟨(j 1).val, hj1⟩ : Fin 64) :=
    funext fun a => by match a with | ⟨0, _⟩ => rfl | ⟨1, _⟩ => rfl
  show k1_pay1 (F := Ideal) (iblk1 V c 0 t) (iblk1 V c 1 t) (iblk1 V c 2 t) (iblk1 V c 3 t) (iblk1 V c 4 t)
      ((cfg1.win 5).xinj (grid1.coords t) j) = gathered V c (((cfg1.win 5).blk t).view.emb j)
  refine (congrArg (k1_pay1 (F := Ideal) (iblk1 V c 0 t) (iblk1 V c 1 t) (iblk1 V c 2 t) (iblk1 V c 3 t) (iblk1 V c 4 t)) hx).trans ?_
  refine block_value (V c main_v8) (V c main_v5) (V c (Pipeline.arrRef spec1 2)) (V c main_arg5) (V c main_v1)
    (iblk1 V c 0 t) (iblk1 V c 1 t) (iblk1 V c 2 t) (iblk1 V c 3 t) (iblk1 V c 4 t)
    (((cfg1.win 5).blk t).view.emb j) ⟨(j 0).val, hj0⟩ ⟨(j 1).val, hj1⟩ (fun s => ?_) ?_ (fun s => ?_) (fun s => ?_) ?_
  · -- row p of the feature block is row 2000·t + p of the features
    show (V c main_v8 : S1000000x64.Idx → EReal) (((cfg1.win 0).blk t).view.emb (ix2 (⟨(j 0).val, hj0⟩ : Fin 2000) s))
      = V c main_v8 (ix2 (row (((cfg1.win 5).blk t).view.emb j)) s)
    refine congrArg _ (funext fun a => Fin.ext ?_)
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 64 + 1 * s.val = s.val; omega
  · -- row p of the batch block is row 2000·t + p of the batch column
    show (V c main_v5 : S1000000x1.Idx → BitVec 32) (((cfg1.win 1).blk t).view.emb (ix2 (⟨(j 0).val, hj0⟩ : Fin 2000) (0 : Fin 1)))
      = V c main_v5 (ix2 (row (((cfg1.win 5).blk t).view.emb j)) 0)
    refine congrArg _ (funext fun a => Fin.ext ?_)
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 1 + 1 * 0 = 0; omega
  · -- the table is staged whole
    show (V c (Pipeline.arrRef spec1 2) : S2048x64.Idx → EReal) (((cfg1.win 2).blk t).view.emb (ix2 s (⟨(j 1).val, hj1⟩ : Fin 64)))
      = V c (Pipeline.arrRef spec1 2) (ix2 s (col (((cfg1.win 5).blk t).view.emb j)))
    refine congrArg _ (funext fun a => Fin.ext ?_)
    match a with
    | ⟨0, _⟩ => show win1_2.index t (0 : Fin 2) * 2048 + 1 * s.val = s.val; omega
    | ⟨1, _⟩ => show win1_2.index t (1 : Fin 2) * 64 + 1 * (j 1).val = win1_5.index t (1 : Fin 2) * 64 + 1 * (j 1).val; omega
  · -- the weight is staged whole
    show (V c main_arg5 : S64x64.Idx → EReal) (((cfg1.win 3).blk t).view.emb (ix2 s (⟨(j 1).val, hj1⟩ : Fin 64)))
      = V c main_arg5 (ix2 s (col (((cfg1.win 5).blk t).view.emb j)))
    refine congrArg _ (funext fun a => Fin.ext ?_)
    match a with
    | ⟨0, _⟩ => show win1_3.index t (0 : Fin 2) * 64 + 1 * s.val = s.val; omega
    | ⟨1, _⟩ => show win1_3.index t (1 : Fin 2) * 64 + 1 * (j 1).val = win1_5.index t (1 : Fin 2) * 64 + 1 * (j 1).val; omega
  · -- the bias row is staged whole
    show (V c main_v1 : S1x64.Idx → EReal) (((cfg1.win 4).blk t).view.emb (ix2 (0 : Fin 1) (⟨(j 1).val, hj1⟩ : Fin 64)))
      = V c main_v1 (ix2 0 (col (((cfg1.win 5).blk t).view.emb j)))
    refine congrArg _ (funext fun a => Fin.ext ?_)
    match a with
    | ⟨0, _⟩ => show win1_4.index t (0 : Fin 2) * 1 + 1 * 0 = 0; omega
    | ⟨1, _⟩ => show win1_4.index t (1 : Fin 2) * 64 + 1 * (j 1).val = win1_5.index t (1 : Fin 2) * 64 + 1 * (j 1).val; omega

/-- An index of the array is in point t's block iff each coordinate is in the block's range on its axis. -/
theorem mem_blk (t : Fin cfg1.N) (i : S1000000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v23).slice (win1_5.rect t)).set ↔ _
  rw [View.set_slice_whole, Rect.mem_set_unit]
  exact Iff.rfl

/-- The 500 blocks of 2000 rows tile the 1000000 rows: row r lies in the block of point r / 2000, and every point
    writes its block back. -/
theorem covered (i : S1000000x64.Idx) :
    ∃ t : Fin cfg1.N, (cfg1.win 5).flush t = true ∧ i ∈ ((cfg1.win 5).blk t).view.set := by
  have hi0 : (i 0).val < 1000000 := (i 0).isLt
  have hi1 : (i 1).val < 64 := (i 1).isLt
  have hN : cfg1.N = 500 := N_1
  obtain ⟨t, ht⟩ : ∃ t : Fin cfg1.N, t.val = (i 0).val / 2000 := ⟨⟨(i 0).val / 2000, by rw [hN]; omega⟩, rfl⟩
  obtain ⟨-, -, -, -, -, -, -, -, -, -, e50, e51⟩ := idx_facts t
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 64 ≤ (i 1).val ∧ (i 1).val < win1_5.index t (1 : Fin 2) * 64 + 64; omega

/-- The array after the whole grid is `gathered` of the arrays the region finds. -/
theorem final (c : Dev nD) : (dat1 (F := Ideal) V c).arrAt 5 cfg1.N = gathered V c :=
  (dat1 (F := Ideal) V c).arrAt_eq_of_cover 5 (gathered V c) (fun t _ => flushed_eq V c t) covered

/-- Region 1's output array after its 500 points: max(h·g + gb − onehot(batch)·table, 0), row by row, of the arrays the
    region finds. -/
theorem out (c : Dev nD) :
    ((dat1 (F := Ideal) V c).arrAt 5 cfg1.N : S1000000x64.Idx → EReal)
      = reluLinSub (V c main_v8 : S1000000x64.Idx → EReal) (V c main_arg5 : S64x64.Idx → EReal) (V c main_v1 : S1x64.Idx → EReal)
          (onehotRows (V c main_v5 : S1000000x1.Idx → BitVec 32) (V c (Pipeline.arrRef spec1 2) : S2048x64.Idx → EReal)) :=
  final V c

end Cert.KernelIdeal.Val1

end
-- ==== Proof.Region2.lean ====
/-
  Region 2 of the kernel (the second-stage pass over the 1000000 rows, 500 grid points of 2000 rows), read as values at
  the ideal instance. At every point t the body stores the block
      v_t = max(h_t · g + gb − onehot(batch_t) · table, 0)
  of the point's 2000 rows, and adds the column sums of v_t and of v_t² into two one-row accumulators that are reset to
  0 at the first point and carried from point to point. So after the grid the output array is reluLinSub of the whole
  inputs, and the two accumulators hold its column sums and the column sums of its squares, as sums over the points of
  the sums over each point's rows.
-/
import proofs.«401850_j66589172957709_2_alg».proof.Proof.Gen.KernelIdeal.Frame
import proofs.«401850_j66589172957709_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val2

open Cert.KernelIdeal Cert.KernelIdeal.Gen Idealize.ShloMosaic Idealize.ShloMosaic.TcCoe Idealize.SL.Sem Cert.Spec Idealize.ShloMosaic.ValueIdx
open Idealize.ShloMosaic.Pipeline (Dat Cfg Window)

/-- The zero offsets of a whole-buffer access, however spelt. -/
theorem zeroOffsets : (![0, 0] : Fin 2 → Nat) = fun _ => 0 := funext fun a => by fin_cases a <;> rfl

section Pieces

variable {F : FTy → Type} [FloatOps F]

/-- At the first point the stored block is the payload of the point's input blocks. -/
theorem blockA (c : Dev nD) (i : grid2.Coords) (a1 : Memref sig .tc .vmem S2000x64 .f32) (h1 : a1.IsWhole) (a2 : Memref sig .tc .vmem S2000x1 .i32) (h2 : a2.IsWhole) (a3 : Memref sig .tc .vmem S2048x128 .f32) (h3 : a3.IsWhole) (a4 : Memref sig .tc .vmem S64x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond2_0 i) (x0 : Vec F S2000x64 .f32) (x1 : Vec F S2000x1 .i32) (x2 : Vec F S2048x128 .f32) (x3 : Vec F S64x128 .f32) (x4 : Vec F S1x128 .f32) :
    out2_A_5 c i a1 h1 a2 h2 a3 h3 a4 h4 a5 h5 a6 h6 a7 h7 a8 h8 hc x0 x1 x2 x3 x4 = k2_pay4 x0 x1 x2 x3 x4 := by
  unfold out2_A_5
  rw [View.read_writes_eq_canon _ _ _ (cover2_A_5 c i a1 h1 a2 h2 a3 h3 a4 h4 a5 h5 a6 h6 a7 h7 a8 h8 hc x0 x1 x2 x3 x4)]
  unfold kernelRun2_A
  dsimp only
  sl_unfold_words
  rw [View.canon_unit_zero zeroOffsets]
  simp only [View.readAt_eq_ld, h1.read_unread, h2.read_unread, h3.read_unread, h4.read_unread, h5.read_unread, View.ld_unit_zero (S := S2000x64) zeroOffsets, View.ld_unit_zero (S := S2000x1) zeroOffsets, View.ld_unit_zero (S := S2048x128) zeroOffsets, View.ld_unit_zero (S := S64x128) zeroOffsets, View.ld_unit_zero (S := S1x128) zeroOffsets]

/-- At every later point too. -/
theorem blockB (c : Dev nD) (i : grid2.Coords) (a1 : Memref sig .tc .vmem S2000x64 .f32) (h1 : a1.IsWhole) (a2 : Memref sig .tc .vmem S2000x1 .i32) (h2 : a2.IsWhole) (a3 : Memref sig .tc .vmem S2048x128 .f32) (h3 : a3.IsWhole) (a4 : Memref sig .tc .vmem S64x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond2_0 i) (x0 : Vec F S2000x64 .f32) (x1 : Vec F S2000x1 .i32) (x2 : Vec F S2048x128 .f32) (x3 : Vec F S64x128 .f32) (x4 : Vec F S1x128 .f32) (xo6 xo7 : Vec F S1x128 .f32) :
    out2_B_5 c i a1 h1 a2 h2 a3 h3 a4 h4 a5 h5 a6 h6 a7 h7 a8 h8 hc x0 x1 x2 x3 x4 xo6 xo7 = k2_pay4 x0 x1 x2 x3 x4 := by
  unfold out2_B_5
  rw [View.read_writes_eq_canon _ _ _ (cover2_B_5 c i a1 h1 a2 h2 a3 h3 a4 h4 a5 h5 a6 h6 a7 h7 a8 h8 hc x0 x1 x2 x3 x4 xo6 xo7)]
  unfold kernelRun2_B
  dsimp only
  sl_unfold_words
  rw [View.canon_unit_zero zeroOffsets]
  simp only [View.readAt_eq_ld, h1.read_unread, h2.read_unread, h3.read_unread, h4.read_unread, h5.read_unread, View.ld_unit_zero (S := S2000x64) zeroOffsets, View.ld_unit_zero (S := S2000x1) zeroOffsets, View.ld_unit_zero (S := S2048x128) zeroOffsets, View.ld_unit_zero (S := S64x128) zeroOffsets, View.ld_unit_zero (S := S1x128) zeroOffsets]

/-- At the first point the sum accumulator is reset to the zero row, read back, and the block's column sums added. -/
theorem sumA (c : Dev nD) (i : grid2.Coords) (a1 : Memref sig .tc .vmem S2000x64 .f32) (h1 : a1.IsWhole) (a2 : Memref sig .tc .vmem S2000x1 .i32) (h2 : a2.IsWhole) (a3 : Memref sig .tc .vmem S2048x128 .f32) (h3 : a3.IsWhole) (a4 : Memref sig .tc .vmem S64x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond2_0 i) (x0 : Vec F S2000x64 .f32) (x1 : Vec F S2000x1 .i32) (x2 : Vec F S2048x128 .f32) (x3 : Vec F S64x128 .f32) (x4 : Vec F S1x128 .f32) :
    out2_A_6 c i a1 h1 a2 h2 a3 h3 a4 h4 a5 h5 a6 h6 a7 h7 a8 h8 hc x0 x1 x2 x3 x4 = k2_pay5 x0 x1 x2 x3 x4 (k2_pay2 (F := F)) := by
  unfold out2_A_6
  rw [View.read_writes_eq_canon _ _ _ (cover2_A_6 c i a1 h1 a2 h2 a3 h3 a4 h4 a5 h5 a6 h6 a7 h7 a8 h8 hc x0 x1 x2 x3 x4)]
  unfold kernelRun2_A
  dsimp only
  sl_unfold_words
  rw [View.canon_cons_unit_zero (S := S1x128) zeroOffsets]
  simp only [View.readAt_eq_ld, h1.read_unread, h2.read_unread, h3.read_unread, h4.read_unread, h5.read_unread, View.ld_unit_zero (S := S2000x64) zeroOffsets, View.ld_unit_zero (S := S2000x1) zeroOffsets, View.ld_unit_zero (S := S2048x128) zeroOffsets, View.ld_unit_zero (S := S64x128) zeroOffsets, View.ld_unit_zero (S := S1x128) zeroOffsets, View.readCov_unit_zero (S := S1x128) _ zeroOffsets]

/-- At a later point the block's column sums are added to what the point before left. -/
theorem sumB (c : Dev nD) (i : grid2.Coords) (a1 : Memref sig .tc .vmem S2000x64 .f32) (h1 : a1.IsWhole) (a2 : Memref sig .tc .vmem S2000x1 .i32) (h2 : a2.IsWhole) (a3 : Memref sig .tc .vmem S2048x128 .f32) (h3 : a3.IsWhole) (a4 : Memref sig .tc .vmem S64x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond2_0 i) (x0 : Vec F S2000x64 .f32) (x1 : Vec F S2000x1 .i32) (x2 : Vec F S2048x128 .f32) (x3 : Vec F S64x128 .f32) (x4 : Vec F S1x128 .f32) (xo6 xo7 : Vec F S1x128 .f32) :
    out2_B_6 c i a1 h1 a2 h2 a3 h3 a4 h4 a5 h5 a6 h6 a7 h7 a8 h8 hc x0 x1 x2 x3 x4 xo6 xo7 = k2_pay5 x0 x1 x2 x3 x4 xo6 := by
  unfold out2_B_6
  rw [View.read_writes_eq_canon _ _ _ (cover2_B_6 c i a1 h1 a2 h2 a3 h3 a4 h4 a5 h5 a6 h6 a7 h7 a8 h8 hc x0 x1 x2 x3 x4 xo6 xo7)]
  unfold kernelRun2_B
  dsimp only
  sl_unfold_words
  rw [View.canon_unit_zero zeroOffsets]
  simp only [View.readAt_eq_ld, h1.read_unread, h2.read_unread, h3.read_unread, h4.read_unread, h5.read_unread, View.ld_unit_zero (S := S2000x64) zeroOffsets, View.ld_unit_zero (S := S2000x1) zeroOffsets, View.ld_unit_zero (S := S2048x128) zeroOffsets, View.ld_unit_zero (S := S64x128) zeroOffsets, View.ld_unit_zero (S := S1x128) zeroOffsets, h7.read_unread]

/-- At the first point the sum-of-squares accumulator is reset to the zero row, read back, and the column sums of the
    block's squares added. -/
theorem sumsqA (c : Dev nD) (i : grid2.Coords) (a1 : Memref sig .tc .vmem S2000x64 .f32) (h1 : a1.IsWhole) (a2 : Memref sig .tc .vmem S2000x1 .i32) (h2 : a2.IsWhole) (a3 : Memref sig .tc .vmem S2048x128 .f32) (h3 : a3.IsWhole) (a4 : Memref sig .tc .vmem S64x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : cond2_0 i) (x0 : Vec F S2000x64 .f32) (x1 : Vec F S2000x1 .i32) (x2 : Vec F S2048x128 .f32) (x3 : Vec F S64x128 .f32) (x4 : Vec F S1x128 .f32) :
    out2_A_7 c i a1 h1 a2 h2 a3 h3 a4 h4 a5 h5 a6 h6 a7 h7 a8 h8 hc x0 x1 x2 x3 x4 = k2_pay1 (k2_pay4 x0 x1 x2 x3 x4) (k2_pay3 (F := F)) := by
  unfold out2_A_7
  rw [View.read_writes_eq_canon _ _ _ (cover2_A_7 c i a1 h1 a2 h2 a3 h3 a4 h4 a5 h5 a6 h6 a7 h7 a8 h8 hc x0 x1 x2 x3 x4)]
  unfold kernelRun2_A
  dsimp only
  sl_unfold_words
  rw [View.canon_cons_unit_zero (S := S1x128) zeroOffsets]
  simp only [View.readAt_eq_ld, h1.read_unread, h2.read_unread, h3.read_unread, h4.read_unread, h5.read_unread, View.ld_unit_zero (S := S2000x64) zeroOffsets, View.ld_unit_zero (S := S2000x1) zeroOffsets, View.ld_unit_zero (S := S2048x128) zeroOffsets, View.ld_unit_zero (S := S64x128) zeroOffsets, View.ld_unit_zero (S := S1x128) zeroOffsets, View.readCov_unit_zero (S := S1x128) _ zeroOffsets]

/-- At a later point the column sums of the block's squares are added to what the point before left. -/
theorem sumsqB (c : Dev nD) (i : grid2.Coords) (a1 : Memref sig .tc .vmem S2000x64 .f32) (h1 : a1.IsWhole) (a2 : Memref sig .tc .vmem S2000x1 .i32) (h2 : a2.IsWhole) (a3 : Memref sig .tc .vmem S2048x128 .f32) (h3 : a3.IsWhole) (a4 : Memref sig .tc .vmem S64x128 .f32) (h4 : a4.IsWhole) (a5 : Memref sig .tc .vmem S1x128 .f32) (h5 : a5.IsWhole) (a6 : Memref sig .tc .vmem S2000x128 .f32) (h6 : a6.IsWhole) (a7 : Memref sig .tc .vmem S1x128 .f32) (h7 : a7.IsWhole) (a8 : Memref sig .tc .vmem S1x128 .f32) (h8 : a8.IsWhole) (hc : ¬cond2_0 i) (x0 : Vec F S2000x64 .f32) (x1 : Vec F S2000x1 .i32) (x2 : Vec F S2048x128 .f32) (x3 : Vec F S64x128 .f32) (x4 : Vec F S1x128 .f32) (xo6 xo7 : Vec F S1x128 .f32) :
    out2_B_7 c i a1 h1 a2 h2 a3 h3 a4 h4 a5 h5 a6 h6 a7 h7 a8 h8 hc x0 x1 x2 x3 x4 xo6 xo7 = k2_pay1 (k2_pay4 x0 x1 x2 x3 x4) xo7 := by
  unfold out2_B_7
  rw [View.read_writes_eq_canon _ _ _ (cover2_B_7 c i a1 h1 a2 h2 a3 h3 a4 h4 a5 h5 a6 h6 a7 h7 a8 h8 hc x0 x1 x2 x3 x4 xo6 xo7)]
  unfold kernelRun2_B
  dsimp only
  sl_unfold_words
  rw [View.canon_unit_zero zeroOffsets]
  simp only [View.readAt_eq_ld, h1.read_unread, h2.read_unread, h3.read_unread, h4.read_unread, h5.read_unread, View.ld_unit_zero (S := S2000x64) zeroOffsets, View.ld_unit_zero (S := S2000x1) zeroOffsets, View.ld_unit_zero (S := S2048x128) zeroOffsets, View.ld_unit_zero (S := S64x128) zeroOffsets, View.ld_unit_zero (S := S1x128) zeroOffsets, h8.read_unread]

end Pieces

section Payload

/-! ### The block's arithmetic at an entry -/

/-- An equality test of two words, widened to a word and converted to a float, is 1 where they agree and 0 elsewhere. -/
theorem indicator_eq (a b : BitVec 32) :
    (FloatOps.sitofp (F := Ideal) .f32 ((IntOp.cmpi .eq a b).setWidth 32) : EReal) = if a = b then (1 : EReal) else 0 := by
  show (((((IntOp.cmpi .eq a b).setWidth 32).toInt : ℤ) : ℝ) : EReal) = _
  by_cases h : a = b
  · subst h
    rw [if_pos rfl, show IntOp.cmpi .eq a a = 1#1 from IntOp.cmpi_eq.mpr rfl]
    norm_num
  · rw [if_neg h, show IntOp.cmpi .eq a b = 0#1 from eq_zero_of_ne_one (fun e => h (IntOp.cmpi_eq.mp e))]
    norm_num

/-- A one-column array of words broadcast along 2048 columns reads, at (p, s), the word of row p. -/
theorem bcastCol_apply (v : IVec S2000x1 32) (p : Fin 2000) (s : Fin 2048) :
    broadcastTo S2000x2048 v broadcasts_S2000x1_S2000x2048 (ix2 p s) = v (ix2 p (0 : Fin 1)) := by
  refine broadcastTo_apply v broadcasts_S2000x1_S2000x2048 (ix2 p s) (ix2 p (0 : Fin 1)) fun ax => ?_
  match ax with
  | ⟨0, _⟩ => rfl
  | ⟨1, _⟩ => rfl

/-- The contraction h · g: the left operand is read at (row, k) … -/
theorem lhsH_0 (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
theorem lhsH_1 (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
/-- … and the right at (k, column). -/
theorem rhsH_0 (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
theorem rhsH_1 (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- The product h · g into the zero block, at (p, q): the sum over the 64 inner coordinates. -/
theorem matmulH_apply (A : FVec Ideal S2000x64 .bf16) (B : FVec Ideal S64x128 .bf16) (p : Fin 2000) (q : Fin 128) :
    matmul dot_S2000x64_S64x128_S2000x128_1_0_0_1_n_n none A B (constant (F := Ideal) S2000x128 .f32 0x00000000#32) (ix2 p q)
      = ∑ k : Fin 64, A (ix2 p k) * B (ix2 k q) := by
  simp only [matmul]
  rw [Ideal.matmul_constant_zero_apply, ← Equiv.sum_comp (contrEquiv1 dot_S2000x64_S64x128_S2000x128_1_0_0_1_n_n 64 rfl rfl).symm]
  refine Finset.sum_congr rfl fun k _ => ?_
  have hk := contrEquiv1_symm_val dot_S2000x64_S64x128_S2000x128_1_0_0_1_n_n 64 rfl rfl k
  have el : dot_S2000x64_S64x128_S2000x128_1_0_0_1_n_n.lhsIdx (ix2 p q) ((contrEquiv1 dot_S2000x64_S64x128_S2000x128_1_0_0_1_n_n 64 rfl rfl).symm k) = ix2 p k := funext fun a => Fin.ext (by
    match a with
    | ⟨0, _⟩ => exact lhsH_0 _ _
    | ⟨1, _⟩ => exact (lhsH_1 _ _).trans hk)
  have er : dot_S2000x64_S64x128_S2000x128_1_0_0_1_n_n.rhsIdx (ix2 p q) ((contrEquiv1 dot_S2000x64_S64x128_S2000x128_1_0_0_1_n_n 64 rfl rfl).symm k) = ix2 k q := funext fun a => Fin.ext (by
    match a with
    | ⟨0, _⟩ => exact (rhsH_0 _ _).trans hk
    | ⟨1, _⟩ => exact rhsH_1 _ _)
  rw [el, er]

/-- The contraction onehot · table: the left operand is read at (row, s) … -/
theorem lhsT_0 (i : S2000x128.Idx) (q : dot_S2000x2048_S2048x128_S2000x128_1_0_0_1_n_n.contr.Idx) :
    (dot_S2000x2048_S2048x128_S2000x128_1_0_0_1_n_n.lhsIdx i q 0).val = (i 0).val := by
  unfold DotDims.lhsIdx
  rw [dif_neg (show ¬(0 : Fin S2000x2048.rank) ∈ dot_S2000x2048_S2048x128_S2000x128_1_0_0_1_n_n.lhsBatch by decide), dif_pos (show (0 : Fin S2000x2048.rank) ∈ dot_S2000x2048_S2048x128_S2000x128_1_0_0_1_n_n.lhsNonContracting by decide)]
  rfl
theorem lhsT_1 (i : S2000x128.Idx) (q : dot_S2000x2048_S2048x128_S2000x128_1_0_0_1_n_n.contr.Idx) :
    (dot_S2000x2048_S2048x128_S2000x128_1_0_0_1_n_n.lhsIdx i q 1).val = (q ⟨0, by decide⟩).val :=
  dot_S2000x2048_S2048x128_S2000x128_1_0_0_1_n_n.lhsIdx_val_of_single rfl i q
/-- … and the right at (s, column). -/
theorem rhsT_0 (i : S2000x128.Idx) (q : dot_S2000x2048_S2048x128_S2000x128_1_0_0_1_n_n.contr.Idx) :
    (dot_S2000x2048_S2048x128_S2000x128_1_0_0_1_n_n.rhsIdx i q 0).val = (q ⟨0, by decide⟩).val :=
  dot_S2000x2048_S2048x128_S2000x128_1_0_0_1_n_n.rhsIdx_val_of_single rfl i q
theorem rhsT_1 (i : S2000x128.Idx) (q : dot_S2000x2048_S2048x128_S2000x128_1_0_0_1_n_n.contr.Idx) :
    (dot_S2000x2048_S2048x128_S2000x128_1_0_0_1_n_n.rhsIdx i q 1).val = (i 1).val := by
  unfold DotDims.rhsIdx
  rw [dif_neg (show ¬(1 : Fin S2048x128.rank) ∈ dot_S2000x2048_S2048x128_S2000x128_1_0_0_1_n_n.rhsBatch by decide), dif_pos (show (1 : Fin S2048x128.rank) ∈ dot_S2000x2048_S2048x128_S2000x128_1_0_0_1_n_n.rhsNonContracting by decide)]
  rfl

/-- The product onehot · table into the zero block, at (p, q): the sum over the 2048 table rows. -/
theorem matmulT_apply (A : FVec Ideal S2000x2048 .bf16) (B : FVec Ideal S2048x128 .bf16) (p : Fin 2000) (q : Fin 128) :
    matmul dot_S2000x2048_S2048x128_S2000x128_1_0_0_1_n_n none A B (constant (F := Ideal) S2000x128 .f32 0x00000000#32) (ix2 p q)
      = ∑ s : Fin 2048, A (ix2 p s) * B (ix2 s q) := by
  simp only [matmul]
  rw [Ideal.matmul_constant_zero_apply, ← Equiv.sum_comp (contrEquiv1 dot_S2000x2048_S2048x128_S2000x128_1_0_0_1_n_n 2048 rfl rfl).symm]
  refine Finset.sum_congr rfl fun k _ => ?_
  have hk := contrEquiv1_symm_val dot_S2000x2048_S2048x128_S2000x128_1_0_0_1_n_n 2048 rfl rfl k
  have el : dot_S2000x2048_S2048x128_S2000x128_1_0_0_1_n_n.lhsIdx (ix2 p q) ((contrEquiv1 dot_S2000x2048_S2048x128_S2000x128_1_0_0_1_n_n 2048 rfl rfl).symm k) = ix2 p k := funext fun a => Fin.ext (by
    match a with
    | ⟨0, _⟩ => exact lhsT_0 _ _
    | ⟨1, _⟩ => exact (lhsT_1 _ _).trans hk)
  have er : dot_S2000x2048_S2048x128_S2000x128_1_0_0_1_n_n.rhsIdx (ix2 p q) ((contrEquiv1 dot_S2000x2048_S2048x128_S2000x128_1_0_0_1_n_n 2048 rfl rfl).symm k) = ix2 k q := funext fun a => Fin.ext (by
    match a with
    | ⟨0, _⟩ => exact (rhsT_0 _ _).trans hk
    | ⟨1, _⟩ => exact rhsT_1 _ _)
  rw [el, er]

end Payload

section Payload2

/-- THE BLOCK AT AN ENTRY: row p, column q of the stored block is
    max(Σ_k h[p,k]·g[k,q] + gb[0,q] − Σ_s [batch[p,0] = s]·table[s,q], 0). -/
theorem block_apply (x0 : Vec Ideal S2000x64 .f32) (x1 : Vec Ideal S2000x1 .i32) (x2 : Vec Ideal S2048x128 .f32)
    (x3 : Vec Ideal S64x128 .f32) (x4 : Vec Ideal S1x128 .f32) (p : Fin 2000) (q : Fin 128) :
    k2_pay4 (F := Ideal) x0 x1 x2 x3 x4 (ix2 p q)
      = max ((∑ k : Fin 64, x0 (ix2 p k) * x3 (ix2 k q)) + x4 (ix2 (0 : Fin 1) q)
          - ∑ s : Fin 2048, (if x1 (ix2 p (0 : Fin 1)) = BitVec.ofNat 32 s.val then (1 : EReal) else 0) * x2 (ix2 s q)) 0 := by
  unfold k2_pay4
  simp only [shapeCast_self]
  refine (maximumf_apply _ _ _).trans ?_
  refine congrArg₂ max ?_ Ideal.ofBits_zero_f32
  refine (subf_apply _ _ _).trans ?_
  refine congrArg₂ (· - ·) ?_ ?_
  · refine (addf_apply _ _ _).trans ?_
    refine congrArg₂ (· + ·) ?_ ?_
    · exact matmulH_apply _ _ p q
    · exact broadcastTo_1b_ab_apply x4 broadcasts_S1x128_S2000x128 p q
  · refine (matmulT_apply _ _ p q).trans ?_
    refine Finset.sum_congr rfl fun s _ => ?_
    show FloatOps.sitofp (F := Ideal) .f32 ((IntOp.cmpi .eq (broadcastTo S2000x2048 x1 broadcasts_S2000x1_S2000x2048 (ix2 p s))
        (iota .tc S2000x2048 32 [1] iota_S2000x2048_d1_w32 (ix2 p s))).setWidth 32) * x2 (ix2 s q) = _
    rw [bcastCol_apply, iota_single_apply, indicator_eq]

end Payload2

section Sums

/-- A sum over the 2000 rows of a block, at column q. -/
theorem colsum_apply (v : FVec Ideal S2000x128 .f32) (hφ : FKind.Formats .f32)
    (hacc : (0x00000000#32 : BitVec 32) = FKind.add.neutral .f32 hφ) (q : Fin 128) :
    multiReduction .add [0] S128 v 0x00000000#32 reduces_S2000x128_S128 hφ hacc (ix1 q) = ∑ p : Fin 2000, v (ix2 p q) := by
  refine (Ideal.multiReduction_add_single v 0x00000000#32 reduces_S2000x128_S128 hφ hacc (ix1 q)).trans ?_
  refine Finset.sum_congr rfl fun p _ => congrArg v ?_
  funext a
  apply Fin.ext
  match a with
  | ⟨0, _⟩ => rfl
  | ⟨1, _⟩ => rfl

/-- THE SUM ACCUMULATOR'S STEP AT A COLUMN: what it held plus the column sum of the point's block. -/
theorem sum_apply (x0 : Vec Ideal S2000x64 .f32) (x1 : Vec Ideal S2000x1 .i32) (x2 : Vec Ideal S2048x128 .f32)
    (x3 : Vec Ideal S64x128 .f32) (x4 : Vec Ideal S1x128 .f32) (acc : Vec Ideal S1x128 .f32) (q : Fin 128) :
    k2_pay5 (F := Ideal) x0 x1 x2 x3 x4 acc (ix2 (0 : Fin 1) q)
      = acc (ix2 (0 : Fin 1) q) + ∑ p : Fin 2000, k2_pay4 (F := Ideal) x0 x1 x2 x3 x4 (ix2 p q) := by
  unfold k2_pay5
  simp only [shapeCast_self]
  refine (addf_apply _ _ _).trans ?_
  refine congrArg₂ (· + ·) rfl ?_
  refine (shapeCast_a_1a_apply _ shapeCasts_S128_S1x128 (0 : Fin 1) q).trans ?_
  exact colsum_apply _ _ _ q

/-- THE SUM-OF-SQUARES ACCUMULATOR'S STEP AT A COLUMN: what it held plus the column sum of the block's squares. -/
theorem sumsq_apply (v : FVec Ideal S2000x128 .f32) (acc : Vec Ideal S1x128 .f32) (q : Fin 128) :
    k2_pay1 (F := Ideal) v acc (ix2 (0 : Fin 1) q) = acc (ix2 (0 : Fin 1) q) + ∑ p : Fin 2000, v (ix2 p q) * v (ix2 p q) := by
  unfold k2_pay1
  simp only [shapeCast_self]
  refine (addf_apply _ _ _).trans ?_
  refine congrArg₂ (· + ·) rfl ?_
  refine (shapeCast_a_1a_apply _ shapeCasts_S128_S1x128 (0 : Fin 1) q).trans ?_
  exact colsum_apply (mulf v v) _ _ q

/-- The rows the accumulators are reset to are zero. -/
theorem zeroRow_sum (j : S1x128.Idx) : k2_pay2 (F := Ideal) j = 0 := Ideal.ofBits_zero_f32
theorem zeroRow_sumsq (j : S1x128.Idx) : k2_pay3 (F := Ideal) j = 0 := Ideal.ofBits_zero_f32

end Sums

section Arrays

variable (V : (c : Dev nD) → (b : Ref sig .tc) → Buf (Elt Ideal) ((c : Thread nD τ).loc b))

/-! ### The region's input arrays and the blocks of a point, at their literal types -/

/-- The projected node features h, [1000000, 64]. -/
abbrev hArr (c : Dev nD) : A2 1000000 64 := V c main_v23
/-- The graph number of each node, a one-column array of words. -/
abbrev batchArr (c : Dev nD) : W2 1000000 1 := V c main_v5
/-- The table of per-graph rows, padded to 2048 rows. -/
abbrev tableArr (c : Dev nD) : A2 2048 128 := V c (Pipeline.arrRef spec2 2)
/-- The weight g, [64, 128], and the bias row gb, [1, 128]. -/
abbrev gArr (c : Dev nD) : A2 64 128 := V c main_arg8
abbrev gbArr (c : Dev nD) : A2 1 128 := V c main_v2

/-- THE REGION'S VALUE: max(h · g + gb − onehot(batch) · table, 0) over all the rows. -/
abbrev VK (c : Dev nD) : A2 1000000 128 :=
  reluLinSub (V c main_v23 : S1000000x64.Idx → EReal) (V c main_arg8 : S64x128.Idx → EReal) (V c main_v2 : S1x128.Idx → EReal)
    (onehotRows (V c main_v5 : S1000000x1.Idx → BitVec 32) (V c (Pipeline.arrRef spec2 2) : S2048x128.Idx → EReal))

/-- The blocks a point reads. -/
abbrev hblk (c : Dev nD) (t : Fin cfg2.N) : Vec Ideal S2000x64 .f32 := iblk2 V c 0 t
abbrev bblk (c : Dev nD) (t : Fin cfg2.N) : Vec Ideal S2000x1 .i32 := iblk2 V c 1 t
abbrev tblk (c : Dev nD) (t : Fin cfg2.N) : Vec Ideal S2048x128 .f32 := iblk2 V c 2 t
abbrev gblk (c : Dev nD) (t : Fin cfg2.N) : Vec Ideal S64x128 .f32 := iblk2 V c 3 t
abbrev gbblk (c : Dev nD) (t : Fin cfg2.N) : Vec Ideal S1x128 .f32 := iblk2 V c 4 t

/-- Row p of the block of point n is row 2000·n + p of the arrays. -/
abbrev rowAt (n : Nat) (hn : n < 500) (p : Fin 2000) : Fin 1000000 := ⟨n * 2000 + p.val, by have := p.isLt; omega⟩

/-- The windows' block numbers, decided over the grid: the row-blocked windows sit at block (t, 0), the whole ones and the
    accumulators at block (0, 0). -/
theorem block_numbers : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

theorem lt500 (t : Fin cfg2.N) : t.val < 500 := lt_of_lt_of_eq t.isLt (show cfg2.N = 500 from N_2)

/-- The block of h at point t reads rows 2000·t … 2000·t + 1999 of h. -/
theorem hblk_apply (c : Dev nD) (t : Fin cfg2.N) (p : Fin 2000) (k : Fin 64) :
    hblk V c t (ix2 p k) = hArr V c (ix2 (rowAt t.val (lt500 t) p) k) := by
  obtain ⟨e0, e1, -⟩ := block_numbers t
  show iblk2 V c 0 t (ix2 p k) = _
  unfold iblk2
  rw [View.read_apply]
  show V c main_v23 (((cfg2.win 0).blk t).view.emb (ix2 p k)) = V c main_v23 _
  refine congrArg (V c main_v23) ?_
  funext a
  apply Fin.ext
  match a with
  | ⟨0, _⟩ => show win2_0.index t (0 : Fin 2) * 2000 + 1 * p.val = t.val * 2000 + p.val; omega
  | ⟨1, _⟩ => show win2_0.index t (1 : Fin 2) * 64 + 1 * k.val = k.val; omega

/-- The block of graph numbers at point t reads the same rows of the column. -/
theorem bblk_apply (c : Dev nD) (t : Fin cfg2.N) (p : Fin 2000) :
    bblk V c t (ix2 p (0 : Fin 1)) = batchArr V c (ix2 (rowAt t.val (lt500 t) p) (0 : Fin 1)) := by
  obtain ⟨-, -, e0, e1, -⟩ := block_numbers t
  show iblk2 V c 1 t (ix2 p (0 : Fin 1)) = _
  unfold iblk2
  rw [View.read_apply]
  show V c main_v5 (((cfg2.win 1).blk t).view.emb (ix2 p (0 : Fin 1))) = V c main_v5 _
  refine congrArg (V c main_v5) ?_
  funext a
  apply Fin.ext
  match a with
  | ⟨0, _⟩ => show win2_1.index t (0 : Fin 2) * 2000 + 1 * p.val = t.val * 2000 + p.val; omega
  | ⟨1, _⟩ => show win2_1.index t (1 : Fin 2) * 1 + 1 * 0 = 0; omega

/-- The table, the weight and the bias row are held whole at every point. -/
theorem tblk_eq (c : Dev nD) (t : Fin cfg2.N) : tblk V c t = tableArr V c := by
  obtain ⟨-, -, -, -, e0, e1, -⟩ := block_numbers t
  funext j
  show iblk2 V c 2 t j = _
  unfold iblk2
  rw [View.read_apply]
  show V c (Pipeline.arrRef spec2 2) (((cfg2.win 2).blk t).view.emb j) = V c (Pipeline.arrRef spec2 2) j
  refine congrArg (V c (Pipeline.arrRef spec2 2)) ?_
  funext a
  apply Fin.ext
  match a with
  | ⟨0, _⟩ => show win2_2.index t (0 : Fin 2) * 2048 + 1 * (j 0).val = (j 0).val; omega
  | ⟨1, _⟩ => show win2_2.index t (1 : Fin 2) * 128 + 1 * (j 1).val = (j 1).val; omega

theorem gblk_eq (c : Dev nD) (t : Fin cfg2.N) : gblk V c t = gArr V c := by
  obtain ⟨-, -, -, -, -, -, e0, e1, -⟩ := block_numbers t
  funext j
  show iblk2 V c 3 t j = _
  unfold iblk2
  rw [View.read_apply]
  show V c main_arg8 (((cfg2.win 3).blk t).view.emb j) = V c main_arg8 j
  refine congrArg (V c main_arg8) ?_
  funext a
  apply Fin.ext
  match a with
  | ⟨0, _⟩ => show win2_3.index t (0 : Fin 2) * 64 + 1 * (j 0).val = (j 0).val; omega
  | ⟨1, _⟩ => show win2_3.index t (1 : Fin 2) * 128 + 1 * (j 1).val = (j 1).val; omega

theorem gbblk_eq (c : Dev nD) (t : Fin cfg2.N) : gbblk V c t = gbArr V c := by
  obtain ⟨-, -, -, -, -, -, -, -, e0, e1, -⟩ := block_numbers t
  funext j
  show iblk2 V c 4 t j = _
  unfold iblk2
  rw [View.read_apply]
  show V c main_v2 (((cfg2.win 4).blk t).view.emb j) = V c main_v2 j
  refine congrArg (V c main_v2) ?_
  funext a
  apply Fin.ext
  match a with
  | ⟨0, _⟩ => show win2_4.index t (0 : Fin 2) * 1 + 1 * (j 0).val = (j 0).val; omega
  | ⟨1, _⟩ => show win2_4.index t (1 : Fin 2) * 128 + 1 * (j 1).val = (j 1).val; omega

/-- THE POINT'S BLOCK IS ITS ROWS OF THE REGION'S VALUE: entry (p, q) of the block stored at point t is entry
    (2000·t + p, q) of max(h · g + gb − onehot(batch) · table, 0). -/
theorem pointBlock_apply (c : Dev nD) (t : Fin cfg2.N) (p : Fin 2000) (q : Fin 128) :
    k2_pay4 (F := Ideal) (hblk V c t) (bblk V c t) (tblk V c t) (gblk V c t) (gbblk V c t) (ix2 p q)
      = VK V c (ix2 (rowAt t.val (lt500 t) p) q) := by
  refine (block_apply (hblk V c t) (bblk V c t) (tblk V c t) (gblk V c t) (gbblk V c t) p q).trans ?_
  rw [tblk_eq, gblk_eq, gbblk_eq, bblk_apply]
  simp only [hblk_apply]
  rfl

/-! ### The output array v -/

/-- At every point, first or later, the block left in the output's buffer is the payload of the point's input blocks. -/
theorem stored_eq (c : Dev nD) (t : Fin cfg2.N) :
    (outsAt2 V c t.val t.isLt).1 = k2_pay4 (F := Ideal) (hblk V c t) (bblk V c t) (tblk V c t) (gblk V c t) (gbblk V c t) := by
  by_cases h0 : t.val % 500 = 0
  · rw [outsAt2_A V c t h0]
    dsimp only
    exact blockA (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)
  · rw [outsAt2_B V c t h0]
    dsimp only
    exact blockB (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t)
      (outsAt2 V c (t.val - 1) (Nat.lt_of_le_of_lt (Nat.sub_le _ _) t.isLt)).2.1 (outsAt2 V c (t.val - 1) (Nat.lt_of_le_of_lt (Nat.sub_le _ _) t.isLt)).2.2

/-- WHAT POINT t WRITES BACK to the output array is block t of the region's value. -/
theorem writeback_v (c : Dev nD) (t : Fin cfg2.N) :
    (dat2 (F := Ideal) V c).flushed 5 t = ((cfg2.win 5).blk t).view.read (Elt Ideal) (VK V c) := by
  show (cfg2.win 5).cut (grid2.coords t) ((dat2 (F := Ideal) V c).after 5 t) = _
  rw [after2_5, stored_eq]
  obtain ⟨-, -, -, -, -, -, -, -, -, -, e0, e1, -⟩ := block_numbers t
  refine funext fun (j : S2000x128.Idx) => ?_
  obtain ⟨p, q, rfl⟩ : ∃ (p : Fin 2000) (q : Fin 128), j = ix2 p q := ⟨j 0, j 1, eq_ix2 j⟩
  refine (pointBlock_apply V c t p q).trans ?_
  rw [View.read_apply]
  refine congrArg (VK V c) ?_
  funext a
  apply Fin.ext
  match a with
  | ⟨0, _⟩ => show t.val * 2000 + p.val = win2_5.index t (0 : Fin 2) * 2000 + 1 * p.val; omega
  | ⟨1, _⟩ => show q.val = win2_5.index t (1 : Fin 2) * 128 + 1 * q.val; omega

/-- An index of the output array is in point t's block iff each coordinate is in the block's range on its axis. -/
theorem mem_outBlock (t : Fin cfg2.N) (i : S1000000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v31_0).slice (win2_5.rect t)).set ↔ _
  rw [View.set_slice_whole, Rect.mem_set_unit]
  exact Iff.rfl

/-- THE OUTPUT ARRAY AFTER THE GRID: row r is written by point r / 2000, so the array is the region's value. -/
theorem out_v (c : Dev nD) : ((dat2 (F := Ideal) V c).arrAt 5 cfg2.N : S1000000x128.Idx → EReal) = VK V c :=
  (dat2 (F := Ideal) V c).arrAt_eq_of_cover 5 (VK V c) (fun t _ => writeback_v V c t) fun i => by
    have hi0 : (i 0).val < 1000000 := (i 0).isLt
    have hi1 : (i 1).val < 128 := (i 1).isLt
    have hN : cfg2.N = 500 := N_2
    refine ⟨⟨(i 0).val / 2000, by rw [hN]; omega⟩, flush2_5 _, ?_⟩
    rw [mem_outBlock]
    obtain ⟨-, -, -, -, -, -, -, -, -, -, e0, e1, -⟩ := block_numbers ⟨(i 0).val / 2000, by rw [hN]; omega⟩
    intro a
    match a with
    | ⟨0, _⟩ =>
      show win2_5.index ⟨(i 0).val / 2000, _⟩ (0 : Fin 2) * 2000 ≤ (i 0).val ∧ (i 0).val < win2_5.index ⟨(i 0).val / 2000, _⟩ (0 : Fin 2) * 2000 + 2000
      rw [e0]; dsimp only; omega
    | ⟨1, _⟩ =>
      show win2_5.index ⟨(i 0).val / 2000, _⟩ (1 : Fin 2) * 128 ≤ (i 1).val ∧ (i 1).val < win2_5.index ⟨(i 0).val / 2000, _⟩ (1 : Fin 2) * 128 + 128
      rw [e1]; omega

/-! ### The two accumulators -/

/-- The column sum of the region's value over the 2000 rows of point s, at column q (0 past the grid). -/
def pointSum (c : Dev nD) (s : Nat) (q : Fin 128) : EReal :=
  if hs : s < 500 then ∑ p : Fin 2000, VK V c (ix2 (rowAt s hs p) q) else 0

theorem pointSum_of_lt (c : Dev nD) (s : Nat) (hs : s < 500) (q : Fin 128) :
    pointSum V c s q = ∑ p : Fin 2000, VK V c (ix2 (rowAt s hs p) q) := dif_pos hs

/-- The same of the squares. -/
def pointSumSq (c : Dev nD) (s : Nat) (q : Fin 128) : EReal :=
  if hs : s < 500 then ∑ p : Fin 2000, sq (VK V c) (ix2 (rowAt s hs p) q) else 0

theorem pointSumSq_of_lt (c : Dev nD) (s : Nat) (hs : s < 500) (q : Fin 128) :
    pointSumSq V c s q = ∑ p : Fin 2000, sq (VK V c) (ix2 (rowAt s hs p) q) := dif_pos hs

/-- THE SUM ACCUMULATOR AFTER POINT n holds, at column q, the sums of points 0 … n: it starts from the stored zero row
    at point 0 and each later point adds its block's column sums to what the point before left. -/
theorem sum_inv (c : Dev nD) : ∀ (n : Nat) (hn : n < cfg2.N) (q : Fin 128),
    (outsAt2 V c n hn).2.1 (ix2 (0 : Fin 1) q) = ∑ s ∈ Finset.range (n + 1), pointSum V c s q
  | 0, hn, q => by
    have h0 : (⟨0, hn⟩ : Fin cfg2.N).val % 500 = 0 := rfl
    rw [outsAt2_A V c ⟨0, hn⟩ h0]
    dsimp only
    refine (congrFun (sumA (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) ((hcond2_0 ⟨0, hn⟩).mpr h0) (iblk2 V c 0 ⟨0, hn⟩) (iblk2 V c 1 ⟨0, hn⟩) (iblk2 V c 2 ⟨0, hn⟩) (iblk2 V c 3 ⟨0, hn⟩) (iblk2 V c 4 ⟨0, hn⟩)) (ix2 (0 : Fin 1) q)).trans ?_
    refine (sum_apply (hblk V c ⟨0, hn⟩) (bblk V c ⟨0, hn⟩) (tblk V c ⟨0, hn⟩) (gblk V c ⟨0, hn⟩) (gbblk V c ⟨0, hn⟩) (k2_pay2 (F := Ideal)) q).trans ?_
    rw [zeroRow_sum, zero_add, Finset.sum_range_one, pointSum_of_lt V c 0 (by norm_num) q]
    exact Finset.sum_congr rfl fun p _ => pointBlock_apply V c ⟨0, hn⟩ p q
  | n + 1, hn, q => by
    have hN : cfg2.N = 500 := N_2
    have hB : ¬(⟨n + 1, hn⟩ : Fin cfg2.N).val % 500 = 0 := by dsimp only; omega
    rw [outsAt2_B V c ⟨n + 1, hn⟩ hB]
    dsimp only
    refine (congrFun (sumB (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => hB ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) _ _) (ix2 (0 : Fin 1) q)).trans ?_
    refine (sum_apply (hblk V c ⟨n + 1, hn⟩) (bblk V c ⟨n + 1, hn⟩) (tblk V c ⟨n + 1, hn⟩) (gblk V c ⟨n + 1, hn⟩) (gbblk V c ⟨n + 1, hn⟩) _ q).trans ?_
    rw [Finset.sum_range_succ _ (n + 1), pointSum_of_lt V c (n + 1) (by omega) q]
    refine congrArg₂ (· + ·) (sum_inv c n (Nat.lt_of_succ_lt hn) q) ?_
    exact Finset.sum_congr rfl fun p _ => pointBlock_apply V c ⟨n + 1, hn⟩ p q

/-- THE SUM-OF-SQUARES ACCUMULATOR AFTER POINT n holds, at column q, the sums of the squares over points 0 … n. -/
theorem sumsq_inv (c : Dev nD) : ∀ (n : Nat) (hn : n < cfg2.N) (q : Fin 128),
    (outsAt2 V c n hn).2.2 (ix2 (0 : Fin 1) q) = ∑ s ∈ Finset.range (n + 1), pointSumSq V c s q
  | 0, hn, q => by
    have h0 : (⟨0, hn⟩ : Fin cfg2.N).val % 500 = 0 := rfl
    rw [outsAt2_A V c ⟨0, hn⟩ h0]
    dsimp only
    refine (congrFun (sumsqA (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) ((hcond2_0 ⟨0, hn⟩).mpr h0) (iblk2 V c 0 ⟨0, hn⟩) (iblk2 V c 1 ⟨0, hn⟩) (iblk2 V c 2 ⟨0, hn⟩) (iblk2 V c 3 ⟨0, hn⟩) (iblk2 V c 4 ⟨0, hn⟩)) (ix2 (0 : Fin 1) q)).trans ?_
    refine (sumsq_apply (k2_pay4 (F := Ideal) (hblk V c ⟨0, hn⟩) (bblk V c ⟨0, hn⟩) (tblk V c ⟨0, hn⟩) (gblk V c ⟨0, hn⟩) (gbblk V c ⟨0, hn⟩)) (k2_pay3 (F := Ideal)) q).trans ?_
    rw [zeroRow_sumsq, zero_add, Finset.sum_range_one, pointSumSq_of_lt V c 0 (by norm_num) q]
    refine Finset.sum_congr rfl fun p _ => ?_
    rw [pointBlock_apply V c ⟨0, hn⟩ p q]
    rfl
  | n + 1, hn, q => by
    have hN : cfg2.N = 500 := N_2
    have hB : ¬(⟨n + 1, hn⟩ : Fin cfg2.N).val % 500 = 0 := by dsimp only; omega
    rw [outsAt2_B V c ⟨n + 1, hn⟩ hB]
    dsimp only
    refine (congrFun (sumsqB (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => hB ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) _ _) (ix2 (0 : Fin 1) q)).trans ?_
    refine (sumsq_apply (k2_pay4 (F := Ideal) (hblk V c ⟨n + 1, hn⟩) (bblk V c ⟨n + 1, hn⟩) (tblk V c ⟨n + 1, hn⟩) (gblk V c ⟨n + 1, hn⟩) (gbblk V c ⟨n + 1, hn⟩)) _ q).trans ?_
    rw [Finset.sum_range_succ _ (n + 1), pointSumSq_of_lt V c (n + 1) (by omega) q]
    refine congrArg₂ (· + ·) (sumsq_inv c n (Nat.lt_of_succ_lt hn) q) ?_
    refine Finset.sum_congr rfl fun p _ => ?_
    rw [pointBlock_apply V c ⟨n + 1, hn⟩ p q]
    rfl

/-- The column sums of the region's value, as the sum over the points of the sums over each point's rows. -/
abbrev SumK (c : Dev nD) : A2 1 128 :=
  fun i => ∑ t : Fin 500, ∑ p : Fin 2000, VK V c (ix2 ⟨t.val * 2000 + p.val, by have := t.isLt; have := p.isLt; omega⟩ (col i))
/-- The column sums of its squares, likewise. -/
abbrev SumSqK (c : Dev nD) : A2 1 128 :=
  fun i => ∑ t : Fin 500, ∑ p : Fin 2000, sq (VK V c) (ix2 ⟨t.val * 2000 + p.val, by have := t.isLt; have := p.isLt; omega⟩ (col i))

/-- The sums of the points 0 … 499 are the sum over the grid. -/
theorem range_sum (c : Dev nD) (q : Fin 128) :
    ∑ s ∈ Finset.range 500, pointSum V c s q = SumK V c (ix2 (0 : Fin 1) q) := by
  rw [Finset.sum_range]
  exact Finset.sum_congr rfl fun t _ => pointSum_of_lt V c t.val t.isLt q
theorem range_sumsq (c : Dev nD) (q : Fin 128) :
    ∑ s ∈ Finset.range 500, pointSumSq V c s q = SumSqK V c (ix2 (0 : Fin 1) q) := by
  rw [Finset.sum_range]
  exact Finset.sum_congr rfl fun t _ => pointSumSq_of_lt V c t.val t.isLt q

/-- An index of an accumulator's array is in a point's block iff each coordinate is in the block's range. -/
theorem mem_sumBlock (t : Fin cfg2.N) (i : S1x128.Idx) :
    i ∈ ((cfg2.win 6).blk t).view.set ↔ ∀ a : Fin 2, win2_6.index t a * S1x128.size a ≤ (i a).val ∧ (i a).val < win2_6.index t a * S1x128.size a + S1x128.size a := by
  show i ∈ ((View.whole main_v31_1).slice (win2_6.rect t)).set ↔ _
  rw [View.set_slice_whole, Rect.mem_set_unit]
  exact Iff.rfl
theorem mem_sumsqBlock (t : Fin cfg2.N) (i : S1x128.Idx) :
    i ∈ ((cfg2.win 7).blk t).view.set ↔ ∀ a : Fin 2, win2_7.index t a * S1x128.size a ≤ (i a).val ∧ (i a).val < win2_7.index t a * S1x128.size a + S1x128.size a := by
  show i ∈ ((View.whole main_v31_2).slice (win2_7.rect t)).set ↔ _
  rw [View.set_slice_whole, Rect.mem_set_unit]
  exact Iff.rfl

/-- The one write-back of the sum accumulator, at the last point, writes the sum over the grid. -/
theorem writeback_sum (c : Dev nD) (t : Fin cfg2.N) (hf : (cfg2.win 6).flush t = true) :
    (dat2 (F := Ideal) V c).flushed 6 t = ((cfg2.win 6).blk t).view.read (Elt Ideal) (SumK V c) := by
  have h499 : t.val = 499 := by have := (flush2_6 t).mp hf; have := lt500 t; omega
  show (cfg2.win 6).cut (grid2.coords t) ((dat2 (F := Ideal) V c).after 6 t) = _
  rw [after2_6]
  obtain ⟨-, -, -, -, -, -, -, -, -, -, -, -, e0, e1, -⟩ := block_numbers t
  refine funext fun (j : S1x128.Idx) => ?_
  obtain ⟨u, q, rfl⟩ : ∃ (u : Fin 1) (q : Fin 128), j = ix2 u q := ⟨j 0, j 1, eq_ix2 j⟩
  obtain rfl : u = 0 := Subsingleton.elim _ _
  refine (sum_inv V c t.val t.isLt q).trans ?_
  rw [View.read_apply]
  have hemb : ((cfg2.win 6).blk t).view.emb (ix2 (0 : Fin 1) q) = ix2 (0 : Fin 1) q := by
    funext a
    apply Fin.ext
    match a with
    | ⟨0, _⟩ => show win2_6.index t (0 : Fin 2) * 1 + 1 * 0 = 0; omega
    | ⟨1, _⟩ => show win2_6.index t (1 : Fin 2) * 128 + 1 * q.val = q.val; omega
  rw [hemb, h499]
  exact range_sum V c q

/-- The one write-back of the sum-of-squares accumulator, at the last point, writes the sum over the grid. -/
theorem writeback_sumsq (c : Dev nD) (t : Fin cfg2.N) (hf : (cfg2.win 7).flush t = true) :
    (dat2 (F := Ideal) V c).flushed 7 t = ((cfg2.win 7).blk t).view.read (Elt Ideal) (SumSqK V c) := by
  have h499 : t.val = 499 := by have := (flush2_7 t).mp hf; have := lt500 t; omega
  show (cfg2.win 7).cut (grid2.coords t) ((dat2 (F := Ideal) V c).after 7 t) = _
  rw [after2_7]
  obtain ⟨-, -, -, -, -, -, -, -, -, -, -, -, -, -, e0, e1⟩ := block_numbers t
  refine funext fun (j : S1x128.Idx) => ?_
  obtain ⟨u, q, rfl⟩ : ∃ (u : Fin 1) (q : Fin 128), j = ix2 u q := ⟨j 0, j 1, eq_ix2 j⟩
  obtain rfl : u = 0 := Subsingleton.elim _ _
  refine (sumsq_inv V c t.val t.isLt q).trans ?_
  rw [View.read_apply]
  have hemb : ((cfg2.win 7).blk t).view.emb (ix2 (0 : Fin 1) q) = ix2 (0 : Fin 1) q := by
    funext a
    apply Fin.ext
    match a with
    | ⟨0, _⟩ => show win2_7.index t (0 : Fin 2) * 1 + 1 * 0 = 0; omega
    | ⟨1, _⟩ => show win2_7.index t (1 : Fin 2) * 128 + 1 * q.val = q.val; omega
  rw [hemb, h499]
  exact range_sumsq V c q

/-- The last point, which writes the accumulators back. -/
abbrev lastPoint : Fin cfg2.N := ⟨499, by rw [show cfg2.N = 500 from N_2]; norm_num⟩

/-- THE SUM ACCUMULATOR'S ARRAY AFTER THE GRID: the column sums of the region's value. -/
theorem out_sum (c : Dev nD) : ((dat2 (F := Ideal) V c).arrAt 6 cfg2.N : S1x128.Idx → EReal)
    = fun i => ∑ t : Fin 500, ∑ p : Fin 2000, VK V c (ix2 ⟨t.val * 2000 + p.val, by have := t.isLt; have := p.isLt; omega⟩ (col i)) :=
  (dat2 (F := Ideal) V c).arrAt_eq_of_cover 6 (SumK V c) (writeback_sum V c) fun i => by
    have hi0 : (i 0).val < 1 := (i 0).isLt
    have hi1 : (i 1).val < 128 := (i 1).isLt
    refine ⟨lastPoint, (flush2_6 lastPoint).mpr rfl, ?_⟩
    rw [mem_sumBlock]
    obtain ⟨-, -, -, -, -, -, -, -, -, -, -, -, e0, e1, -⟩ := block_numbers lastPoint
    intro a
    match a with
    | ⟨0, _⟩ =>
      show win2_6.index lastPoint (0 : Fin 2) * 1 ≤ (i 0).val ∧ (i 0).val < win2_6.index lastPoint (0 : Fin 2) * 1 + 1
      rw [e0]; omega
    | ⟨1, _⟩ =>
      show win2_6.index lastPoint (1 : Fin 2) * 128 ≤ (i 1).val ∧ (i 1).val < win2_6.index lastPoint (1 : Fin 2) * 128 + 128
      rw [e1]; omega

/-- THE SUM-OF-SQUARES ACCUMULATOR'S ARRAY AFTER THE GRID: the column sums of the squares of the region's value. -/
theorem out_sumsq (c : Dev nD) : ((dat2 (F := Ideal) V c).arrAt 7 cfg2.N : S1x128.Idx → EReal)
    = fun i => ∑ t : Fin 500, ∑ p : Fin 2000, sq (VK V c) (ix2 ⟨t.val * 2000 + p.val, by have := t.isLt; have := p.isLt; omega⟩ (col i)) :=
  (dat2 (F := Ideal) V c).arrAt_eq_of_cover 7 (SumSqK V c) (writeback_sumsq V c) fun i => by
    have hi0 : (i 0).val < 1 := (i 0).isLt
    have hi1 : (i 1).val < 128 := (i 1).isLt
    refine ⟨lastPoint, (flush2_7 lastPoint).mpr rfl, ?_⟩
    rw [mem_sumsqBlock]
    obtain ⟨-, -, -, -, -, -, -, -, -, -, -, -, -, -, e0, e1⟩ := block_numbers lastPoint
    intro a
    match a with
    | ⟨0, _⟩ =>
      show win2_7.index lastPoint (0 : Fin 2) * 1 ≤ (i 0).val ∧ (i 0).val < win2_7.index lastPoint (0 : Fin 2) * 1 + 1
      rw [e0]; omega
    | ⟨1, _⟩ =>
      show win2_7.index lastPoint (1 : Fin 2) * 128 ≤ (i 1).val ∧ (i 1).val < win2_7.index lastPoint (1 : Fin 2) * 128 + 128
      rw [e1]; omega

end Arrays

end Cert.KernelIdeal.Val2

end
-- ==== Proof.Region3.lean ====
/-
  Region 3 (the finalizing kernel), read as one whole-array function at the ideal instance.

  The grid has 200 points; point t works on rows 5000·t … 5000·t + 4999 of the two [1000000, 128] arrays v and x and of
  the output, and on the whole of the four one-row arrays μ, σ², γ, β. The body is pointwise with one-row broadcasts:
  entry (p, q) of the block it stores is
      x[p,q] + (γ[0,q]·(v[p,q] − μ[0,q])·rsqrt(σ²[0,q] + ε) + β[0,q]),
  ε the f32 word nearest 1e-5. Since the three large windows move together (row 5000·t + p of each) and the four small
  ones are whole, what point t writes back is block t of `normalize v x μ σ² γ β`; the 200 blocks tile the rows
  (row r lies in block r / 5000), so the output array after the grid is `normalize v x μ σ² γ β`.
-/
import proofs.«401850_j66589172957709_2_alg».proof.Proof.Gen.KernelIdeal.Frame
import proofs.«401850_j66589172957709_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val3

open Cert.KernelIdeal Cert.KernelIdeal.Gen Idealize.ShloMosaic Idealize.ShloMosaic.TcCoe Idealize.SL.Sem Cert.Spec Idealize.ShloMosaic.ValueIdx
open Idealize.ShloMosaic.Pipeline (Dat Cfg Window)

variable (V : (c : Dev nD) → (b : Ref sig .tc) → Buf (Elt Ideal) ((c : Thread nD τ).loc b))

/-- The zero offsets of a whole-block access, however spelt. -/
theorem zero_offsets : (![0, 0] : Fin 2 → Nat) = fun _ => 0 := funext fun a => by fin_cases a <;> rfl

/-! ## The body's arithmetic at one entry -/

/-- Entry (p, q) of the block the body stores: x + (γ·(v − μ)·rsqrt(σ² + ε) + β), the four one-row operands read in
    their row 0 at column q. -/
theorem payload_apply (v x : Vec Ideal S5000x128 .f32) (mu var gam bet : Vec Ideal S1x128 .f32) (p : Fin 5000) (q : Fin 128) :
    k3_pay1 (F := Ideal) v mu var gam bet x (ix2 p q)
      = x (ix2 p q) + (gam (ix2 0 q) * (v (ix2 p q) - mu (ix2 0 q)) * Ideal.rsqrt (var (ix2 0 q) + eps) + bet (ix2 0 q)) := by
  unfold k3_pay1
  simp only [shapeCast_self]
  simp only [addf_apply, mulf_apply, subf_apply, broadcastTo_1b_ab_apply]
  rfl

/-! ## The region's input arrays, at their literal types -/

/-- The array to be normalized, as the region finds it. -/
abbrev vArr (c : Dev nD) : A2 1000000 128 := V c main_v31_0
/-- The array added back, as the region finds it. -/
abbrev xArr (c : Dev nD) : A2 1000000 128 := V c main_arg0
/-- The row of column means. -/
abbrev muArr (c : Dev nD) : A2 1 128 := V c main_v33
/-- The row of column variances. -/
abbrev varArr (c : Dev nD) : A2 1 128 := V c main_v39
/-- The row of scales. -/
abbrev gamArr (c : Dev nD) : A2 1 128 := V c main_v3
/-- The row of shifts. -/
abbrev betArr (c : Dev nD) : A2 1 128 := V c main_v4

/-- `normalize` at an entry given by its coordinates. -/
theorem normalize_ix2 {n m : Nat} (v x : A2 n m) (mu var gam bet : A2 1 m) (r : Fin n) (q : Fin m) :
    normalize v x mu var gam bet (ix2 r q)
      = x (ix2 r q) + (gam (ix2 0 q) * (v (ix2 r q) - mu (ix2 0 q)) * Ideal.rsqrt (var (ix2 0 q) + eps) + bet (ix2 0 q)) := rfl

/-! ## Which rows a point's blocks are -/

/-- The index maps over the 200 points: the blocks of v, x and the output are block row t, block column 0; the four
    one-row operands are always their one block. -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_6.index t (0 : Fin 2) = t.val ∧ win3_6.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- There are 200 points. -/
theorem point_lt (t : Fin cfg3.N) : t.val < 200 := lt_of_lt_of_eq t.isLt (N_3 : cfg3.N = 200)

/-- Row p of block t is row 5000·t + p of the array. -/
def blockRow (t : Fin cfg3.N) (p : Fin 5000) : Fin 1000000 :=
  ⟨5000 * t.val + p.val, by have := point_lt t; have := p.isLt; omega⟩

/-- Entry (p, q) of v's block at point t is entry (5000·t + p, q) of v. -/
theorem v_coord (t : Fin cfg3.N) (p : Fin 5000) (q : Fin 128) :
    ((cfg3.win 0).blk t).view.emb (ix2 p q) = ix2 (blockRow t p) q := by
  obtain ⟨e0, e1, -⟩ := index_facts t
  funext a; apply Fin.ext
  match a with
  | ⟨0, _⟩ => show win3_0.index t (0 : Fin 2) * 5000 + 1 * p.val = 5000 * t.val + p.val; rw [e0]; omega
  | ⟨1, _⟩ => show win3_0.index t (1 : Fin 2) * 128 + 1 * q.val = q.val; rw [e1]; omega

/-- Entry (p, q) of x's block at point t is entry (5000·t + p, q) of x. -/
theorem x_coord (t : Fin cfg3.N) (p : Fin 5000) (q : Fin 128) :
    ((cfg3.win 1).blk t).view.emb (ix2 p q) = ix2 (blockRow t p) q := by
  obtain ⟨-, -, e0, e1, -⟩ := index_facts t
  funext a; apply Fin.ext
  match a with
  | ⟨0, _⟩ => show win3_1.index t (0 : Fin 2) * 5000 + 1 * p.val = 5000 * t.val + p.val; rw [e0]; omega
  | ⟨1, _⟩ => show win3_1.index t (1 : Fin 2) * 128 + 1 * q.val = q.val; rw [e1]; omega

/-- Entry (p, q) of the output's block at point t is entry (5000·t + p, q) of the output. -/
theorem out_coord (t : Fin cfg3.N) (p : Fin 5000) (q : Fin 128) :
    ((cfg3.win 6).blk t).view.emb (ix2 p q) = ix2 (blockRow t p) q := by
  obtain ⟨-, -, -, -, e0, e1, -⟩ := index_facts t
  funext a; apply Fin.ext
  match a with
  | ⟨0, _⟩ => show win3_6.index t (0 : Fin 2) * 5000 + 1 * p.val = 5000 * t.val + p.val; rw [e0]; omega
  | ⟨1, _⟩ => show win3_6.index t (1 : Fin 2) * 128 + 1 * q.val = q.val; rw [e1]; omega

/-- The mean row's block at any point is the whole row. -/
theorem mu_coord (t : Fin cfg3.N) (q : Fin 128) :
    ((cfg3.win 2).blk t).view.emb (ix2 (0 : Fin 1) q) = ix2 (0 : Fin 1) q := by
  obtain ⟨-, -, -, -, -, -, e0, e1, -⟩ := index_facts t
  funext a; apply Fin.ext
  match a with
  | ⟨0, _⟩ => show win3_2.index t (0 : Fin 2) * 1 + 1 * 0 = 0; rw [e0]
  | ⟨1, _⟩ => show win3_2.index t (1 : Fin 2) * 128 + 1 * q.val = q.val; rw [e1]; omega

/-- The variance row's block at any point is the whole row. -/
theorem var_coord (t : Fin cfg3.N) (q : Fin 128) :
    ((cfg3.win 3).blk t).view.emb (ix2 (0 : Fin 1) q) = ix2 (0 : Fin 1) q := by
  obtain ⟨-, -, -, -, -, -, -, -, e0, e1, -⟩ := index_facts t
  funext a; apply Fin.ext
  match a with
  | ⟨0, _⟩ => show win3_3.index t (0 : Fin 2) * 1 + 1 * 0 = 0; rw [e0]
  | ⟨1, _⟩ => show win3_3.index t (1 : Fin 2) * 128 + 1 * q.val = q.val; rw [e1]; omega

/-- The scale row's block at any point is the whole row. -/
theorem gam_coord (t : Fin cfg3.N) (q : Fin 128) :
    ((cfg3.win 4).blk t).view.emb (ix2 (0 : Fin 1) q) = ix2 (0 : Fin 1) q := by
  obtain ⟨-, -, -, -, -, -, -, -, -, -, e0, e1, -⟩ := index_facts t
  funext a; apply Fin.ext
  match a with
  | ⟨0, _⟩ => show win3_4.index t (0 : Fin 2) * 1 + 1 * 0 = 0; rw [e0]
  | ⟨1, _⟩ => show win3_4.index t (1 : Fin 2) * 128 + 1 * q.val = q.val; rw [e1]; omega

/-- The shift row's block at any point is the whole row. -/
theorem bet_coord (t : Fin cfg3.N) (q : Fin 128) :
    ((cfg3.win 5).blk t).view.emb (ix2 (0 : Fin 1) q) = ix2 (0 : Fin 1) q := by
  obtain ⟨-, -, -, -, -, -, -, -, -, -, -, -, e0, e1⟩ := index_facts t
  funext a; apply Fin.ext
  match a with
  | ⟨0, _⟩ => show win3_5.index t (0 : Fin 2) * 1 + 1 * 0 = 0; rw [e0]
  | ⟨1, _⟩ => show win3_5.index t (1 : Fin 2) * 128 + 1 * q.val = q.val; rw [e1]; omega

/-! ## What a point writes back, and the array after the grid -/

/-- What point t writes back is block t of `normalize v x μ σ² γ β` of the arrays as the region finds them. -/
theorem flushed_eq (c : Dev nD) (t : Fin cfg3.N) :
    (dat3 (F := Ideal) V c).flushed 6 t
      = ((cfg3.win 6).blk t).view.read (Elt Ideal)
          (normalize (V c main_v31_0 : S1000000x128.Idx → EReal) (V c main_arg0 : S1000000x128.Idx → EReal)
            (V c main_v33 : S1x128.Idx → EReal) (V c main_v39 : S1x128.Idx → EReal)
            (V c main_v3 : S1x128.Idx → EReal) (V c main_v4 : S1x128.Idx → EReal)) := by
  show (cfg3.win 6).cut (grid3.coords t) ((dat3 (F := Ideal) V c).after 6 t) = _
  rw [after3_6]
  unfold out3_6
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  refine (payload_apply (iblk3 V c 0 t) (iblk3 V c 1 t) (iblk3 V c 2 t) (iblk3 V c 3 t) (iblk3 V c 4 t) (iblk3 V c 5 t) p q).trans ?_
  show xArr V c (((cfg3.win 1).blk t).view.emb (ix2 p q))
        + (gamArr V c (((cfg3.win 4).blk t).view.emb (ix2 (0 : Fin 1) q))
            * (vArr V c (((cfg3.win 0).blk t).view.emb (ix2 p q))
                - muArr V c (((cfg3.win 2).blk t).view.emb (ix2 (0 : Fin 1) q)))
            * Ideal.rsqrt (varArr V c (((cfg3.win 3).blk t).view.emb (ix2 (0 : Fin 1) q)) + eps)
          + betArr V c (((cfg3.win 5).blk t).view.emb (ix2 (0 : Fin 1) q)))
      = normalize (vArr V c) (xArr V c) (muArr V c) (varArr V c) (gamArr V c) (betArr V c)
          (((cfg3.win 6).blk t).view.emb (ix2 p q))
  rw [v_coord, x_coord, out_coord, mu_coord, var_coord, gam_coord, bet_coord, normalize_ix2]

/-- An index of the output array is in point t's block iff each coordinate is in the block's range on its axis. -/
theorem mem_block (t : Fin cfg3.N) (i : S1000000x128.Idx) :
    i ∈ ((cfg3.win 6).blk t).view.set
      ↔ ∀ a : Fin 2, win3_6.index t a * S5000x128.size a ≤ (i a).val ∧ (i a).val < win3_6.index t a * S5000x128.size a + S5000x128.size a := by
  show i ∈ ((View.whole main_v40).slice (win3_6.rect t)).set ↔ _
  rw [View.set_slice_whole, Rect.mem_set_unit]
  exact Iff.rfl

/-- The 200 blocks tile the rows: row r is in the block of point r / 5000. -/
theorem cover (i : S1000000x128.Idx) :
    ∃ t : Fin cfg3.N, (cfg3.win 6).flush t = true ∧ i ∈ ((cfg3.win 6).blk t).view.set := by
  have hi0 : (i 0).val < 1000000 := idx2_lt0 i
  have hi1 : (i 1).val < 128 := idx2_lt1 i
  obtain ⟨t, ht⟩ : ∃ t : Fin cfg3.N, t.val = (i 0).val / 5000 :=
    ⟨⟨(i 0).val / 5000, by rw [show cfg3.N = 200 from N_3]; omega⟩, rfl⟩
  obtain ⟨-, -, -, -, e0, e1, -⟩ := index_facts t
  refine ⟨t, flush3_6 t, ?_⟩
  rw [mem_block]
  intro a
  match a with
  | ⟨0, _⟩ =>
    show win3_6.index t (0 : Fin 2) * 5000 ≤ (i 0).val ∧ (i 0).val < win3_6.index t (0 : Fin 2) * 5000 + 5000
    rw [e0]; omega
  | ⟨1, _⟩ =>
    show win3_6.index t (1 : Fin 2) * 128 ≤ (i 1).val ∧ (i 1).val < win3_6.index t (1 : Fin 2) * 128 + 128
    rw [e1]; omega

/-- The output array after the whole grid is `normalize v x μ σ² γ β` of the region's input arrays. -/
theorem out (c : Dev nD) :
    ((dat3 (F := Ideal) V c).arrAt 6 cfg3.N : S1000000x128.Idx → EReal)
      = normalize (V c main_v31_0 : S1000000x128.Idx → EReal) (V c main_arg0 : S1000000x128.Idx → EReal)
          (V c main_v33 : S1x128.Idx → EReal) (V c main_v39 : S1x128.Idx → EReal)
          (V c main_v3 : S1x128.Idx → EReal) (V c main_v4 : S1x128.Idx → EReal) :=
  (dat3 (F := Ideal) V c).arrAt_eq_of_cover 6 _ (fun t _ => flushed_eq V c t) cover

end Cert.KernelIdeal.Val3

end
-- ==== Proof.KValue.lean ====
/-
  The idealized kernel program's result buffer after the run is `outK` of the launch contents of its arguments:
  the last region's output array (the normalisation) over what it finds at its entry, which are the earlier regions'
  output arrays and the host operations' terms over them, back to the launch memory.
-/
import proofs.«401850_j66589172957709_2_alg».proof.Proof.KHost
import proofs.«401850_j66589172957709_2_alg».proof.Proof.KComp
import proofs.«401850_j66589172957709_2_alg».proof.Proof.Region0
import proofs.«401850_j66589172957709_2_alg».proof.Proof.Region1
import proofs.«401850_j66589172957709_2_alg».proof.Proof.Region2
import proofs.«401850_j66589172957709_2_alg».proof.Proof.Region3

set_option maxRecDepth 16384

noncomputable section

namespace Cert.KernelIdeal.Host

open Cert.KernelIdeal Cert.KernelIdeal.Gen Idealize.ShloMosaic Idealize.ShloMosaic.TcCoe Idealize.SL.Sem Cert.Spec

variable (m : (ℓ : Loc nD τ sig) → Buf (Elt Ideal) ℓ) (ρ : Dev nD → PrngReg) (c : Dev nD)

/-- Region 0's array is the projection of the persistence pairs. -/
theorem s0_eq : s0 m ρ c = s0K (m ((c : Thread nD τ).loc main_arg1)) (m ((c : Thread nD τ).loc main_arg3)) (m ((c : Thread nD τ).loc main_arg4)) := by
  unfold s0 s0K ppK
  rw [Cert.KernelIdeal.Val0.out (V1 m ρ) c, v1_pp m ρ c, v1_w m ρ c, v1_b m ρ c]

/-- Region 1's array is the first deep-set layer of it. -/
theorem h1_eq : h1 m ρ c = h1K (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) := by
  unfold h1 h1K batchCol
  rw [Cert.KernelIdeal.Val1.out (V4 m ρ) c, v4_h m ρ c, v4_g m ρ c, v4_gb m ρ c, v4_batch m ρ c, v4_table m ρ c, s0_eq m ρ c]

/-- Region 2's first array is the second deep-set layer. -/
theorem v2_eq : v2 m ρ c = vK (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) := by
  unfold v2 vK batchCol
  rw [Cert.KernelIdeal.Val2.out_v (V7 m ρ) c]
  dsimp only [Cert.KernelIdeal.Val2.VK]
  rw [v7_h m ρ c, v7_g m ρ c, v7_gb m ρ c, v7_batch m ρ c, v7_table m ρ c, h1_eq m ρ c]

/-- Its accumulators are the block-by-block column sums of that layer and of its square. -/
theorem sum2_eq : sum2 m ρ c = blockSums (v2 m ρ c) := by
  unfold sum2 v2 blockSums
  rw [Cert.KernelIdeal.Val2.out_sum (V7 m ρ) c, Cert.KernelIdeal.Val2.out_v (V7 m ρ) c]

theorem sumsq2_eq : sumsq2 m ρ c = blockSums (sq (v2 m ρ c)) := by
  unfold sumsq2 v2 blockSums
  rw [Cert.KernelIdeal.Val2.out_sumsq (V7 m ρ) c, Cert.KernelIdeal.Val2.out_v (V7 m ρ) c]

/-- THE KERNEL PROGRAM'S VALUE: the result buffer's contents at the last boundary. -/
theorem kernel_value : (W10 m ρ c (Proc.devRef .tc main_v40) : S1000000x128.Idx → EReal)
    = outK (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11))
        (m ((c : Thread nD τ).loc main_arg12)) := by
  unfold outK
  rw [result m ρ c, Cert.KernelIdeal.Val3.out (V9 m ρ) c, v9_v m ρ c, v9_x m ρ c, v9_mean m ρ c, v9_var m ρ c, v9_gamma m ρ c, v9_beta m ρ c,
    sum2_eq m ρ c, sumsq2_eq m ρ c, v2_eq m ρ c]

end Cert.KernelIdeal.Host

end
-- ==== Proof.Algebra.lean ====
/-
  Pure mathematics over the specification's definitions: the row-count constant as a real number, a product with an
  indicator row as a table look-up, a sum over T·B rows as a double sum over T blocks of B rows, and the two
  expressions of a column's variance (mean of squares minus squared mean, clipped at 0; mean squared deviation)
  as one extended real when every entry is a real number.
-/
import proofs.«401850_j66589172957709_2_alg».proof.Proof.Spec
import Mathlib.Algebra.BigOperators.Fin
import Mathlib.Algebra.BigOperators.Ring.Finset
import Mathlib.Logic.Equiv.Fin.Basic
import Mathlib.Tactic.Ring
import Mathlib.Tactic.FieldSimp
import Mathlib.Tactic.Linarith
import Mathlib.Tactic.NormNum

noncomputable section

open scoped BigOperators

namespace Cert.Spec

open Idealize.ShloMosaic Idealize.ShloMosaic.ValueIdx

/-- The word 0x49742400 is the f32 of 1000000: sign 0, exponent 146, fraction 7611392, so
    (2^23 + 7611392) · 2^(146 − 127 − 23) = 16000000 / 16. -/
theorem million_eq : million = ((1000000 : ℝ) : EReal) := by
  unfold million
  simp [Ideal.ofBits, Ideal.ieee, -EReal.coe_mul]; norm_num

/-- A product with an indicator row selects the table's row: every other term of the sum has the factor 0. -/
theorem onehotRows_of_eq {n t m : Nat} (ht : t ≤ 2 ^ 32) (bt : W2 n 1) (P : A2 t m) (i : (⟨2, ![n, m]⟩ : Shape).Idx) (s0 : Fin t)
    (h : bt (ix2 (row i) 0) = BitVec.ofNat 32 s0.val) : onehotRows bt P i = P (ix2 s0 (col i)) := by
  unfold onehotRows
  rw [Finset.sum_eq_single s0]
  · rw [if_pos h, one_mul]
  · intro s _ hs
    rw [if_neg, zero_mul]
    intro h'
    apply hs
    rw [h] at h'
    have h2 := congrArg BitVec.toNat h'
    rw [BitVec.toNat_ofNat, BitVec.toNat_ofNat, Nat.mod_eq_of_lt (lt_of_lt_of_le s0.isLt ht),
      Nat.mod_eq_of_lt (lt_of_lt_of_le s.isLt ht)] at h2
    exact Fin.ext h2.symm
  · intro h0; exact absurd (Finset.mem_univ _) h0

/-- A sum over T·B rows is the sum over the T blocks of the sums over each block's B rows: row p of block t is
    row t·B + p. -/
theorem sum_blocks {M : Type*} [AddCommMonoid M] (T B : Nat) (f : Fin (T * B) → M) :
    ∑ r : Fin (T * B), f r = ∑ t : Fin T, ∑ p : Fin B, f ⟨t.val * B + p.val, by (have := t.isLt; have := p.isLt; nlinarith)⟩ := by
  rw [← Equiv.sum_comp finProdFinEquiv f, Fintype.sum_prod_type]
  refine Finset.sum_congr rfl fun t _ => Finset.sum_congr rfl fun p _ => ?_
  congr 1
  apply Fin.ext
  show p.val + B * t.val = t.val * B + p.val
  ring

/-- The column sums likewise. -/
theorem colSum_blocks {m : Nat} (T B : Nat) (v : A2 (T * B) m) (i : (⟨2, ![1, m]⟩ : Shape).Idx) :
    colSum v i = ∑ t : Fin T, ∑ p : Fin B, v (ix2 ⟨t.val * B + p.val, by (have := t.isLt; have := p.isLt; nlinarith)⟩ (col i)) :=
  sum_blocks T B (fun r => v (ix2 r (col i)))

/-- The inclusion of the reals in the extended reals carries a finite sum to the sum. -/
private theorem coe_sum {ι : Type*} (s : Finset ι) (f : ι → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- Over the reals, with N the number of terms and μ = (Σ a)/N:  (Σ a²)/N − μ² = (Σ (a − μ)²)/N. -/
private theorem real_var {ι : Type*} (s : Finset ι) (a : ι → ℝ) (N : ℝ) (hN : N ≠ 0) (hcard : (s.card : ℝ) = N) :
    (∑ r ∈ s, a r * a r) * (1 / N) - (∑ r ∈ s, a r) * (1 / N) * ((∑ r ∈ s, a r) * (1 / N))
      = (∑ r ∈ s, (a r - (∑ r ∈ s, a r) * (1 / N)) * (a r - (∑ r ∈ s, a r) * (1 / N))) * (1 / N) := by
  generalize hμ : (∑ r ∈ s, a r) * (1 / N) = μ
  have hS : (∑ r ∈ s, a r) = N * μ := by rw [← hμ]; field_simp
  have h1 : ∀ r, (a r - μ) * (a r - μ) = a r * a r - 2 * μ * a r + μ * μ := fun r => by ring
  simp_rw [h1]
  rw [Finset.sum_add_distrib, Finset.sum_sub_distrib, ← Finset.mul_sum, Finset.sum_const, nsmul_eq_mul, hcard, hS]
  field_simp
  ring

section Column
variable {n m : Nat} (v : A2 n m) (i : (⟨2, ![1, m]⟩ : Shape).Idx)

/-- A column of an array of real numbers, as a function to the reals. -/
private theorem col_real (hv : AllReal v) : ∃ a : Fin n → ℝ, ∀ r, v (ix2 r (col i)) = (a r : EReal) := by
  choose w hw using hv
  exact ⟨fun r => w (ix2 r (col i)), fun r => hw _⟩

variable {v i} {a : Fin n → ℝ} (ha : ∀ r, v (ix2 r (col i)) = (a r : EReal))
include ha

/-- Its sum is the real sum … -/
private theorem colSum_coe : colSum v i = ((∑ r, a r : ℝ) : EReal) := by
  rw [coe_sum]; unfold colSum; exact Finset.sum_congr rfl fun r _ => ha r

/-- … the sum of its squares the real sum of squares … -/
private theorem colSum_sq_coe : colSum (sq v) i = ((∑ r, a r * a r : ℝ) : EReal) := by
  rw [coe_sum]; unfold colSum sq
  refine Finset.sum_congr rfl fun r _ => ?_
  rw [ha, EReal.coe_mul]

/-- … its mean the real sum over 1000000 … -/
private theorem meanRow_coe : meanRow v i = (((∑ r, a r) * (1 / 1000000) : ℝ) : EReal) := by
  unfold meanRow
  rw [colSum_coe ha, million_eq, Ideal.div_coe (by norm_num), ← EReal.coe_mul]

/-- … and the sum of its squared deviations from that mean the real one. -/
private theorem devSum_coe :
    (∑ r : Fin n, (v (ix2 r (col i)) - meanRow v i) * (v (ix2 r (col i)) - meanRow v i))
      = ((∑ r, (a r - (∑ r, a r) * (1 / 1000000)) * (a r - (∑ r, a r) * (1 / 1000000)) : ℝ) : EReal) := by
  rw [coe_sum]
  refine Finset.sum_congr rfl fun r _ => ?_
  rw [ha, meanRow_coe ha, ← EReal.coe_sub, ← EReal.coe_mul]

/-- The mean squared deviation is the real one, a sum of squares over a positive number. -/
private theorem varOfDeviations_coe :
    varOfDeviations v i
      = (((∑ r, (a r - (∑ r, a r) * (1 / 1000000)) * (a r - (∑ r, a r) * (1 / 1000000))) * (1 / 1000000) : ℝ) : EReal) := by
  unfold varOfDeviations
  rw [devSum_coe ha, million_eq, Ideal.div_coe (by norm_num), ← EReal.coe_mul]

end Column

/-- The two expressions of the variance agree on a column of real numbers. -/
theorem var_eq {m : Nat} (v : A2 1000000 m) (hv : AllReal v) : varOfMoments v = varOfDeviations v := by
  funext i
  have hN : (1000000 : ℝ) ≠ 0 := by norm_num
  obtain ⟨a, ha⟩ := col_real v i hv
  have hcard : ((Finset.univ : Finset (Fin 1000000)).card : ℝ) = 1000000 := by
    rw [Finset.card_univ, Fintype.card_fin]; norm_num
  rw [varOfDeviations_coe ha]
  unfold varOfMoments
  rw [colSum_sq_coe ha, meanRow_coe ha, million_eq, Ideal.div_coe hN, ← EReal.coe_mul, ← EReal.coe_mul,
    ← EReal.coe_sub, real_var Finset.univ a 1000000 hN hcard]
  refine max_eq_left ?_
  rw [← EReal.coe_zero, EReal.coe_le_coe_iff]
  exact mul_nonneg (Finset.sum_nonneg fun r _ => mul_self_nonneg _) (by norm_num)

/-- The means of an array of real numbers are real numbers. -/
theorem meanRow_real {n m : Nat} (v : A2 n m) (hv : AllReal v) : AllReal (meanRow v) := by
  intro i
  obtain ⟨a, ha⟩ := col_real v i hv
  exact ⟨_, meanRow_coe ha⟩

/-- Its mean squared deviations are real numbers … -/
theorem varOfDeviations_real {n m : Nat} (v : A2 n m) (hv : AllReal v) : AllReal (varOfDeviations v) := by
  intro i
  obtain ⟨a, ha⟩ := col_real v i hv
  exact ⟨_, varOfDeviations_coe ha⟩

/-- … and not negative. -/
theorem varOfDeviations_nonneg {n m : Nat} (v : A2 n m) (hv : AllReal v) (i : (⟨2, ![1, m]⟩ : Shape).Idx) :
    0 ≤ varOfDeviations v i := by
  obtain ⟨a, ha⟩ := col_real v i hv
  rw [varOfDeviations_coe ha, ← EReal.coe_zero, EReal.coe_le_coe_iff]
  exact mul_nonneg (Finset.sum_nonneg fun r _ => mul_self_nonneg _) (by norm_num)

/-- So is the clipped difference of moments, over the 1000000 rows. -/
theorem varOfMoments_real {m : Nat} (v : A2 1000000 m) (hv : AllReal v) : AllReal (varOfMoments v) := by
  rw [var_eq v hv]; exact varOfDeviations_real v hv

end Cert.Spec

end
-- ==== Proof.RefStages.lean ====
/-
  The reference program's three layer stages are the specification's functions, and its two gathers read a table row.

  * stage 0: relu(x·W₀ + b₀) is reluLin of the reshaped input;
  * stage 1: relu(s₀·W₁ + b₁ − g₁) is reluLinSub of stage 0 with the gathered rows g₁;
  * stage 2: relu(h₁·W₂ + b₂ − g₂) is reluLinSub of stage 1 with the gathered rows g₂;
  * each gather, at row p and column q, reads the table at row batch[p] (for 0 ≤ batch[p] < 2000) and column q.
-/
import proofs.«401850_j66589172957709_2_alg».proof.Proof.Gen.ReferenceIdeal.Read
import proofs.«401850_j66589172957709_2_alg».proof.Proof.Spec
import Idealize.ShloMosaic.Lib.ValueIdx
import Idealize.ShloMosaic.Lib.Pipeline.Value
import Idealize.ShloMosaic.PureOps.Ideal.Laws
import Idealize.ShloMosaic.PureOps.ShapeOps

noncomputable section

open scoped BigOperators

namespace Cert.ReferenceIdeal.RefVal

open Cert.ReferenceIdeal Cert.ReferenceIdeal.Read Cert.Spec Idealize.ShloMosaic Idealize.ShloMosaic.ValueIdx

/-- Stage 0: the positive part of the affine map of the reshaped input. -/
theorem s0_eq (x1 : (⟨S8x1000000x2, .f32⟩ : BufTy).Contents (Elt Ideal)) (x3 : (⟨S16x64, .f32⟩ : BufTy).Contents (Elt Ideal))
    (x4 : (⟨S64, .f32⟩ : BufTy).Contents (Elt Ideal)) :
    val_main_v6 (F := Ideal) x1 x3 x4 = reluLin (val_main_v1 (F := Ideal) x1) x3 (rowOf x4) := by
  funext i
  obtain ⟨p, q, rfl⟩ : ∃ (p : Fin 1000000) (q : Fin 64), i = ix2 p q := ⟨i 0, i 1, eq_ix2 i⟩
  rw [val_main_v6_apply, val_main_v5_apply, val_main_v2_apply, val_main_v4_apply, val_main_v3_apply,
    val_main_call0_v0_apply, val_main_call0_cst_apply]
  have el : ∀ k : Fin 16, lidx_main_v2 (ix2 p q) k = ix2 p k := fun k =>
    funext fun a => Fin.ext (by match a with | ⟨0, _⟩ => rfl | ⟨1, _⟩ => rfl)
  have er : ∀ k : Fin 16, ridx_main_v2 (ix2 p q) k = ix2 k q := fun k =>
    funext fun a => Fin.ext (by match a with | ⟨0, _⟩ => rfl | ⟨1, _⟩ => rfl)
  have eb : idx_main_v3 (idx_main_v4 (ix2 p q)) = ix1 q :=
    funext fun a => Fin.ext (by match a with | ⟨0, _⟩ => rfl)
  simp only [el, er, eb, reluLin, lin, rowOf, row, col, Ideal.addf_def, Ideal.maximumf_def, Ideal.ofBits_def,
    Ideal.ofBits_zero_f32]

/-! ## A row gather read at an index

What `table[idx]` of a table `[N, m]` at a vector of row numbers lowers to: a gather with offset axis 1, the operand's
axis 0 collapsed and start-indexed, slice sizes `[1, m]`, the start indices an `[n, 1]` column. Result element (p, q) is the
table at column q of the row the start index `idx[p, 0]` names, read signed and clamped into `[0, N − 1]`. -/

section Rows
variable {α : Type}

/-- Those dimension numbers for a table `[N, m]`, start indices `[n, 1]` and result `[n, m]`. -/
abbrev rowsDims (N n m : Nat)
    (wf : GatherDims.WF ⟨2, ![N, m]⟩ ⟨2, ![n, 1]⟩ ⟨2, ![n, m]⟩ [1] [0] [] [0] [] 1 ![1, m]) :
    GatherDims ⟨2, ![N, m]⟩ ⟨2, ![n, 1]⟩ ⟨2, ![n, m]⟩ where
  offsetDims := [1]
  collapsedSliceDims := [0]
  operandBatchingDims := []
  startIndicesBatchingDims := []
  startIndexMap := [0]
  indexVectorDim := 1
  sliceSizes := ![1, m]
  wf := wf

/-- The gather read at (p, q): the table at column q of row `idx[p, 0]`, read signed and clamped into `[0, N − 1]`. -/
theorem gather_rows_apply {N n m w : Nat} (hN : 0 < N)
    (wf : GatherDims.WF ⟨2, ![N, m]⟩ ⟨2, ![n, 1]⟩ ⟨2, ![n, m]⟩ [1] [0] [] [0] [] 1 ![1, m])
    (x : (⟨2, ![N, m]⟩ : Shape).Idx → α) (idx : IVec ⟨2, ![n, 1]⟩ w) (p : Fin n) (q : Fin m) :
    Host.gather (rowsDims N n m wf) x idx (ix2 p q)
      = x (ix2 ⟨min (idx (ix2 p (0 : Fin 1))).toInt.toNat (N - 1), by omega⟩ q) := by
  unfold Host.gather
  congr 1
  funext a
  refine Fin.ext ?_
  match a with
  | ⟨0, _⟩ =>
    show (rowsDims N n m wf).start (ix2 p q) idx 0 + (rowsDims N n m wf).batchCoord (ix2 p q) 0
      + (rowsDims N n m wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N n m wf).startIndexMap from List.mem_singleton.mpr rfl)]
    have hsi : (rowsDims N n m wf).siIdx (ix2 p q) ⟨List.idxOf (0 : Fin 2) (rowsDims N n m wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowsDims N n m wf).start (ix2 p q) idx 1 + (rowsDims N n m wf).batchCoord (ix2 p q) 1
      + (rowsDims N n m wf).offCoord (ix2 p q) 1 = q.val
    rw [GatherDims.batchCoord_eq_zero _ _ _ List.not_mem_nil]
    unfold GatherDims.start
    rw [dif_neg (show ¬(1 : Fin 2) ∈ (rowsDims N n m wf).startIndexMap from
      show ¬(1 : Fin 2) ∈ ([0] : List (Fin 2)) by decide)]
    unfold GatherDims.offCoord
    rw [dif_pos (show (1 : Fin 2) ∈ (rowsDims N n m wf).sKept from (GatherDims.mem_sKept _ _).mpr
      ⟨show ¬(1 : Fin 2) ∈ ([0] : List (Fin 2)) by decide, List.not_mem_nil⟩)]
    simp only [Nat.zero_add]
    rfl

end Rows

/-- A signed comparison "less than zero" of a word whose signed value is not negative is the bit 0. -/
theorem cmpi_slt_zero_of_nonneg (a : BitVec 32) (h : 0 ≤ a.toInt) : IntOp.cmpi .slt a 0#32 = 0#1 := by
  have hs : a.slt 0#32 = false := by
    rw [Bool.eq_false_iff]
    intro h1
    rw [BitVec.slt_iff_toInt_lt] at h1
    simp at h1
    omega
  simp only [IntOp.cmpi, hs]
  rfl

/-- The first gather at (p, q): row `batch[p]` of the table, column q (for a row number in range the negative-index
    wrap is not taken and the clamp is the identity). -/
theorem gather1_eq (x1 : (⟨S8x1000000x2, .f32⟩ : BufTy).Contents (Elt Ideal)) (x2 : (⟨S1000000, .i32⟩ : BufTy).Contents (Elt Ideal))
    (x3 : (⟨S16x64, .f32⟩ : BufTy).Contents (Elt Ideal)) (x4 : (⟨S64, .f32⟩ : BufTy).Contents (Elt Ideal))
    (x7 : (⟨S64x64, .f32⟩ : BufTy).Contents (Elt Ideal))
    (hb : ∀ i : S1000000.Idx, 0 ≤ (x2 i).toInt ∧ (x2 i).toInt < 2000) (p : Fin 1000000) (q : Fin 64) :
    val_main_v30 (F := Ideal) x1 x2 x3 x4 x7 (ix2 p q)
      = val_main_v19 (F := Ideal) x1 x2 x3 x4 x7
          (ix2 ⟨(x2 (ix1 p)).toInt.toNat, by have := hb (ix1 p); omega⟩ q) := by
  unfold val_main_v30
  generalize val_main_v19 (F := Ideal) x1 x2 x3 x4 x7 = tbl
  refine (gather_rows_apply (N := 2000) (n := 1000000) (m := 64) (by decide)
    Facts₀.gather_S2000x64_S1000000x1_S1000000x64_1_0_n_n_0_1_164_wf tbl (val_main_v29 (F := Ideal) x2) p q).trans ?_
  have hs : val_main_v29 (F := Ideal) x2 (ix2 p (0 : Fin 1)) = x2 (ix1 p) := by
    have e : idx_main_v29 (ix2 p (0 : Fin 1)) = ix1 p := funext fun a => Fin.ext (by match a with | ⟨0, _⟩ => rfl)
    rw [val_main_v29_apply, val_main_v28_apply, val_main_v25_apply, val_main_v24_apply, val_main_c_apply, e,
      cmpi_slt_zero_of_nonneg _ (hb (ix1 p)).1, select_zero]
  have hm : min (val_main_v29 (F := Ideal) x2 (ix2 p (0 : Fin 1))).toInt.toNat (2000 - 1) = (x2 (ix1 p)).toInt.toNat := by
    rw [hs]; have := hb (ix1 p); omega
  exact congrArg tbl (congrArg (fun r => ix2 r q) (Fin.ext hm))

/-- Stage 1: the positive part of the affine map of stage 0 minus the gathered rows. -/
theorem h1_eq (x1 : (⟨S8x1000000x2, .f32⟩ : BufTy).Contents (Elt Ideal)) (x2 : (⟨S1000000, .i32⟩ : BufTy).Contents (Elt Ideal))
    (x3 : (⟨S16x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (x7 : (⟨S64x64, .f32⟩ : BufTy).Contents (Elt Ideal)) :
    val_main_v32 (F := Ideal) x1 x2 x3 x4 x5 x6 x7
      = reluLinSub (val_main_v6 (F := Ideal) x1 x3 x4) x5 (rowOf x6) (val_main_v30 (F := Ideal) x1 x2 x3 x4 x7) := by
  funext i
  obtain ⟨p, q, rfl⟩ : ∃ (p : Fin 1000000) (q : Fin 64), i = ix2 p q := ⟨i 0, i 1, eq_ix2 i⟩
  rw [val_main_v32_apply, val_main_v31_apply, val_main_v23_apply, val_main_v20_apply, val_main_v22_apply,
    val_main_v21_apply, val_main_call1_v0_apply, val_main_call1_cst_apply]
  have el : ∀ k : Fin 64, lidx_main_v20 (ix2 p q) k = ix2 p k := fun k =>
    funext fun a => Fin.ext (by match a with | ⟨0, _⟩ => rfl | ⟨1, _⟩ => rfl)
  have er : ∀ k : Fin 64, ridx_main_v20 (ix2 p q) k = ix2 k q := fun k =>
    funext fun a => Fin.ext (by match a with | ⟨0, _⟩ => rfl | ⟨1, _⟩ => rfl)
  have eb : idx_main_v21 (idx_main_v22 (ix2 p q)) = ix1 q :=
    funext fun a => Fin.ext (by match a with | ⟨0, _⟩ => rfl)
  simp only [el, er, eb, reluLinSub, lin, rowOf, row, col, Ideal.addf_def, Ideal.subf_def, Ideal.maximumf_def,
    Ideal.ofBits_def, Ideal.ofBits_zero_f32]

/-- Stage 2: the positive part of the affine map of stage 1 minus the gathered rows. -/
theorem v_eq (x1 : (⟨S8x1000000x2, .f32⟩ : BufTy).Contents (Elt Ideal)) (x2 : (⟨S1000000, .i32⟩ : BufTy).Contents (Elt Ideal))
    (x3 : (⟨S16x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (x7 : (⟨S64x64, .f32⟩ : BufTy).Contents (Elt Ideal)) (x8 : (⟨S64x128, .f32⟩ : BufTy).Contents (Elt Ideal))
    (x9 : (⟨S128, .f32⟩ : BufTy).Contents (Elt Ideal)) (x10 : (⟨S64x128, .f32⟩ : BufTy).Contents (Elt Ideal)) :
    val_main_v58 (F := Ideal) x1 x2 x3 x4 x5 x6 x7 x8 x9 x10
      = reluLinSub (val_main_v32 (F := Ideal) x1 x2 x3 x4 x5 x6 x7) x8 (rowOf x9)
          (val_main_v56 (F := Ideal) x1 x2 x3 x4 x5 x6 x7 x10) := by
  funext i
  obtain ⟨p, q, rfl⟩ : ∃ (p : Fin 1000000) (q : Fin 128), i = ix2 p q := ⟨i 0, i 1, eq_ix2 i⟩
  rw [val_main_v58_apply, val_main_v57_apply, val_main_v49_apply, val_main_v46_apply, val_main_v48_apply,
    val_main_v47_apply, val_main_call2_v0_apply, val_main_call2_cst_apply]
  have el : ∀ k : Fin 64, lidx_main_v46 (ix2 p q) k = ix2 p k := fun k =>
    funext fun a => Fin.ext (by match a with | ⟨0, _⟩ => rfl | ⟨1, _⟩ => rfl)
  have er : ∀ k : Fin 64, ridx_main_v46 (ix2 p q) k = ix2 k q := fun k =>
    funext fun a => Fin.ext (by match a with | ⟨0, _⟩ => rfl | ⟨1, _⟩ => rfl)
  have eb : idx_main_v47 (idx_main_v48 (ix2 p q)) = ix1 q :=
    funext fun a => Fin.ext (by match a with | ⟨0, _⟩ => rfl)
  simp only [el, er, eb, reluLinSub, lin, rowOf, row, col, Ideal.addf_def, Ideal.subf_def, Ideal.maximumf_def,
    Ideal.ofBits_def, Ideal.ofBits_zero_f32]

/-- The second gather at (p, q): row `batch[p]` of the table, column q. -/
theorem gather2_eq (x1 : (⟨S8x1000000x2, .f32⟩ : BufTy).Contents (Elt Ideal)) (x2 : (⟨S1000000, .i32⟩ : BufTy).Contents (Elt Ideal))
    (x3 : (⟨S16x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (x7 : (⟨S64x64, .f32⟩ : BufTy).Contents (Elt Ideal)) (x10 : (⟨S64x128, .f32⟩ : BufTy).Contents (Elt Ideal))
    (hb : ∀ i : S1000000.Idx, 0 ≤ (x2 i).toInt ∧ (x2 i).toInt < 2000) (p : Fin 1000000) (q : Fin 128) :
    val_main_v56 (F := Ideal) x1 x2 x3 x4 x5 x6 x7 x10 (ix2 p q)
      = val_main_v45 (F := Ideal) x1 x2 x3 x4 x5 x6 x7 x10
          (ix2 ⟨(x2 (ix1 p)).toInt.toNat, by have := hb (ix1 p); omega⟩ q) := by
  unfold val_main_v56
  generalize val_main_v45 (F := Ideal) x1 x2 x3 x4 x5 x6 x7 x10 = tbl
  refine (gather_rows_apply (N := 2000) (n := 1000000) (m := 128) (by decide)
    Facts₀.gather_S2000x128_S1000000x1_S1000000x128_1_0_n_n_0_1_1128_wf tbl (val_main_v55 (F := Ideal) x2) p q).trans ?_
  have hs : val_main_v55 (F := Ideal) x2 (ix2 p (0 : Fin 1)) = x2 (ix1 p) := by
    have e : idx_main_v55 (ix2 p (0 : Fin 1)) = ix1 p := funext fun a => Fin.ext (by match a with | ⟨0, _⟩ => rfl)
    rw [val_main_v55_apply, val_main_v54_apply, val_main_v51_apply, val_main_v50_apply, val_main_c_8_apply, e,
      cmpi_slt_zero_of_nonneg _ (hb (ix1 p)).1, select_zero]
  have hm : min (val_main_v55 (F := Ideal) x2 (ix2 p (0 : Fin 1))).toInt.toNat (2000 - 1) = (x2 (ix1 p)).toInt.toNat := by
    rw [hs]; have := hb (ix1 p); omega
  exact congrArg tbl (congrArg (fun r => ix2 r q) (Fin.ext hm))

end Cert.ReferenceIdeal.RefVal

end
-- ==== Proof.RefTail.lean ====
/-
  The tail of the reference program — the column statistics over the 1000000 rows and the normalisation — is the
  specification's `normalize`.

  With V the [1000000, 128] array the tail starts from:
  * the column mean  (0 + Σ_r V[r,q]) / 1000000  is `meanRow V`;
  * the column variance  (0 + Σ_r (V[r,q] − μ_q)²) / 1000000  is `varOfDeviations V`;
  * the result at (p, q),  x[p,q] + (γ_q · (V[p,q] − μ_q) · rsqrt(σ²_q + ε) + β_q),  is `normalize V x μ σ² γ β`.
-/
import proofs.«401850_j66589172957709_2_alg».proof.Proof.Gen.ReferenceIdeal.Read
import proofs.«401850_j66589172957709_2_alg».proof.Proof.Spec
import Idealize.ShloMosaic.Lib.ValueIdx
import Idealize.ShloMosaic.Lib.Pipeline.Value
import Idealize.ShloMosaic.PureOps.Ideal.Laws
import Idealize.ShloMosaic.PureOps.ShapeOps

noncomputable section

open scoped BigOperators

namespace Cert.ReferenceIdeal.RefVal

open Cert.ReferenceIdeal Cert.ReferenceIdeal.Read Cert.Spec Idealize.ShloMosaic Idealize.ShloMosaic.ValueIdx

/-- The column mean at column q: the sum of the column from 0, over 1000000. -/
theorem mean_eq (x1 : (⟨S8x1000000x2, .f32⟩ : BufTy).Contents (Elt Ideal)) (x2 : (⟨S1000000, .i32⟩ : BufTy).Contents (Elt Ideal))
    (x3 : (⟨S16x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (x7 : (⟨S64x64, .f32⟩ : BufTy).Contents (Elt Ideal)) (x8 : (⟨S64x128, .f32⟩ : BufTy).Contents (Elt Ideal))
    (x9 : (⟨S128, .f32⟩ : BufTy).Contents (Elt Ideal)) (x10 : (⟨S64x128, .f32⟩ : BufTy).Contents (Elt Ideal)) (q : Fin 128) :
    val_main_v61 (F := Ideal) x1 x2 x3 x4 x5 x6 x7 x8 x9 x10 (ix1 q)
      = meanRow (val_main_v58 (F := Ideal) x1 x2 x3 x4 x5 x6 x7 x8 x9 x10) (ix2 0 q) := by
  rw [val_main_v61_apply, val_main_v59_apply, val_main_v60_apply, val_main_cst_10_apply, val_main_cst_11_apply]
  have ei : ∀ k : Fin 1000000, idx_main_v59 (ix1 q) k = ix2 k q := fun k =>
    funext fun a => Fin.ext (by match a with | ⟨0, _⟩ => rfl | ⟨1, _⟩ => rfl)
  simp only [ei, meanRow, colSum, million, col, Ideal.hostDivf_def, Ideal.ofBits_def, Ideal.ofBits_zero_f32, zero_add]

/-- The column variance at column q: the sum of the squared deviations from the column mean from 0, over 1000000. -/
theorem var_eq (x1 : (⟨S8x1000000x2, .f32⟩ : BufTy).Contents (Elt Ideal)) (x2 : (⟨S1000000, .i32⟩ : BufTy).Contents (Elt Ideal))
    (x3 : (⟨S16x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (x7 : (⟨S64x64, .f32⟩ : BufTy).Contents (Elt Ideal)) (x8 : (⟨S64x128, .f32⟩ : BufTy).Contents (Elt Ideal))
    (x9 : (⟨S128, .f32⟩ : BufTy).Contents (Elt Ideal)) (x10 : (⟨S64x128, .f32⟩ : BufTy).Contents (Elt Ideal)) (q : Fin 128) :
    val_main_v68 (F := Ideal) x1 x2 x3 x4 x5 x6 x7 x8 x9 x10 (ix1 q)
      = varOfDeviations (val_main_v58 (F := Ideal) x1 x2 x3 x4 x5 x6 x7 x8 x9 x10) (ix2 0 q) := by
  rw [val_main_v68_apply, val_main_v66_apply, val_main_v67_apply, val_main_cst_12_apply, val_main_cst_13_apply]
  have ei : ∀ k : Fin 1000000, idx_main_v66 (ix1 q) k = ix2 k q := fun k =>
    funext fun a => Fin.ext (by match a with | ⟨0, _⟩ => rfl | ⟨1, _⟩ => rfl)
  have em : ∀ k : Fin 1000000, idx_main_v62 (idx_main_v63 (ix2 k q)) = ix1 q := fun k =>
    funext fun a => Fin.ext (by match a with | ⟨0, _⟩ => rfl)
  simp only [ei, val_main_v65_apply, val_main_v64_apply, val_main_v63_apply, val_main_v62_apply, em, mean_eq,
    varOfDeviations, million, col, Ideal.hostDivf_def, Ideal.ofBits_def, Ideal.ofBits_zero_f32, zero_add,
    Ideal.mulf_def, Ideal.subf_def]

/-- The reference's result is the normalisation of V by its column statistics, added to x. -/
theorem out_eq (x0 : (⟨S1000000x128, .f32⟩ : BufTy).Contents (Elt Ideal)) (x1 : (⟨S8x1000000x2, .f32⟩ : BufTy).Contents (Elt Ideal)) (x2 : (⟨S1000000, .i32⟩ : BufTy).Contents (Elt Ideal))
    (x3 : (⟨S16x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (x7 : (⟨S64x64, .f32⟩ : BufTy).Contents (Elt Ideal)) (x8 : (⟨S64x128, .f32⟩ : BufTy).Contents (Elt Ideal))
    (x9 : (⟨S128, .f32⟩ : BufTy).Contents (Elt Ideal)) (x10 : (⟨S64x128, .f32⟩ : BufTy).Contents (Elt Ideal))
    (x11 x12 : (⟨S128, .f32⟩ : BufTy).Contents (Elt Ideal)) :
    val_main_v84 (F := Ideal) x0 x1 x2 x3 x4 x5 x6 x7 x8 x9 x10 x11 x12
      = Cert.Spec.normalize (val_main_v58 (F := Ideal) x1 x2 x3 x4 x5 x6 x7 x8 x9 x10) x0
          (meanRow (val_main_v58 (F := Ideal) x1 x2 x3 x4 x5 x6 x7 x8 x9 x10))
          (varOfDeviations (val_main_v58 (F := Ideal) x1 x2 x3 x4 x5 x6 x7 x8 x9 x10)) (rowOf x11) (rowOf x12) := by
  funext i
  obtain ⟨p, q, rfl⟩ : ∃ (p : Fin 1000000) (q : Fin 128), i = ix2 p q := ⟨i 0, i 1, eq_ix2 i⟩
  rw [val_main_v84_apply, val_main_v83_apply, val_main_v80_apply, val_main_v82_apply, val_main_v81_apply,
    val_main_v74_apply, val_main_v79_apply, val_main_v78_apply, val_main_v77_apply, val_main_v76_apply,
    val_main_v75_apply, val_main_cst_14_apply, val_main_v73_apply, val_main_v72_apply, val_main_v71_apply,
    val_main_v70_apply, val_main_v69_apply]
  have e69 : idx_main_v69 (idx_main_v70 (ix2 p q)) = ix1 q :=
    funext fun a => Fin.ext (by match a with | ⟨0, _⟩ => rfl)
  have e72 : idx_main_v72 (idx_main_v73 (ix2 p q)) = ix1 q :=
    funext fun a => Fin.ext (by match a with | ⟨0, _⟩ => rfl)
  have e78 : idx_main_v78 (idx_main_v79 (ix2 p q)) = ix1 q :=
    funext fun a => Fin.ext (by match a with | ⟨0, _⟩ => rfl)
  have e81 : idx_main_v81 (idx_main_v82 (ix2 p q)) = ix1 q :=
    funext fun a => Fin.ext (by match a with | ⟨0, _⟩ => rfl)
  rw [e69, e72, e78, e81, mean_eq, var_eq]
  simp only [Cert.Spec.normalize, rowOf, col, eps, Ideal.addf_def, Ideal.mulf_def, Ideal.subf_def, Ideal.hostUnary_rsqrt_def,
    Ideal.ofBits_def]

end Cert.ReferenceIdeal.RefVal

end
-- ==== Proof.Bridge.lean ====
/-
  Small facts joining the two programs' spellings of one value, at the ideal instance:
  a vector cast to one row or one column; a table with zero rows appended, read at one of its own rows; a word that is
  non-negative as a signed integer; the product of an indicator row with the padded table as the table's row named by
  an in-range word; and the reference's segment-mean table as the same chain of host operations the kernel program runs.
-/
import proofs.«401850_j66589172957709_2_alg».proof.Proof.Spec
import proofs.«401850_j66589172957709_2_alg».proof.Proof.Algebra
import proofs.«401850_j66589172957709_2_alg».proof.Proof.KDefs
import proofs.«401850_j66589172957709_2_alg».proof.Proof.KComp
import proofs.«401850_j66589172957709_2_alg».proof.Proof.RefStages
import proofs.«401850_j66589172957709_2_alg».proof.Proof.RefTail
import proofs.«401850_j66589172957709_2_alg».proof.Proof.Gen.ReferenceIdeal.Read
import Idealize.ShloMosaic.Lib.ValueLayout
import Idealize.ShloMosaic.Lib.Pipeline.Value

noncomputable section

open scoped BigOperators

namespace Cert.Bridge

open Idealize.ShloMosaic Idealize.ShloMosaic.ValueIdx Cert.Spec

/-- A vector cast to a one-row array is that vector laid out as a row. -/
theorem cast_row {a : ℕ} (x : (⟨1, ![a]⟩ : Shape).Idx → EReal) (h : (⟨1, ![a]⟩ : Shape).ShapeCasts ⟨2, ![1, a]⟩) :
    shapeCast ⟨2, ![1, a]⟩ x h = rowOf x := by
  funext i
  obtain ⟨u, q, rfl⟩ : ∃ (u : Fin 1) (q : Fin a), i = ix2 u q := ⟨i 0, i 1, eq_ix2 i⟩
  rw [shapeCast_a_1a_apply]
  rfl

/-- A vector of words cast to a one-column array is that vector laid out as a column. -/
theorem cast_col {n : ℕ} (w : (⟨1, ![n]⟩ : Shape).Idx → BitVec 32) (h : (⟨1, ![n]⟩ : Shape).ShapeCasts ⟨2, ![n, 1]⟩) :
    shapeCast ⟨2, ![n, 1]⟩ w h = colOfW w := by
  funext i
  obtain ⟨p, u, rfl⟩ : ∃ (p : Fin n) (u : Fin 1), i = ix2 p u := ⟨i 0, i 1, eq_ix2 i⟩
  refine shapeCast_apply w h _ (ix1 p) ?_
  rw [Shape.rowMajor_val_two, Shape.rowMajor_val_one]
  show p.val = p.val * 1 + u.val
  omega

/-- A word that is non-negative as a signed integer is the word of that natural number. -/
theorem word_of_nonneg (w : BitVec 32) (h0 : 0 ≤ w.toInt) : w = BitVec.ofNat 32 w.toInt.toNat := by
  apply BitVec.eq_of_toNat_eq
  have hlt := w.isLt
  have h1 : w.toInt = (w.toNat : Int) := by
    rw [BitVec.toInt_eq_toNat_cond] at h0 ⊢
    split at h0 <;> split <;> omega
  rw [BitVec.toNat_ofNat, h1, Int.toNat_natCast]
  exact (Nat.mod_eq_of_lt hlt).symm

/-! ## The padded tables read at one of their own rows -/

section Kernel
open Cert.KernelIdeal Cert.KernelIdeal.Host
open Cert.KernelIdeal.Facts₀ Cert.KernelIdeal.Facts

/-- The 2000×64 table with 48 zero rows appended, read at a row below 2000, is the table there. -/
theorem padRows64_apply (T : FVec Ideal S2000x64 .f32) (s : Fin 2048) (hs : s.val < 2000) (q : Fin 64) :
    padRows64 T (ix2 s q) = T (ix2 ⟨s.val, hs⟩ q) := by
  unfold padRows64 pad
  have hin : ∀ a : Fin S2000x64.rank, (![0, 0] : Fin 2 → ℕ) a ≤ ((ix2 s q : S2048x64.Idx) (a.cast pads_S2000x64_S2048x64_0480_000.1)).val
      ∧ (((ix2 s q : S2048x64.Idx) (a.cast pads_S2000x64_S2048x64_0480_000.1)).val - (![0, 0] : Fin 2 → ℕ) a) % ((![0, 0] : Fin 2 → ℕ) a + 1) = 0
      ∧ (((ix2 s q : S2048x64.Idx) (a.cast pads_S2000x64_S2048x64_0480_000.1)).val - (![0, 0] : Fin 2 → ℕ) a) / ((![0, 0] : Fin 2 → ℕ) a + 1) < S2000x64.size a := by
    intro a
    match a with
    | ⟨0, _⟩ => exact ⟨Nat.zero_le _, Nat.mod_one _, by show (s.val - 0) / 1 < 2000; omega⟩
    | ⟨1, _⟩ => exact ⟨Nat.zero_le _, Nat.mod_one _, by show (q.val - 0) / 1 < 64; have := q.isLt; omega⟩
  rw [dif_pos hin]
  congr 1
  funext a
  apply Fin.ext
  match a with
  | ⟨0, _⟩ => show (s.val - 0) / 1 = s.val; omega
  | ⟨1, _⟩ => show (q.val - 0) / 1 = q.val; omega

/-- The 2000×128 table with 48 zero rows appended, read at a row below 2000, is the table there. -/
theorem padRows128_apply (T : FVec Ideal S2000x128 .f32) (s : Fin 2048) (hs : s.val < 2000) (q : Fin 128) :
    padRows128 T (ix2 s q) = T (ix2 ⟨s.val, hs⟩ q) := by
  unfold padRows128 pad
  have hin : ∀ a : Fin S2000x128.rank, (![0, 0] : Fin 2 → ℕ) a ≤ ((ix2 s q : S2048x128.Idx) (a.cast pads_S2000x128_S2048x128_0480_000.1)).val
      ∧ (((ix2 s q : S2048x128.Idx) (a.cast pads_S2000x128_S2048x128_0480_000.1)).val - (![0, 0] : Fin 2 → ℕ) a) % ((![0, 0] : Fin 2 → ℕ) a + 1) = 0
      ∧ (((ix2 s q : S2048x128.Idx) (a.cast pads_S2000x128_S2048x128_0480_000.1)).val - (![0, 0] : Fin 2 → ℕ) a) / ((![0, 0] : Fin 2 → ℕ) a + 1) < S2000x128.size a := by
    intro a
    match a with
    | ⟨0, _⟩ => exact ⟨Nat.zero_le _, Nat.mod_one _, by show (s.val - 0) / 1 < 2000; omega⟩
    | ⟨1, _⟩ => exact ⟨Nat.zero_le _, Nat.mod_one _, by show (q.val - 0) / 1 < 128; have := q.isLt; omega⟩
  rw [dif_pos hin]
  congr 1
  funext a
  apply Fin.ext
  match a with
  | ⟨0, _⟩ => show (s.val - 0) / 1 = s.val; omega
  | ⟨1, _⟩ => show (q.val - 0) / 1 = q.val; omega

end Kernel

/-! ## The stages of the two programs, one by one -/

section Stages
open Cert.KernelIdeal Cert.KernelIdeal.Host
open Cert.KernelIdeal.Facts₀ Cert.KernelIdeal.Facts

variable (a0 : FVec Ideal S1000000x128 .f32) (a1 : FVec Ideal S8x1000000x2 .f32) (a2 : IVec S1000000 32) (a3 : FVec Ideal S16x64 .f32)
  (a4 : FVec Ideal S64 .f32) (a5 : FVec Ideal S64x64 .f32) (a6 : FVec Ideal S64 .f32) (a7 : FVec Ideal S64x64 .f32)
  (a8 : FVec Ideal S64x128 .f32) (a9 : FVec Ideal S128 .f32) (a10 : FVec Ideal S64x128 .f32) (a11 a12 : FVec Ideal S128 .f32)

/-- The batch column read at a row is the row's batch word. -/
theorem batchCol_apply (p : Fin 1000000) : batchCol a2 (ix2 p (0 : Fin 1)) = a2 (ix1 p) := by
  unfold batchCol
  rw [cast_col]
  rfl

/-- With every batch word in [0, 2000): the indicator row of node `p` times the padded 64-column table is the table's row
    named by the node's batch word. -/
theorem onehot64 (hb : ∀ i : S1000000.Idx, 0 ≤ (a2 i).toInt ∧ (a2 i).toInt < 2000) (T : FVec Ideal S2000x64 .f32)
    (p : Fin 1000000) (q : Fin 64) :
    onehotRows (batchCol a2) (padRows64 T) (ix2 p q)
      = T (ix2 ⟨(a2 (ix1 p)).toInt.toNat, by have := hb (ix1 p); omega⟩ q) := by
  have h0 := hb (ix1 p)
  have hlt : (a2 (ix1 p)).toInt.toNat < 2048 := by omega
  rw [onehotRows_of_eq (by norm_num) (batchCol a2) (padRows64 T) (ix2 p q) ⟨(a2 (ix1 p)).toInt.toNat, hlt⟩
    (by rw [row_ix2, batchCol_apply]; exact word_of_nonneg _ h0.1)]
  exact padRows64_apply T _ (by show (a2 (ix1 p)).toInt.toNat < 2000; omega) q

/-- The same for the padded 128-column table. -/
theorem onehot128 (hb : ∀ i : S1000000.Idx, 0 ≤ (a2 i).toInt ∧ (a2 i).toInt < 2000) (T : FVec Ideal S2000x128 .f32)
    (p : Fin 1000000) (q : Fin 128) :
    onehotRows (batchCol a2) (padRows128 T) (ix2 p q)
      = T (ix2 ⟨(a2 (ix1 p)).toInt.toNat, by have := hb (ix1 p); omega⟩ q) := by
  have h0 := hb (ix1 p)
  have hlt : (a2 (ix1 p)).toInt.toNat < 2048 := by omega
  rw [onehotRows_of_eq (by norm_num) (batchCol a2) (padRows128 T) (ix2 p q) ⟨(a2 (ix1 p)).toInt.toNat, hlt⟩
    (by rw [row_ix2, batchCol_apply]; exact word_of_nonneg _ h0.1)]
  exact padRows128_apply T _ (by show (a2 (ix1 p)).toInt.toNat < 2000; omega) q

/-- The reference lays the persistence pairs out as the kernel program does. -/
theorem pp_bridge : ppK a1 = Cert.ReferenceIdeal.Read.val_main_v1 (F := Ideal) a1 := rfl

/-- The first stage: the projected node features. -/
theorem s0_bridge : s0K a1 a3 a4 = Cert.ReferenceIdeal.Read.val_main_v6 (F := Ideal) a1 a3 a4 := by
  unfold s0K
  rw [Cert.ReferenceIdeal.RefVal.s0_eq, cast_row, pp_bridge]

/-- The reference's first table is the kernel program's chain of host operations on the first stage. -/
theorem table64_bridge : Cert.ReferenceIdeal.Read.val_main_v19 (F := Ideal) a1 a2 a3 a4 a7
    = table64 (Cert.ReferenceIdeal.Read.val_main_v6 (F := Ideal) a1 a3 a4) a2 a7 := rfl

/-- The second stage: the first deep-set layer. -/
theorem h1_bridge (hb : ∀ i : S1000000.Idx, 0 ≤ (a2 i).toInt ∧ (a2 i).toInt < 2000) :
    h1K a1 a2 a3 a4 a5 a6 a7 = Cert.ReferenceIdeal.Read.val_main_v32 (F := Ideal) a1 a2 a3 a4 a5 a6 a7 := by
  unfold h1K
  rw [Cert.ReferenceIdeal.RefVal.h1_eq, s0_bridge, cast_row]
  refine congrArg _ ?_
  funext i
  obtain ⟨p, q, rfl⟩ : ∃ (p : Fin 1000000) (q : Fin 64), i = ix2 p q := ⟨i 0, i 1, eq_ix2 i⟩
  rw [onehot64 a2 hb, Cert.ReferenceIdeal.RefVal.gather1_eq a1 a2 a3 a4 a7 hb p q, table64_bridge]

/-- The reference's second table is the same chain on the second stage. -/
theorem table128_bridge : Cert.ReferenceIdeal.Read.val_main_v45 (F := Ideal) a1 a2 a3 a4 a5 a6 a7 a10
    = table128 (Cert.ReferenceIdeal.Read.val_main_v32 (F := Ideal) a1 a2 a3 a4 a5 a6 a7) a2 a10 := rfl

/-- The third stage: the second deep-set layer. -/
theorem v_bridge (hb : ∀ i : S1000000.Idx, 0 ≤ (a2 i).toInt ∧ (a2 i).toInt < 2000) :
    vK a1 a2 a3 a4 a5 a6 a7 a8 a9 a10 = Cert.ReferenceIdeal.Read.val_main_v58 (F := Ideal) a1 a2 a3 a4 a5 a6 a7 a8 a9 a10 := by
  unfold vK
  rw [Cert.ReferenceIdeal.RefVal.v_eq, h1_bridge a1 a2 a3 a4 a5 a6 a7 hb, cast_row]
  refine congrArg _ ?_
  funext i
  obtain ⟨p, q, rfl⟩ : ∃ (p : Fin 1000000) (q : Fin 128), i = ix2 p q := ⟨i 0, i 1, eq_ix2 i⟩
  rw [onehot128 a2 hb, Cert.ReferenceIdeal.RefVal.gather2_eq a1 a2 a3 a4 a5 a6 a7 a10 hb p q, table128_bridge]

/-- The block-by-block column sums over the row count are the column means. -/
theorem mean_bridge (V : FVec Ideal S1000000x128 .f32) : meanOf (blockSums V) = meanRow V := by
  funext i
  unfold meanRow
  rw [colSum_blocks 500 2000 V i]
  rfl

/-- The kernel program's variance is the variance from the moments. -/
theorem var_bridge (V : FVec Ideal S1000000x128 .f32) : varOf (blockSums V) (blockSums (sq V)) = varOfMoments V := by
  funext i
  unfold varOfMoments meanRow
  rw [colSum_blocks 500 2000 V i, colSum_blocks 500 2000 (sq V) i]
  show max (Ideal.div (blockSums (sq V) i) (Ideal.ofBits .f32 0x49742400#32)
      - Ideal.div (blockSums V i) (Ideal.ofBits .f32 0x49742400#32) * Ideal.div (blockSums V i) (Ideal.ofBits .f32 0x49742400#32))
      (Ideal.ofBits .f32 0x00000000#32) = _
  rw [Ideal.ofBits_zero_f32]
  rfl

/-- THE TWO PROGRAMS' RESULTS: equal when every batch word is in [0, 2000) and the second deep-set layer has only real entries
    (the variance from the moments is then the mean squared deviation, and nothing below zero is clipped). -/
theorem out_bridge (hb : ∀ i : S1000000.Idx, 0 ≤ (a2 i).toInt ∧ (a2 i).toInt < 2000)
    (hr : AllReal (Cert.ReferenceIdeal.Read.val_main_v58 (F := Ideal) a1 a2 a3 a4 a5 a6 a7 a8 a9 a10)) :
    outK a0 a1 a2 a3 a4 a5 a6 a7 a8 a9 a10 a11 a12
      = Cert.ReferenceIdeal.Read.val_main_v84 (F := Ideal) a0 a1 a2 a3 a4 a5 a6 a7 a8 a9 a10 a11 a12 := by
  unfold outK
  rw [Cert.ReferenceIdeal.RefVal.out_eq, v_bridge a1 a2 a3 a4 a5 a6 a7 a8 a9 a10 hb, cast_row, cast_row, mean_bridge, var_bridge,
    var_eq _ hr]

end Stages

end Cert.Bridge

end
-- ==== Proof.PreDecode.lean ====
/-
  The precondition decoded. The printed predicate is the conjunction of twelve "every entry has absolute value below
  +infinity" (one per float argument) and of "every batch word is at least 0" and "every batch word is below 2000", both
  read signed. Stated to be all ones at the ideal instance, it says: every float argument is an array of real numbers,
  and every batch word, read signed, lies in [0, 2000).
-/
import proofs.«401850_j66589172957709_2_alg».proof.Pre_finite_inputs
import proofs.«401850_j66589172957709_2_alg».proof.Proof.Gen.Pre_finite_inputs
import proofs.«401850_j66589172957709_2_alg».proof.Proof.Spec
import Idealize.ShloMosaic.Lib.ReduceAll
import Idealize.ShloMosaic.Lib.StableHlo.Predicate

noncomputable section

namespace Cert.PreDecode

open Idealize.ShloMosaic Idealize.ShloMosaic.ValueIdx Cert.Pre_finite_inputs

/-- The scalar shape has one index. -/
instance subsingleton_scalar : Subsingleton S_.Idx := ⟨fun a b => funext fun d => d.elim0⟩

/-- The f32 word 0x7F800000 is +infinity. -/
theorem inf_eq_top : Ideal.ofBits .f32 0x7F800000#32 = (⊤ : EReal) := by simp [Ideal.ofBits, Ideal.ieee]

/-- An extended real whose absolute value max(x, -x) is below +infinity is a real number. -/
theorem real_of_abs_lt_inf (x : EReal)
    (h : Ideal.cmp .olt (max x (-x)) (Ideal.ofBits .f32 0x7F800000#32) = 1#1) : ∃ r : ℝ, x = (r : EReal) := by
  rw [inf_eq_top] at h
  have hlt : max x (-x) < ⊤ := by
    unfold Ideal.cmp at h
    simpa [StableHlo.Predicate.ofBool_eq_one_iff] using h
  induction x using EReal.rec with
  | bot => simp at hlt
  | coe r => exact ⟨r, rfl⟩
  | top => simp at hlt

/-- "All entries of |x| are below +infinity", reduced by conjunction over every axis and found to be 1: every entry of x
    is a real number. -/
theorem allReal_of_all {s : Shape} {axes : List (Fin s.rank)} (x : FVec Ideal s .f32)
    (hb : S_.BroadcastsInDim s (![] : Fin 0 → Fin s.rank)) (hr : s.ReducesTo axes S_) (h0 : 0 < S_.numel)
    (init : IVec S_ 1) (j : S_.Idx)
    (e : Host.reduce IntOp.andi
          (cmpf .olt (Host.absf x) (broadcastInDim s ![] hb (constant (F := Ideal) S_ .f32 0x7F800000#32))) init hr h0 j = 1#1) :
    Cert.Spec.AllReal x := by
  intro i
  exact real_of_abs_lt_inf (x i) (Host.reduce_andi_all _ init hr h0 j e i)

/-- "All words are at least 0, read signed", reduced by conjunction and found to be 1. -/
theorem nonneg_of_all {s : Shape} {axes : List (Fin s.rank)} (x : IVec s 32)
    (hb : S_.BroadcastsInDim s (![] : Fin 0 → Fin s.rank)) (hr : s.ReducesTo axes S_) (h0 : 0 < S_.numel)
    (init : IVec S_ 1) (j : S_.Idx)
    (e : Host.reduce IntOp.andi (cmpi .sge x (broadcastInDim s ![] hb (constantI S_ 32 0#32))) init hr h0 j = 1#1)
    (i : s.Idx) : 0 ≤ (x i).toInt := by
  have hi : IntOp.cmpi .sge (x i) 0#32 = 1#1 := Host.reduce_andi_all _ init hr h0 j e i
  have := IntOp.cmpi_sge.1 hi
  rwa [show (0#32 : BitVec 32).toInt = 0 from by decide] at this

/-- "All words are below 2000, read signed", reduced by conjunction and found to be 1. -/
theorem lt_of_all {s : Shape} {axes : List (Fin s.rank)} (x : IVec s 32)
    (hb : S_.BroadcastsInDim s (![] : Fin 0 → Fin s.rank)) (hr : s.ReducesTo axes S_) (h0 : 0 < S_.numel)
    (init : IVec S_ 1) (j : S_.Idx)
    (e : Host.reduce IntOp.andi (cmpi .slt x (broadcastInDim s ![] hb (constantI S_ 32 2000#32))) init hr h0 j = 1#1)
    (i : s.Idx) : (x i).toInt < 2000 := by
  have hi : IntOp.cmpi .slt (x i) 2000#32 = 1#1 := Host.reduce_andi_all _ init hr h0 j e i
  have := IntOp.cmpi_slt.1 hi
  rwa [show (2000#32 : BitVec 32).toInt = 2000 from by decide] at this

open Cert.Spec (AllReal)

/-- Part 3 of the chain: the conjunction it ends is 1, so the conjunct it was handed is 1, the reduction of the
    comparison it was handed is 1, the last float argument is real, and the batch words lie in [0, 2000). -/
theorem part3 [Facts] (x2 : IVec S1000000 32) (x12 : FVec Ideal S128 .f32) (v48 : IVec S_ 1) (v49 v50 : FVec Ideal S128 .f32)
    (h : fn_part3 (F := Ideal) x2 x12 v48 v49 v50 ix0 = 1#1) :
    v48 ix0 = 1#1
    ∧ Host.reduce IntOp.andi (cmpf .olt v49 v50) (constantI S_ 1 1#1) Facts.reducesTo_S128_S_d0 Facts.h_S_ ix0 = 1#1
    ∧ AllReal x12
    ∧ ∀ i : S1000000.Idx, 0 ≤ (x2 i).toInt ∧ (x2 i).toInt < 2000 := by
  unfold fn_part3 at h
  simp only [andi, IntOp.andi_eq_one] at h
  obtain ⟨⟨⟨⟨h48, h52⟩, h57⟩, h61⟩, h65⟩ := h
  exact ⟨h48, h52, allReal_of_all x12 _ _ _ _ _ h57,
    fun i => ⟨nonneg_of_all x2 _ _ _ _ _ h61 i, lt_of_all x2 _ _ _ _ _ h65 i⟩⟩

/-- Part 2 of the chain. -/
theorem part2 [Facts] (x2 : IVec S1000000 32) (x8 : FVec Ideal S64x128 .f32) (x9 : FVec Ideal S128 .f32)
    (x10 : FVec Ideal S64x128 .f32) (x11 x12 : FVec Ideal S128 .f32) (v33 : IVec S_ 1)
    (h : fn_part2 (F := Ideal) x2 x8 x9 x10 x11 x12 v33 ix0 = 1#1) :
    v33 ix0 = 1#1 ∧ AllReal x8 ∧ AllReal x9 ∧ AllReal x10 ∧ AllReal x11 ∧ AllReal x12
    ∧ ∀ i : S1000000.Idx, 0 ≤ (x2 i).toInt ∧ (x2 i).toInt < 2000 := by
  unfold fn_part2 at h
  dsimp only at h
  obtain ⟨h48, h52, r12, hb⟩ := part3 _ _ _ _ _ h
  simp only [andi, IntOp.andi_eq_one] at h48
  obtain ⟨⟨⟨h33, h37⟩, h42⟩, h47⟩ := h48
  exact ⟨h33, allReal_of_all x8 _ _ _ _ _ h37, allReal_of_all x9 _ _ _ _ _ h42, allReal_of_all x10 _ _ _ _ _ h47,
    allReal_of_all x11 _ _ _ _ _ h52, r12, hb⟩

/-- Part 1 of the chain. -/
theorem part1 [Facts] (x2 : IVec S1000000 32) (x5 : FVec Ideal S64x64 .f32) (x6 : FVec Ideal S64 .f32)
    (x7 : FVec Ideal S64x64 .f32) (x8 : FVec Ideal S64x128 .f32) (x9 : FVec Ideal S128 .f32)
    (x10 : FVec Ideal S64x128 .f32) (x11 x12 : FVec Ideal S128 .f32) (v13 : IVec S_ 1) (v16 : IVec S64 1)
    (h : fn_part1 (F := Ideal) x2 x5 x6 x7 x8 x9 x10 x11 x12 v13 v16 ix0 = 1#1) :
    v13 ix0 = 1#1
    ∧ Host.reduce IntOp.andi v16 (constantI S_ 1 1#1) Facts.reducesTo_S64_S_d0 Facts.h_S_ ix0 = 1#1
    ∧ AllReal x5 ∧ AllReal x6 ∧ AllReal x7 ∧ AllReal x8 ∧ AllReal x9 ∧ AllReal x10 ∧ AllReal x11 ∧ AllReal x12
    ∧ ∀ i : S1000000.Idx, 0 ≤ (x2 i).toInt ∧ (x2 i).toInt < 2000 := by
  unfold fn_part1 at h
  dsimp only at h
  obtain ⟨h33, r8, r9, r10, r11, r12, hb⟩ := part2 _ _ _ _ _ _ _ h
  simp only [andi, IntOp.andi_eq_one] at h33
  obtain ⟨⟨⟨⟨h13, h17⟩, h22⟩, h27⟩, h32⟩ := h33
  exact ⟨h13, h17, allReal_of_all x5 _ _ _ _ _ h22, allReal_of_all x6 _ _ _ _ _ h27, allReal_of_all x7 _ _ _ _ _ h32,
    r8, r9, r10, r11, r12, hb⟩

/-- THE PRECONDITION DECODED: every float argument is an array of real numbers, and every batch word, read signed,
    lies in [0, 2000). -/
theorem decode [Facts] (x0 : FVec Ideal S1000000x128 .f32) (x1 : FVec Ideal S8x1000000x2 .f32) (x2 : IVec S1000000 32)
    (x3 : FVec Ideal S16x64 .f32) (x4 : FVec Ideal S64 .f32) (x5 : FVec Ideal S64x64 .f32) (x6 : FVec Ideal S64 .f32)
    (x7 : FVec Ideal S64x64 .f32) (x8 : FVec Ideal S64x128 .f32) (x9 : FVec Ideal S128 .f32) (x10 : FVec Ideal S64x128 .f32)
    (x11 : FVec Ideal S128 .f32) (x12 : FVec Ideal S128 .f32)
    (h : Cert.Pre_finite_inputs.fn (F := Ideal) x0 x1 x2 x3 x4 x5 x6 x7 x8 x9 x10 x11 x12 = fun _ => 1#1) :
    AllReal x0 ∧ AllReal x1 ∧ AllReal x3 ∧ AllReal x4 ∧ AllReal x5 ∧ AllReal x6 ∧ AllReal x7 ∧ AllReal x8 ∧ AllReal x9
    ∧ AllReal x10 ∧ AllReal x11 ∧ AllReal x12
    ∧ ∀ i : S1000000.Idx, 0 ≤ (x2 i).toInt ∧ (x2 i).toInt < 2000 := by
  have h' := congrFun h ix0
  unfold fn at h'
  dsimp only at h'
  obtain ⟨h13, h17, r5, r6, r7, r8, r9, r10, r11, r12, hb⟩ := part1 _ _ _ _ _ _ _ _ _ _ _ h'
  simp only [andi, IntOp.andi_eq_one] at h13
  obtain ⟨⟨h3, h7⟩, h12⟩ := h13
  exact ⟨allReal_of_all x0 _ _ _ _ _ h3, allReal_of_all x1 _ _ _ _ _ h7, allReal_of_all x3 _ _ _ _ _ h12,
    allReal_of_all x4 _ _ _ _ _ h17, r5, r6, r7, r8, r9, r10, r11, r12, hb⟩

end Cert.PreDecode

end
-- ==== Proof.Finite.lean ====
/-
  Every entry is a real number: the predicate `AllReal` of the specification is preserved by each whole-array
  operation the reference program is built from, read at the ideal instance (a float is an extended real, every
  operation exact).

  * an extended real that is a real stays one under sum, difference, product, maximum and finite sums;
  * elementwise operations, re-indexings (transpose, shape cast, broadcast, gather), contraction, accumulating
    scatter and reduction preserve `AllReal`;
  * a float word whose exponent field is not all ones denotes a real, so the splat constants do;
  * a quotient of reals by a nonzero real (in particular by one that is at least 1) is a real;
  * the specification's own affine / positive-part / indicator-row functions preserve `AllReal`.
-/
import proofs.«401850_j66589172957709_2_alg».proof.Proof.Spec
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-! ## One extended real -/

/-- `x` is a real number: neither infinity. -/
def IsReal (x : EReal) : Prop := ∃ r : ℝ, x = (r : EReal)

theorem allReal_iff {s : Shape} (f : s.Idx → EReal) : AllReal f ↔ ∀ i, IsReal (f i) := Iff.rfl

theorem IsReal.coe (r : ℝ) : IsReal (r : EReal) := ⟨r, rfl⟩
theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- A finite sum of reals is a real. -/
theorem IsReal.sum {ι : Type*} (t : Finset ι) (f : ι → EReal) (h : ∀ i ∈ t, IsReal (f i)) :
    IsReal (∑ i ∈ t, f i) := by
  classical
  induction t using Finset.induction_on with
  | empty => rw [Finset.sum_empty]; exact IsReal.zero
  | insert a t ha ih =>
    rw [Finset.sum_insert ha]
    exact (h a (Finset.mem_insert_self a t)).add (ih fun i hi => h i (Finset.mem_insert_of_mem hi))

/-! ## Elementwise operations -/

section Elementwise
variable {s : Shape} {φ : FTy}

theorem AllReal.addf {a b : FVec Ideal s φ} (ha : AllReal a) (hb : AllReal b) : AllReal (addf a b) :=
  fun i => IsReal.add (ha i) (hb i)

theorem AllReal.subf {a b : FVec Ideal s φ} (ha : AllReal a) (hb : AllReal b) : AllReal (subf a b) :=
  fun i => IsReal.sub (ha i) (hb i)

theorem AllReal.mulf {a b : FVec Ideal s φ} (ha : AllReal a) (hb : AllReal b) : AllReal (mulf a b) :=
  fun i => IsReal.mul (ha i) (hb i)

theorem AllReal.maximumf {a b : FVec Ideal s φ} (ha : AllReal a) (hb : AllReal b) : AllReal (maximumf a b) :=
  fun i => IsReal.max (ha i) (hb i)

end Elementwise

/-! ## Re-indexings: each result element is an operand element -/

theorem AllReal.reindex {s t : Shape} {f : s.Idx → EReal} (hf : AllReal f) (g : t.Idx → s.Idx) :
    AllReal (fun i => f (g i)) :=
  fun i => hf (g i)

theorem AllReal.transpose {s t : Shape} {perm : List (Fin s.rank)} {x : s.Idx → EReal} {h : s.Transposes perm t}
    (hx : AllReal x) : AllReal (transpose t perm x h) :=
  fun j => hx (h.src j)

theorem AllReal.shapeCast {s t : Shape} {x : s.Idx → EReal} {h : s.ShapeCasts t} (hx : AllReal x) :
    AllReal (shapeCast t x h) :=
  fun j => hx (Shape.reshapeEquiv h j)

theorem AllReal.broadcastInDim {s t : Shape} {dims : Fin s.rank → Fin t.rank} {h : s.BroadcastsInDim t dims}
    {x : s.Idx → EReal} (hx : AllReal x) : AllReal (broadcastInDim t dims h x) :=
  fun _ => hx _

theorem AllReal.broadcast {t : Shape} {x : EReal} (hx : IsReal x) : AllReal (broadcast t x) :=
  fun _ => hx

theorem AllReal.gather {s si t : Shape} {w : Nat} {d : GatherDims s si t} {x : s.Idx → EReal} {idx : IVec si w}
    (hx : AllReal x) : AllReal (Host.gather d x idx) :=
  fun j => hx (d.operandIdx j idx)

/-! ## Contraction, accumulating scatter, reduction: finite sums of products / of elements -/

theorem AllReal.dotGeneral {sl sr so : Shape} {φ₁ φ₂ : FTy} {d : DotDims sl sr so} {prec : Option ContractPrecision}
    {l : FVec Ideal sl φ₁} {r : FVec Ideal sr φ₂} (hl : AllReal l) (hr : AllReal r) :
    AllReal (Host.dotGeneral (F := Ideal) d prec l r) := by
  intro j
  show IsReal (FloatOps.dotGeneral d prec .single l r j)
  rw [Ideal.dotGeneral_apply]
  exact IsReal.sum _ _ fun k _ => IsReal.mul (hl _) (hr _)

theorem AllReal.scatterAdd {s si su : Shape} {φ : FTy} {w : Nat} {d : ScatterDims s si su} {x : FVec Ideal s φ}
    {idx : IVec si w} {upd : FVec Ideal su φ} (hx : AllReal x) (hu : AllReal upd) :
    AllReal (Host.scatterAdd (F := Ideal) d x idx upd) := by
  intro i
  show IsReal (x i + ∑ j ∈ Finset.univ.filter (fun j => d.resultIdx? j idx = some i), upd j)
  exact IsReal.add (hx i) (IsReal.sum _ _ fun j _ => hu j)

theorem AllReal.reduceAdd {s t u : Shape} {φ : FTy} {axes : List (Fin s.rank)} {x : FVec Ideal s φ}
    {init : u.Idx → Ideal φ} {h : s.ReducesTo axes t} {hu : 0 < u.numel} (hx : AllReal x) (hi : AllReal init) :
    AllReal (Host.reduceAdd (F := Ideal) x init h hu) := by
  intro j
  show IsReal (init (Shape.Idx.first hu) + ∑ i ∈ Finset.univ.filter (fun i => h.drop i = j), x i)
  exact IsReal.add (hi _) (IsReal.sum _ _ fun i _ => hx i)

/-! ## Constants: a word whose exponent field is not all ones denotes a real -/

/-- A pattern whose exponent field is not all ones (a zero, a subnormal or a normal) denotes a real. -/
theorem ieee_isReal (e m : Nat) {w : Nat} (b : BitVec w) (h : (b.extractLsb' m e).toNat ≠ 2 ^ e - 1) :
    IsReal (Ideal.ieee e m b) := by
  unfold Ideal.ieee
  simp only []
  rw [if_neg h]
  split
  · exact ⟨_, rfl⟩
  · exact ⟨_, rfl⟩

/-- At `f32`: exponent field (bits 23 … 30) not 255. -/
theorem ofBits_f32_isReal (b : BitVec 32) (h : (b.extractLsb' 23 8).toNat ≠ 255) : IsReal (Ideal.ofBits .f32 b) :=
  ieee_isReal 8 23 b h

theorem AllReal.constant_f32 {s : Shape} (b : BitVec 32) (h : (b.extractLsb' 23 8).toNat ≠ 255) :
    AllReal (constant (F := Ideal) s .f32 b) :=
  fun _ => ofBits_f32_isReal b h

/-- `0.0`. -/
theorem AllReal.constant_zero {s : Shape} : AllReal (constant (F := Ideal) s .f32 0x00000000#32) :=
  AllReal.constant_f32 _ (by decide)
/-- `1.0`. -/
theorem AllReal.constant_one {s : Shape} : AllReal (constant (F := Ideal) s .f32 0x3F800000#32) :=
  AllReal.constant_f32 _ (by decide)
/-- `1000000.0`. -/
theorem AllReal.constant_million {s : Shape} : AllReal (constant (F := Ideal) s .f32 0x49742400#32) :=
  AllReal.constant_f32 _ (by decide)
/-- The `f32` nearest `1e-5`. -/
theorem AllReal.constant_eps {s : Shape} : AllReal (constant (F := Ideal) s .f32 0x3727C5AC#32) :=
  AllReal.constant_f32 _ (by decide)

/-- `0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `1000000.0` denotes the real `1000000`. -/
theorem ofBits_million : Ideal.ofBits .f32 0x49742400#32 = ((1000000 : ℝ) : EReal) := by
  simp [Ideal.ofBits, Ideal.ieee, -EReal.coe_mul]; norm_num

/-- The row count, `1000000.0`, as a real. -/
theorem million_coe : million = ((1000000 : ℝ) : EReal) := ofBits_million

theorem million_isReal : IsReal million := ⟨_, million_coe⟩

theorem eps_isReal : IsReal eps := ofBits_f32_isReal _ (by decide)

/-! ## Quotients -/

/-- A real over a nonzero real is a real. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun hb => h0 (by rw [hb, EReal.coe_zero])
  rw [Ideal.div_coe hb]
  exact IsReal.mul ⟨a, rfl⟩ ⟨1 / b, rfl⟩

/-- A real over a real that is at least `1` is a real. -/
theorem IsReal.div_of_one_le {x y : EReal} (hx : IsReal x) (hy : IsReal y) (h1 : (1 : EReal) ≤ y) :
    IsReal (Ideal.div x y) :=
  IsReal.div hx hy fun h0 => by
    rw [h0] at h1
    exact absurd h1 (not_le.mpr zero_lt_one)

theorem AllReal.hostDivf_of_ne_zero {s : Shape} {φ : FTy} {a b : FVec Ideal s φ} (ha : AllReal a) (hb : AllReal b)
    (h0 : ∀ i, b i ≠ 0) : AllReal (Host.divf a b) :=
  fun i => IsReal.div (ha i) (hb i) (h0 i)

theorem AllReal.hostDivf_of_ge_one {s : Shape} {φ : FTy} {a b : FVec Ideal s φ} (ha : AllReal a) (hb : AllReal b)
    (h1 : ∀ i, (1 : EReal) ≤ b i) : AllReal (Host.divf a b) :=
  fun i => IsReal.div_of_one_le (ha i) (hb i) (h1 i)

/-- Division by the splat of `1000000.0`, however it is broadcast. -/
theorem IsReal.div_million {x : EReal} (hx : IsReal x) : IsReal (Ideal.div x million) :=
  IsReal.div hx million_isReal (by rw [million_coe]; exact EReal.coe_ne_zero.mpr (by norm_num))

/-! ## An array that is at least `1` everywhere -/

/-- The splat of `1.0` is at least `1`. -/
theorem one_le_constant_one {s : Shape} (i : s.Idx) : (1 : EReal) ≤ constant (F := Ideal) s .f32 0x3F800000#32 i := by
  show (1 : EReal) ≤ Ideal.ofBits .f32 0x3F800000#32
  rw [ofBits_one]

/-- A maximum with an array that is at least `1` is at least `1`. -/
theorem one_le_maximumf_right {s : Shape} {φ : FTy} {a b : FVec Ideal s φ} (hb : ∀ i, (1 : EReal) ≤ b i) (i : s.Idx) :
    (1 : EReal) ≤ maximumf a b i :=
  le_max_of_le_right (hb i)

theorem one_le_maximumf_left {s : Shape} {φ : FTy} {a b : FVec Ideal s φ} (ha : ∀ i, (1 : EReal) ≤ a i) (i : s.Idx) :
    (1 : EReal) ≤ maximumf a b i :=
  le_max_of_le_left (ha i)

/-- A re-indexing of an array that is at least `1` is at least `1`. -/
theorem one_le_reindex {s t : Shape} {f : s.Idx → EReal} (hf : ∀ i, (1 : EReal) ≤ f i) (g : t.Idx → s.Idx) (i : t.Idx) :
    (1 : EReal) ≤ f (g i) :=
  hf (g i)

theorem one_le_broadcastInDim {s t : Shape} {dims : Fin s.rank → Fin t.rank} {h : s.BroadcastsInDim t dims}
    {x : s.Idx → EReal} (hx : ∀ i, (1 : EReal) ≤ x i) (j : t.Idx) : (1 : EReal) ≤ broadcastInDim t dims h x j :=
  hx _

/-- The count array as the reference clips it, `max(cnt, 1)` with the `1` a broadcast splat, is at least `1`. -/
theorem one_le_maximumf_one {s t : Shape} {dims : Fin s.rank → Fin t.rank} {h : s.BroadcastsInDim t dims}
    {a : FVec Ideal t .f32} (i : t.Idx) :
    (1 : EReal) ≤ maximumf a (broadcastInDim t dims h (constant (F := Ideal) s .f32 0x3F800000#32)) i :=
  one_le_maximumf_right (one_le_broadcastInDim one_le_constant_one) i

/-! ## The positive part, as the reference writes it: a maximum with a broadcast splat of `0.0` -/

theorem AllReal.relu {s t : Shape} {dims : Fin s.rank → Fin t.rank} {h : s.BroadcastsInDim t dims}
    {x : FVec Ideal t .f32} (hx : AllReal x) :
    AllReal (Idealize.ShloMosaic.maximumf x
      (Idealize.ShloMosaic.broadcastInDim t dims h (constant (F := Ideal) s .f32 0x00000000#32))) :=
  AllReal.maximumf hx (AllReal.broadcastInDim AllReal.constant_zero)

/-- … and its value at an index: the maximum with `0`. -/
theorem relu_apply {s t : Shape} {dims : Fin s.rank → Fin t.rank} {h : s.BroadcastsInDim t dims}
    (x : FVec Ideal t .f32) (i : t.Idx) :
    maximumf x (broadcastInDim t dims h (constant (F := Ideal) s .f32 0x00000000#32)) i = max (x i) 0 := by
  show max (x i) (Ideal.ofBits .f32 0x00000000#32) = max (x i) 0
  rw [ofBits_zero]

/-! ## The specification's functions -/

section SpecFunctions
variable {n k m t : Nat}

theorem AllReal.lin {A : A2 n k} {W : A2 k m} {b : A2 1 m} (hA : AllReal A) (hW : AllReal W) (hb : AllReal b) :
    AllReal (lin A W b) :=
  fun _ => IsReal.add (IsReal.sum _ _ fun _ _ => IsReal.mul (hA _) (hW _)) (hb _)

theorem AllReal.reluLin {A : A2 n k} {W : A2 k m} {b : A2 1 m} (hA : AllReal A) (hW : AllReal W) (hb : AllReal b) :
    AllReal (reluLin A W b) :=
  fun i => IsReal.max (AllReal.lin hA hW hb i) IsReal.zero

theorem AllReal.reluLinSub {A : A2 n k} {W : A2 k m} {b : A2 1 m} {g : A2 n m} (hA : AllReal A) (hW : AllReal W)
    (hb : AllReal b) (hg : AllReal g) : AllReal (reluLinSub A W b g) :=
  fun i => IsReal.max (IsReal.sub (AllReal.lin hA hW hb i) (hg i)) IsReal.zero

theorem AllReal.onehotRows {bt : W2 n 1} {P : A2 t m} (hP : AllReal P) : AllReal (onehotRows bt P) :=
  fun _ => IsReal.sum _ _ fun _ _ => IsReal.mul (by split_ifs; exacts [IsReal.one, IsReal.zero]) (hP _)

theorem AllReal.colSum {v : A2 n m} (hv : AllReal v) : AllReal (colSum v) :=
  fun _ => IsReal.sum _ _ fun _ _ => hv _

theorem AllReal.sq {v : A2 n m} (hv : AllReal v) : AllReal (sq v) :=
  fun i => IsReal.mul (hv i) (hv i)

theorem AllReal.meanRow {v : A2 n m} (hv : AllReal v) : AllReal (meanRow v) :=
  fun i => IsReal.div_million (AllReal.colSum hv i)

theorem AllReal.varOfMoments {v : A2 n m} (hv : AllReal v) : AllReal (varOfMoments v) :=
  fun i => IsReal.max
    (IsReal.sub (IsReal.div_million (AllReal.colSum (AllReal.sq hv) i))
      (IsReal.mul (AllReal.meanRow hv i) (AllReal.meanRow hv i)))
    IsReal.zero

theorem AllReal.varOfDeviations {v : A2 n m} (hv : AllReal v) : AllReal (varOfDeviations v) :=
  fun i => IsReal.div_million (IsReal.sum _ _ fun _ _ =>
    IsReal.mul (IsReal.sub (hv _) (AllReal.meanRow hv i)) (IsReal.sub (hv _) (AllReal.meanRow hv i)))

theorem AllReal.rowOf {b : (⟨1, ![m]⟩ : Shape).Idx → EReal} (hb : AllReal b) : AllReal (rowOf b) :=
  fun _ => hb _

end SpecFunctions

/-! ## Signs: what keeps the reciprocal square root's argument positive -/

/-- The `f32` nearest `1e-5` is positive. -/
theorem eps_pos : (0 : EReal) < eps := by
  unfold eps
  simp [Ideal.ofBits, Ideal.ieee, -EReal.coe_mul]

/-- The square of a real is not negative. -/
theorem IsReal.mul_self_nonneg {x : EReal} (hx : IsReal x) : (0 : EReal) ≤ x * x := by
  obtain ⟨a, rfl⟩ := hx
  rw [← EReal.coe_mul, ← EReal.coe_zero, EReal.coe_le_coe_iff]
  exact _root_.mul_self_nonneg a

/-- A quotient of a non-negative extended real by `1000000` is not negative. -/
theorem div_million_nonneg {x : EReal} (hx : (0 : EReal) ≤ x) : (0 : EReal) ≤ Ideal.div x million := by
  rw [million_coe, Ideal.div_coe (by norm_num)]
  exact mul_nonneg hx (by rw [← EReal.coe_zero, EReal.coe_le_coe_iff]; norm_num)

/-- A non-negative extended real plus the positive `eps` is positive. -/
theorem add_eps_pos {x : EReal} (hx : (0 : EReal) ≤ x) : (0 : EReal) < x + eps :=
  lt_of_lt_of_le eps_pos (le_add_of_nonneg_left hx)

/-- The reciprocal square root of a positive real is a real. -/
theorem IsReal.rsqrt_of_pos {x : EReal} (hx : IsReal x) (h0 : (0 : EReal) < x) : IsReal (Ideal.rsqrt x) := by
  obtain ⟨a, rfl⟩ := hx
  have ha : 0 < a := EReal.coe_pos.mp h0
  rw [Ideal.rsqrt_coe, if_neg (not_lt.mpr ha.le), if_neg ha.ne']
  exact ⟨_, rfl⟩

theorem AllReal.hostRsqrt_of_pos {s : Shape} {φ : FTy} {a : FVec Ideal s φ} (ha : AllReal a)
    (h0 : ∀ i, (0 : EReal) < a i) : AllReal (Host.rsqrt a) :=
  fun i => IsReal.rsqrt_of_pos (ha i) (h0 i)

theorem nonneg_varOfMoments {n m : Nat} (v : A2 n m) (i : (⟨2, ![1, m]⟩ : Shape).Idx) :
    (0 : EReal) ≤ varOfMoments v i :=
  le_max_right _ _

theorem nonneg_varOfDeviations {n m : Nat} {v : A2 n m} (hv : AllReal v) (i : (⟨2, ![1, m]⟩ : Shape).Idx) :
    (0 : EReal) ≤ varOfDeviations v i :=
  div_million_nonneg (Finset.sum_nonneg fun _ _ => IsReal.mul_self_nonneg (IsReal.sub (hv _) (AllReal.meanRow hv i)))

theorem AllReal.normalize {n m : Nat} {v x : A2 n m} {mu var gam bet : A2 1 m} (hv : AllReal v) (hx : AllReal x)
    (hmu : AllReal mu) (hvar : AllReal var) (hvar0 : ∀ i, (0 : EReal) ≤ var i) (hgam : AllReal gam)
    (hbet : AllReal bet) : AllReal (normalize v x mu var gam bet) :=
  fun i => IsReal.add (hx i)
    (IsReal.add
      (IsReal.mul (IsReal.mul (hgam _) (IsReal.sub (hv i) (hmu _)))
        (IsReal.rsqrt_of_pos (IsReal.add (hvar _) eps_isReal) (add_eps_pos (hvar0 _))))
      (hbet _))

/-! ## The same facts on the arrays the reference builds: division by the splat of `1000000.0`, the sum of squares,
    the shift by the splat of `eps` -/

section Arrays
variable {s t : Shape} {dims : Fin s.rank → Fin t.rank} {h : s.BroadcastsInDim t dims}

/-- A quotient by the broadcast splat of `1000000.0`, at an index. -/
theorem hostDivf_million_apply (a : FVec Ideal t .f32) (i : t.Idx) :
    Host.divf a (broadcastInDim t dims h (constant (F := Ideal) s .f32 0x49742400#32)) i = Ideal.div (a i) million :=
  rfl

theorem AllReal.hostDivf_million {a : FVec Ideal t .f32} (ha : AllReal a) :
    AllReal (Host.divf a (Idealize.ShloMosaic.broadcastInDim t dims h (constant (F := Ideal) s .f32 0x49742400#32))) :=
  fun i => IsReal.div_million (ha i)

theorem hostDivf_million_nonneg {a : FVec Ideal t .f32} (ha : ∀ i, (0 : EReal) ≤ a i) (i : t.Idx) :
    (0 : EReal) ≤ Host.divf a (broadcastInDim t dims h (constant (F := Ideal) s .f32 0x49742400#32)) i :=
  div_million_nonneg (ha i)

/-- A sum with the broadcast splat of `eps`, at an index. -/
theorem addf_eps_apply (a : FVec Ideal t .f32) (i : t.Idx) :
    addf a (broadcastInDim t dims h (constant (F := Ideal) s .f32 0x3727C5AC#32)) i = a i + eps :=
  rfl

theorem addf_eps_pos {a : FVec Ideal t .f32} (ha : ∀ i, (0 : EReal) ≤ a i) (i : t.Idx) :
    (0 : EReal) < addf a (broadcastInDim t dims h (constant (F := Ideal) s .f32 0x3727C5AC#32)) i :=
  add_eps_pos (ha i)

end Arrays

/-- The splat of `0.0` is not negative. -/
theorem constant_zero_nonneg {s : Shape} (i : s.Idx) : (0 : EReal) ≤ constant (F := Ideal) s .f32 0x00000000#32 i := by
  show (0 : EReal) ≤ Ideal.ofBits .f32 0x00000000#32
  rw [ofBits_zero]

/-- The entrywise square of an array of reals is not negative. -/
theorem mulf_self_nonneg {s : Shape} {φ : FTy} {a : FVec Ideal s φ} (ha : AllReal a) (i : s.Idx) :
    (0 : EReal) ≤ mulf a a i :=
  IsReal.mul_self_nonneg (ha i)

/-- A sum of non-negative entries from a non-negative initial value is not negative. -/
theorem reduceAdd_nonneg {s t u : Shape} {φ : FTy} {axes : List (Fin s.rank)} {x : FVec Ideal s φ}
    {init : u.Idx → Ideal φ} {h : s.ReducesTo axes t} {hu : 0 < u.numel} (hx : ∀ i, (0 : EReal) ≤ x i)
    (hi : ∀ i, (0 : EReal) ≤ init i) (j : t.Idx) : (0 : EReal) ≤ Host.reduceAdd (F := Ideal) x init h hu j := by
  show (0 : EReal) ≤ init (Shape.Idx.first hu) + ∑ i ∈ Finset.univ.filter (fun i => h.drop i = j), x i
  exact add_nonneg (hi _) (Finset.sum_nonneg fun i _ => hx i)

/-- A non-negative array stays so under a re-indexing. -/
theorem nonneg_broadcastInDim {s t : Shape} {dims : Fin s.rank → Fin t.rank} {h : s.BroadcastsInDim t dims}
    {x : s.Idx → EReal} (hx : ∀ i, (0 : EReal) ≤ x i) (j : t.Idx) : (0 : EReal) ≤ broadcastInDim t dims h x j :=
  hx _

end Cert.Spec

end
-- ==== Proof.RefFinite.lean ====
/-
  Every entry of the reference program's third-stage output is a real number when every entry of its float
  arguments is: each operation of the program, in program order, keeps "every entry is a real number" — a
  re-indexing reads operand entries, a contraction and an accumulating scatter take finite sums of products and of
  entries, the positive part is a maximum with 0, and the per-batch mean divides by a count clipped below at 1.
-/
import proofs.«401850_j66589172957709_2_alg».proof.Proof.Gen.ReferenceIdeal.Read
import proofs.«401850_j66589172957709_2_alg».proof.Proof.Spec
import proofs.«401850_j66589172957709_2_alg».proof.Proof.Finite

noncomputable section

namespace Cert.ReferenceIdeal.RefVal

open Cert.ReferenceIdeal Cert.ReferenceIdeal.Gen Cert.ReferenceIdeal.Read Cert.Spec Idealize.ShloMosaic Idealize.SL.Sem

variable (x1 : (⟨S8x1000000x2, .f32⟩ : BufTy).Contents (Elt Ideal)) (x2 : (⟨S1000000, .i32⟩ : BufTy).Contents (Elt Ideal))
  (x3 : (⟨S16x64, .f32⟩ : BufTy).Contents (Elt Ideal)) (x4 : (⟨S64, .f32⟩ : BufTy).Contents (Elt Ideal))
  (x5 : (⟨S64x64, .f32⟩ : BufTy).Contents (Elt Ideal)) (x6 : (⟨S64, .f32⟩ : BufTy).Contents (Elt Ideal))
  (x7 : (⟨S64x64, .f32⟩ : BufTy).Contents (Elt Ideal)) (x8 : (⟨S64x128, .f32⟩ : BufTy).Contents (Elt Ideal))
  (x9 : (⟨S128, .f32⟩ : BufTy).Contents (Elt Ideal)) (x10 : (⟨S64x128, .f32⟩ : BufTy).Contents (Elt Ideal))

/-! ## The first stage: the node features projected, max(A·W + b, 0) -/

theorem v0_real (h1 : AllReal x1) : AllReal (val_main_v0 (F := Ideal) x1) := by
  unfold val_main_v0; exact AllReal.transpose h1

theorem v1_real (h1 : AllReal x1) : AllReal (val_main_v1 (F := Ideal) x1) := by
  unfold val_main_v1; exact AllReal.shapeCast (v0_real x1 h1)

theorem v2_real (h1 : AllReal x1) (h3 : AllReal x3) : AllReal (val_main_v2 (F := Ideal) x1 x3) := by
  unfold val_main_v2; exact AllReal.dotGeneral (v1_real x1 h1) h3

theorem v3_real (h4 : AllReal x4) : AllReal (val_main_v3 (F := Ideal) x4) := by
  unfold val_main_v3; exact AllReal.broadcastInDim h4

theorem v4_real (h4 : AllReal x4) : AllReal (val_main_v4 (F := Ideal) x4) := by
  unfold val_main_v4; exact AllReal.broadcastInDim (v3_real x4 h4)

theorem v5_real (h1 : AllReal x1) (h3 : AllReal x3) (h4 : AllReal x4) : AllReal (val_main_v5 (F := Ideal) x1 x3 x4) := by
  unfold val_main_v5; exact AllReal.addf (v2_real x1 x3 h1 h3) (v4_real x4 h4)

theorem call0_cst_real : AllReal (val_main_call0_cst (F := Ideal)) := by
  unfold val_main_call0_cst; exact AllReal.constant_zero

theorem call0_v0_real : AllReal (val_main_call0_v0 (F := Ideal)) := by
  unfold val_main_call0_v0; exact AllReal.broadcastInDim call0_cst_real

theorem v6_real (h1 : AllReal x1) (h3 : AllReal x3) (h4 : AllReal x4) : AllReal (val_main_v6 (F := Ideal) x1 x3 x4) := by
  unfold val_main_v6; exact AllReal.maximumf (v5_real x1 x3 x4 h1 h3 h4) call0_v0_real

/-! ## The first per-batch mean: sums by batch over counts clipped below at 1 -/

theorem cst_real : AllReal (val_main_cst (F := Ideal)) := by
  unfold val_main_cst; exact AllReal.constant_zero

theorem v7_real : AllReal (val_main_v7 (F := Ideal)) := by
  unfold val_main_v7; exact AllReal.broadcastInDim cst_real

theorem v9_real (h1 : AllReal x1) (h3 : AllReal x3) (h4 : AllReal x4) : AllReal (val_main_v9 (F := Ideal) x1 x2 x3 x4) := by
  unfold val_main_v9; exact AllReal.scatterAdd v7_real (v6_real x1 x3 x4 h1 h3 h4)

theorem cst_0_real : AllReal (val_main_cst_0 (F := Ideal)) := by
  unfold val_main_cst_0; exact AllReal.constant_one

theorem v10_real : AllReal (val_main_v10 (F := Ideal)) := by
  unfold val_main_v10; exact AllReal.broadcastInDim cst_0_real

theorem cst_1_real : AllReal (val_main_cst_1 (F := Ideal)) := by
  unfold val_main_cst_1; exact AllReal.constant_zero

theorem v11_real : AllReal (val_main_v11 (F := Ideal)) := by
  unfold val_main_v11; exact AllReal.broadcastInDim cst_1_real

theorem v13_real : AllReal (val_main_v13 (F := Ideal) x2) := by
  unfold val_main_v13; exact AllReal.scatterAdd v11_real v10_real

theorem cst_2_real : AllReal (val_main_cst_2 (F := Ideal)) := by
  unfold val_main_cst_2; exact AllReal.constant_one

theorem v14_real : AllReal (val_main_v14 (F := Ideal)) := by
  unfold val_main_v14; exact AllReal.broadcastInDim cst_2_real

theorem v15_real : AllReal (val_main_v15 (F := Ideal) x2) := by
  unfold val_main_v15; exact AllReal.maximumf (v13_real x2) v14_real

theorem one_le_v15 (i : S2000.Idx) : (1 : EReal) ≤ (val_main_v15 (F := Ideal) x2 i : EReal) := by
  unfold val_main_v15 val_main_v14 val_main_cst_2; exact one_le_maximumf_one i

theorem v16_real : AllReal (val_main_v16 (F := Ideal) x2) := by
  unfold val_main_v16; exact AllReal.broadcastInDim (v15_real x2)

theorem one_le_v16 (i : S2000x1.Idx) : (1 : EReal) ≤ (val_main_v16 (F := Ideal) x2 i : EReal) := by
  unfold val_main_v16; exact one_le_broadcastInDim (one_le_v15 x2) i

theorem v17_real : AllReal (val_main_v17 (F := Ideal) x2) := by
  unfold val_main_v17; exact AllReal.broadcastInDim (v16_real x2)

theorem one_le_v17 (i : S2000x64.Idx) : (1 : EReal) ≤ (val_main_v17 (F := Ideal) x2 i : EReal) := by
  unfold val_main_v17; exact one_le_broadcastInDim (one_le_v16 x2) i

theorem v18_real (h1 : AllReal x1) (h3 : AllReal x3) (h4 : AllReal x4) : AllReal (val_main_v18 (F := Ideal) x1 x2 x3 x4) := by
  unfold val_main_v18
  exact AllReal.hostDivf_of_ge_one (v9_real x1 x2 x3 x4 h1 h3 h4) (v17_real x2) (one_le_v17 x2)

/-! ## The second stage: max(A·W + b − (mean·W')[batch], 0) -/

theorem v19_real (h1 : AllReal x1) (h3 : AllReal x3) (h4 : AllReal x4) (h7 : AllReal x7) :
    AllReal (val_main_v19 (F := Ideal) x1 x2 x3 x4 x7) := by
  unfold val_main_v19; exact AllReal.dotGeneral (v18_real x1 x2 x3 x4 h1 h3 h4) h7

theorem v20_real (h1 : AllReal x1) (h3 : AllReal x3) (h4 : AllReal x4) (h5 : AllReal x5) :
    AllReal (val_main_v20 (F := Ideal) x1 x3 x4 x5) := by
  unfold val_main_v20; exact AllReal.dotGeneral (v6_real x1 x3 x4 h1 h3 h4) h5

theorem v21_real (h6 : AllReal x6) : AllReal (val_main_v21 (F := Ideal) x6) := by
  unfold val_main_v21; exact AllReal.broadcastInDim h6

theorem v22_real (h6 : AllReal x6) : AllReal (val_main_v22 (F := Ideal) x6) := by
  unfold val_main_v22; exact AllReal.broadcastInDim (v21_real x6 h6)

theorem v23_real (h1 : AllReal x1) (h3 : AllReal x3) (h4 : AllReal x4) (h5 : AllReal x5) (h6 : AllReal x6) :
    AllReal (val_main_v23 (F := Ideal) x1 x3 x4 x5 x6) := by
  unfold val_main_v23; exact AllReal.addf (v20_real x1 x3 x4 x5 h1 h3 h4 h5) (v22_real x6 h6)

theorem v30_real (h1 : AllReal x1) (h3 : AllReal x3) (h4 : AllReal x4) (h7 : AllReal x7) :
    AllReal (val_main_v30 (F := Ideal) x1 x2 x3 x4 x7) := by
  unfold val_main_v30; exact AllReal.gather (v19_real x1 x2 x3 x4 x7 h1 h3 h4 h7)

theorem v31_real (h1 : AllReal x1) (h3 : AllReal x3) (h4 : AllReal x4) (h5 : AllReal x5) (h6 : AllReal x6)
    (h7 : AllReal x7) : AllReal (val_main_v31 (F := Ideal) x1 x2 x3 x4 x5 x6 x7) := by
  unfold val_main_v31
  exact AllReal.subf (v23_real x1 x3 x4 x5 x6 h1 h3 h4 h5 h6) (v30_real x1 x2 x3 x4 x7 h1 h3 h4 h7)

theorem call1_cst_real : AllReal (val_main_call1_cst (F := Ideal)) := by
  unfold val_main_call1_cst; exact AllReal.constant_zero

theorem call1_v0_real : AllReal (val_main_call1_v0 (F := Ideal)) := by
  unfold val_main_call1_v0; exact AllReal.broadcastInDim call1_cst_real

theorem v32_real (h1 : AllReal x1) (h3 : AllReal x3) (h4 : AllReal x4) (h5 : AllReal x5) (h6 : AllReal x6)
    (h7 : AllReal x7) : AllReal (val_main_v32 (F := Ideal) x1 x2 x3 x4 x5 x6 x7) := by
  unfold val_main_v32
  exact AllReal.maximumf (v31_real x1 x2 x3 x4 x5 x6 x7 h1 h3 h4 h5 h6 h7) call1_v0_real

/-! ## The second per-batch mean -/

theorem cst_4_real : AllReal (val_main_cst_4 (F := Ideal)) := by
  unfold val_main_cst_4; exact AllReal.constant_zero

theorem v33_real : AllReal (val_main_v33 (F := Ideal)) := by
  unfold val_main_v33; exact AllReal.broadcastInDim cst_4_real

theorem v35_real (h1 : AllReal x1) (h3 : AllReal x3) (h4 : AllReal x4) (h5 : AllReal x5) (h6 : AllReal x6)
    (h7 : AllReal x7) : AllReal (val_main_v35 (F := Ideal) x1 x2 x3 x4 x5 x6 x7) := by
  unfold val_main_v35
  exact AllReal.scatterAdd v33_real (v32_real x1 x2 x3 x4 x5 x6 x7 h1 h3 h4 h5 h6 h7)

theorem cst_5_real : AllReal (val_main_cst_5 (F := Ideal)) := by
  unfold val_main_cst_5; exact AllReal.constant_one

theorem v36_real : AllReal (val_main_v36 (F := Ideal)) := by
  unfold val_main_v36; exact AllReal.broadcastInDim cst_5_real

theorem cst_6_real : AllReal (val_main_cst_6 (F := Ideal)) := by
  unfold val_main_cst_6; exact AllReal.constant_zero

theorem v37_real : AllReal (val_main_v37 (F := Ideal)) := by
  unfold val_main_v37; exact AllReal.broadcastInDim cst_6_real

theorem v39_real : AllReal (val_main_v39 (F := Ideal) x2) := by
  unfold val_main_v39; exact AllReal.scatterAdd v37_real v36_real

theorem cst_7_real : AllReal (val_main_cst_7 (F := Ideal)) := by
  unfold val_main_cst_7; exact AllReal.constant_one

theorem v40_real : AllReal (val_main_v40 (F := Ideal)) := by
  unfold val_main_v40; exact AllReal.broadcastInDim cst_7_real

theorem v41_real : AllReal (val_main_v41 (F := Ideal) x2) := by
  unfold val_main_v41; exact AllReal.maximumf (v39_real x2) v40_real

theorem one_le_v41 (i : S2000.Idx) : (1 : EReal) ≤ (val_main_v41 (F := Ideal) x2 i : EReal) := by
  unfold val_main_v41 val_main_v40 val_main_cst_7; exact one_le_maximumf_one i

theorem v42_real : AllReal (val_main_v42 (F := Ideal) x2) := by
  unfold val_main_v42; exact AllReal.broadcastInDim (v41_real x2)

theorem one_le_v42 (i : S2000x1.Idx) : (1 : EReal) ≤ (val_main_v42 (F := Ideal) x2 i : EReal) := by
  unfold val_main_v42; exact one_le_broadcastInDim (one_le_v41 x2) i

theorem v43_real : AllReal (val_main_v43 (F := Ideal) x2) := by
  unfold val_main_v43; exact AllReal.broadcastInDim (v42_real x2)

theorem one_le_v43 (i : S2000x64.Idx) : (1 : EReal) ≤ (val_main_v43 (F := Ideal) x2 i : EReal) := by
  unfold val_main_v43; exact one_le_broadcastInDim (one_le_v42 x2) i

theorem v44_real (h1 : AllReal x1) (h3 : AllReal x3) (h4 : AllReal x4) (h5 : AllReal x5) (h6 : AllReal x6)
    (h7 : AllReal x7) : AllReal (val_main_v44 (F := Ideal) x1 x2 x3 x4 x5 x6 x7) := by
  unfold val_main_v44
  exact AllReal.hostDivf_of_ge_one (v35_real x1 x2 x3 x4 x5 x6 x7 h1 h3 h4 h5 h6 h7) (v43_real x2) (one_le_v43 x2)

/-! ## The third stage -/

theorem v45_real (h1 : AllReal x1) (h3 : AllReal x3) (h4 : AllReal x4) (h5 : AllReal x5) (h6 : AllReal x6)
    (h7 : AllReal x7) (h10 : AllReal x10) : AllReal (val_main_v45 (F := Ideal) x1 x2 x3 x4 x5 x6 x7 x10) := by
  unfold val_main_v45
  exact AllReal.dotGeneral (v44_real x1 x2 x3 x4 x5 x6 x7 h1 h3 h4 h5 h6 h7) h10

theorem v46_real (h1 : AllReal x1) (h3 : AllReal x3) (h4 : AllReal x4) (h5 : AllReal x5) (h6 : AllReal x6)
    (h7 : AllReal x7) (h8 : AllReal x8) : AllReal (val_main_v46 (F := Ideal) x1 x2 x3 x4 x5 x6 x7 x8) := by
  unfold val_main_v46
  exact AllReal.dotGeneral (v32_real x1 x2 x3 x4 x5 x6 x7 h1 h3 h4 h5 h6 h7) h8

theorem v47_real (h9 : AllReal x9) : AllReal (val_main_v47 (F := Ideal) x9) := by
  unfold val_main_v47; exact AllReal.broadcastInDim h9

theorem v48_real (h9 : AllReal x9) : AllReal (val_main_v48 (F := Ideal) x9) := by
  unfold val_main_v48; exact AllReal.broadcastInDim (v47_real x9 h9)

theorem v49_real (h1 : AllReal x1) (h3 : AllReal x3) (h4 : AllReal x4) (h5 : AllReal x5) (h6 : AllReal x6)
    (h7 : AllReal x7) (h8 : AllReal x8) (h9 : AllReal x9) :
    AllReal (val_main_v49 (F := Ideal) x1 x2 x3 x4 x5 x6 x7 x8 x9) := by
  unfold val_main_v49
  exact AllReal.addf (v46_real x1 x2 x3 x4 x5 x6 x7 x8 h1 h3 h4 h5 h6 h7 h8) (v48_real x9 h9)

theorem v56_real (h1 : AllReal x1) (h3 : AllReal x3) (h4 : AllReal x4) (h5 : AllReal x5) (h6 : AllReal x6)
    (h7 : AllReal x7) (h10 : AllReal x10) : AllReal (val_main_v56 (F := Ideal) x1 x2 x3 x4 x5 x6 x7 x10) := by
  unfold val_main_v56
  exact AllReal.gather (v45_real x1 x2 x3 x4 x5 x6 x7 x10 h1 h3 h4 h5 h6 h7 h10)

theorem v57_real (h1 : AllReal x1) (h3 : AllReal x3) (h4 : AllReal x4) (h5 : AllReal x5) (h6 : AllReal x6)
    (h7 : AllReal x7) (h8 : AllReal x8) (h9 : AllReal x9) (h10 : AllReal x10) :
    AllReal (val_main_v57 (F := Ideal) x1 x2 x3 x4 x5 x6 x7 x8 x9 x10) := by
  unfold val_main_v57
  exact AllReal.subf (v49_real x1 x2 x3 x4 x5 x6 x7 x8 x9 h1 h3 h4 h5 h6 h7 h8 h9)
    (v56_real x1 x2 x3 x4 x5 x6 x7 x10 h1 h3 h4 h5 h6 h7 h10)

theorem call2_cst_real : AllReal (val_main_call2_cst (F := Ideal)) := by
  unfold val_main_call2_cst; exact AllReal.constant_zero

theorem call2_v0_real : AllReal (val_main_call2_v0 (F := Ideal)) := by
  unfold val_main_call2_v0; exact AllReal.broadcastInDim call2_cst_real

/-- Every entry of the third stage's output, the array the column statistics are taken of, is a real number. -/
theorem v_real (h1 : AllReal x1) (h3 : AllReal x3) (h4 : AllReal x4) (h5 : AllReal x5) (h6 : AllReal x6)
    (h7 : AllReal x7) (h8 : AllReal x8) (h9 : AllReal x9) (h10 : AllReal x10) :
    AllReal (val_main_v58 (F := Ideal) x1 x2 x3 x4 x5 x6 x7 x8 x9 x10) := by
  unfold val_main_v58
  exact AllReal.maximumf (v57_real x1 x2 x3 x4 x5 x6 x7 x8 x9 x10 h1 h3 h4 h5 h6 h7 h8 h9 h10) call2_v0_real

end Cert.ReferenceIdeal.RefVal

end
-- ==== Proof.lean ====
/-
  The certificate: a deep-set network over persistence pairs (a linear projection with relu, two deep-set layers — a
  linear map of each node's features minus the projected mean of its graph's nodes, with relu — and a batch normalisation
  with a residual), computed by four tiled kernels with host segment sums between them, equals its whole-array reference
  over the extended reals, for finite float inputs and graph numbers in [0, 2000).

  The graph numbers must be in range: the reference reads the table of graph means at the node's (clamped) graph number,
  the kernels multiply the table, padded with zero rows to 2048, by the indicator row of the graph number, and the two agree
  exactly when 0 ≤ batch < 2000. The float inputs must be finite: the kernels take the variance as the mean of squares minus the
  squared mean, clipped at 0, the reference as the mean squared deviation; these are one number over the reals and not
  when an entry is infinite.

  The three frames are the generated frame certificates (the reference's is its generated run with the result dropped);
  no operation was rewritten by the idealisation, so nothing is to be preserved; the value claim names the kernel program's
  result buffer after its run (the launch over the same segments, stated with that buffer in the post), reads it as the four
  regions' whole-array functions composed with the host operations, reads the reference's generated run stage by stage as the
  same functions, and joins the two.
-/
import proofs.«401850_j66589172957709_2_alg».proof.Defs
import proofs.«401850_j66589172957709_2_alg».proof.Proof.Gen.Kernel
import proofs.«401850_j66589172957709_2_alg».proof.Proof.Gen.Kernel.Skeleton
import proofs.«401850_j66589172957709_2_alg».proof.Proof.Gen.Kernel.Launch
import proofs.«401850_j66589172957709_2_alg».proof.Proof.Gen.Kernel.Points
import proofs.«401850_j66589172957709_2_alg».proof.Proof.Gen.Kernel.Frame
import proofs.«401850_j66589172957709_2_alg».proof.Proof.Gen.KernelIdeal
import proofs.«401850_j66589172957709_2_alg».proof.Proof.Gen.KernelIdeal.Skeleton
import proofs.«401850_j66589172957709_2_alg».proof.Proof.Gen.KernelIdeal.Launch
import proofs.«401850_j66589172957709_2_alg».proof.Proof.Gen.KernelIdeal.Points
import proofs.«401850_j66589172957709_2_alg».proof.Proof.Gen.KernelIdeal.Frame
import proofs.«401850_j66589172957709_2_alg».proof.Proof.Gen.ReferenceIdeal
import proofs.«401850_j66589172957709_2_alg».proof.Proof.Gen.ReferenceIdeal.Run
import proofs.«401850_j66589172957709_2_alg».proof.Proof.Gen.ReferenceIdeal.Read
import proofs.«401850_j66589172957709_2_alg».proof.Proof.Gen.Pre_finite_inputs
import proofs.«401850_j66589172957709_2_alg».proof.Proof.RunNamed
import proofs.«401850_j66589172957709_2_alg».proof.Proof.KValue
import proofs.«401850_j66589172957709_2_alg».proof.Proof.Bridge
import proofs.«401850_j66589172957709_2_alg».proof.Proof.PreDecode
import proofs.«401850_j66589172957709_2_alg».proof.Proof.RefFinite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result: the kernel program's result buffer is
    `outK` of its arguments, the reference's is its last stage of its own, and under the precondition (decoded: every float
    argument real-valued, every graph number in [0, 2000)) the two are one array. -/
theorem algebraic : Cert.algebraic_KernelIdeal_ReferenceIdeal := by
  intro m ρ m' ρ' hpre hagree
  refine ⟨fun c => Cert.KernelIdeal.Host.outK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Host.kernel_value m ρ c), (h c).2⟩)
      (Cert.KernelIdeal.Gen.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v84_eq]
    obtain ⟨e0, e1, e2, e3, e4, e5, e6, e7, e8, e9, e10, e11, e12⟩ := hagree c
    rw [e0, e1, e2, e3, e4, e5, e6, e7, e8, e9, e10, e11, e12]
    obtain ⟨_, r1, r3, r4, r5, r6, r7, r8, r9, r10, _, _, hb⟩ := Cert.PreDecode.decode _ _ _ _ _ _ _ _ _ _ _ _ _ (hpre c)
    exact (Cert.Bridge.out_bridge _ _ _ _ _ _ _ _ _ _ _ _ _ hb
      (Cert.ReferenceIdeal.RefVal.v_real _ _ _ _ _ _ _ _ _ _ r1 r3 r4 r5 r6 r7 r8 r9 r10)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
